-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S2x65536 : Shape := ⟨2, ![2, 65536]⟩
abbrev S65536x128 : Shape := ⟨2, ![65536, 128]⟩
abbrev S512x256 : Shape := ⟨2, ![512, 256]⟩
abbrev S131072 : Shape := ⟨1, ![131072]⟩
abbrev S512x512 : Shape := ⟨2, ![512, 512]⟩
abbrev S512 : Shape := ⟨1, ![512]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg9 : FVec F S512x512 .f32) (main_arg10 : FVec F S512 .f32) (main_arg11 : FVec F S512x256 .f32) (main_arg12 : FVec F S256 .f32) (main_v33 : IVec S_ 1) : IVec S_ 1 :=
  let main_v34 : FVec F S512x512 .f32 := Host.absf main_arg9
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg6 : FVec F S512 .f32) (main_arg7 : FVec F S512x256 .f32) (main_arg8 : FVec F S256 .f32) (main_arg9 : FVec F S512x512 .f32) (main_arg10 : FVec F S512 .f32) (main_arg11 : FVec F S512x256 .f32) (main_arg12 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S131072x256 .f32) (main_arg1 : IVec S2x65536 32) (main_arg2 : FVec F S65536x128 .f32) (main_arg3 : FVec F S512x256 .f32) (main_arg4 : IVec S131072 32) (main_arg5 : FVec F S512x512 .f32) (main_arg6 : FVec F S512 .f32) (main_arg7 : FVec F S512x256 .f32) (main_arg8 : FVec F S256 .f32) (main_arg9 : FVec F S512x512 .f32) (main_arg10 : FVec F S512 .f32) (main_arg11 : FVec F S512x256 .f32) (main_arg12 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_v13 main_v16
-- ==== Kernel.lean ====
abbrev S131072x256 : Shape := ⟨2, ![131072, 256]⟩
abbrev S2x65536 : Shape := ⟨2, ![2, 65536]⟩
abbrev S65536x128 : Shape := ⟨2, ![65536, 128]⟩
abbrev S512x256 : Shape := ⟨2, ![512, 256]⟩
abbrev S131072 : Shape := ⟨1, ![131072]⟩
abbrev S512x512 : Shape := ⟨2, ![512, 512]⟩
abbrev S512 : Shape := ⟨1, ![512]⟩
abbrev S256 : Shape := ⟨1, ![256]⟩
abbrev S131072x1 : Shape := ⟨2, ![131072, 1]⟩
abbrev S256x512 : Shape := ⟨2, ![256, 512]⟩
abbrev S1x512 : Shape := ⟨2, ![1, 512]⟩
abbrev S1x256 : Shape := ⟨2, ![1, 256]⟩
abbrev S2x512x256 : Shape := ⟨3, ![2, 512, 256]⟩
abbrev S2x1x512 : Shape := ⟨3, ![2, 1, 512]⟩
abbrev S2048x256 : Shape := ⟨2, ![2048, 256]⟩
abbrev S2048x1 : Shape := ⟨2, ![2048, 1]⟩
abbrev S1x512x256 : Shape := ⟨3, ![1, 512, 256]⟩
abbrev S1x1x512 : Shape := ⟨3, ![1, 1, 512]⟩
abbrev S2048x512 : Shape := ⟨2, ![2048, 512]⟩
abbrev S512x1 : Shape := ⟨2, ![512, 1]⟩

abbrev nBuf : Space → Nat
  | .hbm => 34
  | .vmem => 24
  | .smem => 0
  | _ => 0

abbrev bufTy : (tb : Table) → Fin (tcTables nBuf tb) → BufTy
  | .hbm, ⟨0, _⟩ => ⟨S131072x256, .f32⟩
  | .hbm, ⟨1, _⟩ => ⟨S2x65536, .i32⟩
  | .hbm, ⟨2, _⟩ => ⟨S65536x128, .f32⟩
  | .hbm, ⟨3, _⟩ => ⟨S512x256, .f32⟩
  | .hbm, ⟨4, _⟩ => ⟨S131072, .i32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S131072x1, .i32⟩
  | .hbm, ⟨14, _⟩ => ⟨S512x256, .bf16⟩
  | .hbm, ⟨15, _⟩ => ⟨S256x512, .f32⟩
  | .hbm, ⟨16, _⟩ => ⟨S256x512, .bf16⟩
  | .hbm, ⟨17, _⟩ => ⟨S256x512, .f32⟩
  | .hbm, ⟨18, _⟩ => ⟨S256x512, .bf16⟩
  | .hbm, ⟨19, _⟩ => ⟨S512x256, .bf16⟩
  | .hbm, ⟨20, _⟩ => ⟨S256x512, .f32⟩
  | .hbm, ⟨21, _⟩ => ⟨S256x512, .bf16⟩
  | .hbm, ⟨22, _⟩ => ⟨S256x512, .f32⟩
  | .hbm, ⟨23, _⟩ => ⟨S256x512, .bf16⟩
  | .hbm, ⟨24, _⟩ => ⟨S512x256, .bf16⟩
  | .hbm, ⟨25, _⟩ => ⟨S512x512, .f32⟩
  | .hbm, ⟨26, _⟩ => ⟨S512x512, .bf16⟩
  | .hbm, ⟨27, _⟩ => ⟨S1x512, .f32⟩
  | .hbm, ⟨28, _⟩ => ⟨S1x256, .f32⟩
  | .hbm, ⟨29, _⟩ => ⟨S1x512, .f32⟩
  | .hbm, ⟨30, _⟩ => ⟨S1x256, .f32⟩
  | .hbm, ⟨31, _⟩ => ⟨S2x512x256, .f32⟩
  | .hbm, ⟨32, _⟩ => ⟨S2x1x512, .f32⟩
  | .hbm, ⟨33, _⟩ => ⟨S512x256, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S512x512, .bf16⟩
  | .local _ .vmem, ⟨5, _⟩ => ⟨S256x512, .bf16⟩
  | .local _ .vmem, ⟨6, _⟩ => ⟨S1x512, .f32⟩
  | .local _ .vmem, ⟨7, _⟩ => ⟨S512x256, .bf16⟩
  | .local _ .vmem, ⟨8, _⟩ => ⟨S1x256, .f32⟩
  | .local _ .vmem, ⟨9, _⟩ => ⟨S1x512x256, .f32⟩
  | .local _ .vmem, ⟨10, _⟩ => ⟨S1x512x256, .f32⟩
  | .local _ .vmem, ⟨11, _⟩ => ⟨S1x1x512, .f32⟩
  | .local _ .vmem, ⟨12, _⟩ => ⟨S1x1x512, .f32⟩
  | .local _ .vmem, ⟨13, _⟩ => ⟨S512x256, .f32⟩
  | .local _ .vmem, ⟨14, _⟩ => ⟨S1x512, .f32⟩
  | .local _ .vmem, ⟨15, _⟩ => ⟨S2x512x256, .f32⟩
  | .local _ .vmem, ⟨16, _⟩ => ⟨S2x1x512, .f32⟩
  | .local _ .vmem, ⟨17, _⟩ => ⟨S512x256, .bf16⟩
  | .local _ .vmem, ⟨18, _⟩ => ⟨S256x512, .bf16⟩
  | .local _ .vmem, ⟨19, _⟩ => ⟨S256x512, .bf16⟩
  | .local _ .vmem, ⟨20, _⟩ => ⟨S1x512, .f32⟩
  | .local _ .vmem, ⟨21, _⟩ => ⟨S512x256, .bf16⟩
  | .local _ .vmem, ⟨22, _⟩ => ⟨S1x256, .f32⟩
  | .local _ .vmem, ⟨23, _⟩ => ⟨S512x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v50 : BitVec 1 := Scalar.cmpi .eq arg1 c31_i32
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  shapeCasts_S131072_S131072x1 : S131072.ShapeCasts S131072x1
  bitsLt_bf16_f32 : FTy.bits .bf16 < FTy.bits .f32
  slices_S512x512_S256x512_0_0 : S512x512.Slices ![0, 0] S256x512
  slices_S512x512_S256x512_256_0 : S512x512.Slices ![256, 0] S256x512
  shapeCasts_S512_S1x512 : S512.ShapeCasts S1x512
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S2048x512 : S1x512.Broadcasts S2048x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x512_S512 : S2048x512.Reduces [0] S512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2x512x256_S2x512x256_0_0_0 : ∀ a, (![0, 0, 0] : Fin 3 → Nat) a + S2x512x256.size a ≤ S2x512x256.size a
  h_S2x512x256 : 0 < S2x512x256.numel
  shapeCasts_S2x512x256_S2x512x256 : S2x512x256.ShapeCasts S2x512x256
  reduces_S2x512x256_S512x256 : S2x512x256.Reduces [0] S512x256
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  reduces_S2x1x512_S1x512 : S2x1x512.Reduces [0] S1x512
  transposes_S1x512_p1_0_S512x1 : S1x512.Transposes [1, 0] S512x1
  broadcasts_S512x1_S512x256 : S512x1.Broadcasts S512x256
  broadcasts_S1x512_S512x512 : S1x512.Broadcasts S512x512
  broadcasts_S1x256_S512x256 : S1x256.Broadcasts S512x256
  dot_S512x256_S256x512_S512x512_1_0_0_1_n_n_wf : DotDims.WF S512x256 S256x512 S512x512 [1] [0] [0] [1] [] []
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  dot_S2048x512_S2048x256_S512x256_0_0_1_1_n_n_wf : DotDims.WF S2048x512 S2048x256 S512x256 [0] [0] [1] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S2x512x256.size a
  hwx0_7 : ∀ i : grid0.Coords, EltTy.bits .f32 = 32 ∨ (Rect.block (s := S2x512x256) S1x512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S2x1x512.size a
  hwx0_8 : ∀ i : grid0.Coords, EltTy.bits .f32 = 32 ∨ (Rect.block (s := S2x1x512) S1x1x512.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x512x256.size a ≤ S2x512x256.size a
  hwx1_0 : ∀ i : grid1.Coords, EltTy.bits .f32 = 32 ∨ (Rect.block (s := S2x512x256) S2x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x512.size a ≤ S2x1x512.size a
  hwx1_1 : ∀ i : grid1.Coords, EltTy.bits .f32 = 32 ∨ (Rect.block (s := S2x1x512) S2x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .bf16 = 32 ∨ (Rect.block (s := S256x512) S256x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .bf16 = 32 ∨ (Rect.block (s := S512x256) S512x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S512x256.size a
  hwx1_8 : ∀ i : grid1.Coords, EltTy.bits .f32 = 32 ∨ (Rect.block (s := S512x256) S512x256.size (cc1_transform_8 i) (hinb1_8 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x512_S2048x256_S512x256_0_0_1_1_n_n : DotDims S2048x512 S2048x256 S512x256 where
  lhsContracting := [0]
  rhsContracting := [0]
  lhsNonContracting := [1]
  rhsNonContracting := [1]
  lhsBatch := []
  rhsBatch := []
  wf := dot_S2048x512_S2048x256_S512x256_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_0) S1x512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_1) S1x1x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v18_0) S2x512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S2x1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S512x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S131072x256 : Shape := ⟨2, ![131072, 256]⟩
abbrev S2x65536 : Shape := ⟨2, ![2, 65536]⟩
abbrev S65536x128 : Shape := ⟨2, ![65536, 128]⟩
abbrev S512x256 : Shape := ⟨2, ![512, 256]⟩
abbrev S131072 : Shape := ⟨1, ![131072]⟩
abbrev S512x512 : Shape := ⟨2, ![512, 512]⟩
abbrev S512 : Shape := ⟨1, ![512]⟩
abbrev S256 : Shape := ⟨1, ![256]⟩
abbrev S_ : Shape := ⟨0, ![]⟩
abbrev S131072x1 : Shape := ⟨2, ![131072, 1]⟩
abbrev S131072x512 : Shape := ⟨2, ![131072, 512]⟩
abbrev S1x512 : Shape := ⟨2, ![1, 512]⟩
abbrev S1x256 : Shape := ⟨2, ![1, 256]⟩
abbrev S512x1 : Shape := ⟨2, ![512, 1]⟩

abbrev nBuf : Space → Nat
  | .hbm => 63
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S2x65536, .i32⟩
  | .hbm, ⟨2, _⟩ => ⟨S65536x128, .f32⟩
  | .hbm, ⟨3, _⟩ => ⟨S512x256, .f32⟩
  | .hbm, ⟨4, _⟩ => ⟨S131072, .i32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x256, .f32⟩
  | .hbm, ⟨22, _⟩ => ⟨S131072x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S_, .f32⟩
  | .hbm, ⟨28, _⟩ => ⟨S131072x512, .f32⟩
  | .hbm, ⟨29, _⟩ => ⟨S131072x512, .f32⟩
  | .hbm, ⟨30, _⟩ => ⟨S131072x256, .f32⟩
  | .hbm, ⟨31, _⟩ => ⟨S1x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S512x256, .f32⟩
  | .hbm, ⟨37, _⟩ => ⟨S131072x1, .i32⟩
  | .hbm, ⟨38, _⟩ => ⟨S512x256, .f32⟩
  | .hbm, ⟨39, _⟩ => ⟨S_, .f32⟩
  | .hbm, ⟨40, _⟩ => ⟨S131072, .f32⟩
  | .hbm, ⟨41, _⟩ => ⟨S_, .f32⟩
  | .hbm, ⟨42, _⟩ => ⟨S512, .f32⟩
  | .hbm, ⟨43, _⟩ => ⟨S131072x1, .i32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512x1, .f32⟩
  | .hbm, ⟨49, _⟩ => ⟨S512x256, .f32⟩
  | .hbm, ⟨50, _⟩ => ⟨S512x256, .f32⟩
  | .hbm, ⟨51, _⟩ => ⟨S512x512, .f32⟩
  | .hbm, ⟨52, _⟩ => ⟨S512x512, .f32⟩
  | .hbm, ⟨53, _⟩ => ⟨S1x512, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x256, .f32⟩
  | .hbm, ⟨60, _⟩ => ⟨S1x256, .f32⟩
  | .hbm, ⟨61, _⟩ => ⟨S512x256, .f32⟩
  | .hbm, ⟨62, _⟩ => ⟨S512x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call0_cst : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x256_S131072x256_S131072x512_d1 : Shape.Concatenates [S131072x256, S131072x256] S131072x512 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x256_S512x256_S512x512_d1 : Shape.Concatenates [S512x256, S512x256] S512x512 1
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S1x256_S512x256_0_1 : S1x256.BroadcastsInDim S512x256 (![0, 1] : Fin 2 → Fin S512x256.rank)
  gather_S512x256_S131072x1_S131072x256_1_0_n_n_0_1_1256_wf : GatherDims.WF S512x256 S131072x1 S131072x256 [1] [0] [] [0] [] 1 ![1, 256]
  dot_S131072x512_S512x512_S131072x512_1_0_0_1_n_n_wf : DotDims.WF S131072x512 S512x512 S131072x512 [1] [0] [0] [1] [] []
  dot_S131072x512_S512x256_S131072x256_1_0_0_1_n_n_wf : DotDims.WF S131072x512 S512x256 S131072x256 [1] [0] [0] [1] [] []
  scatter_S512x256_S131072x1_S131072x256_1_0_0_1_wf : ScatterDims.WF S512x256 S131072x1 S131072x256 [1] [0] [0] 1
  scatter_S512_S131072x1_S131072_n_0_0_1_wf : ScatterDims.WF S512 S131072x1 S131072 [] [0] [0] 1
  dot_S512x512_S512x512_S512x512_1_0_0_1_n_n_wf : DotDims.WF S512x512 S512x512 S512x512 [1] [0] [0] [1] [] []
  dot_S512x512_S512x256_S512x256_1_0_0_1_n_n_wf : DotDims.WF S512x512 S512x256 S512x256 [1] [0] [0] [1] [] []

variable [Facts₀]

def gather_S512x256_S131072x1_S131072x256_1_0_n_n_0_1_1256 : GatherDims S512x256 S131072x1 S131072x256 where
  offsetDims := [1]
  collapsedSliceDims := [0]
  operandBatchingDims := []
  startIndicesBatchingDims := []
  startIndexMap := [0]
  indexVectorDim := 1
  sliceSizes := ![1, 256]
  wf := gather_S512x256_S131072x1_S131072x256_1_0_n_n_0_1_1256_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def scatter_S512x256_S131072x1_S131072x256_1_0_0_1 : ScatterDims S512x256 S131072x1 S131072x256 where
  updateWindowDims := [1]
  insertedWindowDims := [0]
  scatterDimsToOperandDims := [0]
  indexVectorDim := 1
  wf := scatter_S512x256_S131072x1_S131072x256_1_0_0_1_wf
def scatter_S512_S131072x1_S131072_n_0_0_1 : ScatterDims S512 S131072x1 S131072 where
  updateWindowDims := []
  insertedWindowDims := [0]
  scatterDimsToOperandDims := [0]
  indexVectorDim := 1
  wf := scatter_S512_S131072x1_S131072_n_0_0_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

class Facts : Prop extends Facts₀ where

variable [Facts]
-- ==== Proof.KBase.lean ====
/- What the two kernels' frames share: each window's block at a grid point read off the array the region finds, the fact that an input's staging buffer holds that block whether or not it was fetched at the point, the first kernel's two conditions (first step of a half: reset the accumulators; last step: write them out) decided over the 2 × 32 grid, where its two outputs are idle, and the names of the staging and scratch buffers. -/
import proofs.«423388_j24472723652621_3_alg».proof.Proof.Gen.Kernel.Launch
import proofs.«423388_j24472723652621_3_alg».proof.Proof.Gen.Kernel.Skeleton
import proofs.«423388_j24472723652621_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The first kernel (64 points: two halves of 32 steps) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's staging buffer holds its block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2's staging buffer holds its block at every point, fetched there or not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input 3's staging buffer holds its block at every point, fetched there or not: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input 4's staging buffer holds its block at every point, fetched there or not: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input 5's staging buffer holds its block at every point, fetched there or not: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input 6's staging buffer holds its block at every point, fetched there or not: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel (one point) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## The first kernel's two conditions -/

/-- "This is the first step of its half": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last step of its half": the accumulators are written out. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Output 7 is stored only at a half's last step; elsewhere it is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output 8 is stored only at a half's last step; elsewhere it is idle and not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging and scratch buffers by name -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms1_0 (t : Fin cfg1.N) : Memref sig .tc .vmem S2x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x256 .f32 := win1_8.stage (cfg1.slots t 8)
abbrev hs1_8 (t : Fin cfg1.N) : (ms1_8 t).IsWhole := hstage1_8 ((cfg1.slots t 8).cast nbuf1_8)
/-- One staging buffer of each output of the first kernel, through which its contents are stated. -/
abbrev VO0_7 : View sig .tc .vmem S1x512x256 .f32 := (Memref.whole cc0_stg7_0 : Memref sig .tc .vmem S1x512x256 .f32).view
abbrev VO0_8 : View sig .tc .vmem S1x1x512 .f32 := (Memref.whole cc0_stg8_0 : Memref sig .tc .vmem S1x1x512 .f32).view
/-- The two accumulators the first kernel carries from step to step. -/
abbrev scM0_0 : Memref sig .tc .vmem S512x256 .f32 := Memref.whole cc0_scratch0
abbrev scM0_1 : Memref sig .tc .vmem S1x512 .f32 := Memref.whole cc0_scratch1
abbrev VS0_0 : View sig .tc .vmem S512x256 .f32 := scM0_0.view
abbrev VS0_1 : View sig .tc .vmem S1x512 .f32 := scM0_1.view

/-- The scoped buffers the first kernel never touches: the second kernel's staging buffers, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f))

/-- The region's resting invariant with the two accumulators as owned buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole, Rest0]; try rfl

end Cert.Kernel.Fr

end
-- ==== Proof.KRunA.lean ====
/- The node kernel's body run symbolically at a half's first step. -/
import proofs.«423388_j24472723652621_3_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at the first step of a half (the accumulators are reset, nothing is written out): on whole buffers — the seven inputs at their contents, the two idle outputs handed back untouched, the two accumulators at anything — it runs to the end holding the inputs as they were and each buffer it stored into with its stores written, last first. The lists of stores are found by the run itself. -/
noncomputable def kernelRun0_A (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : cond0_0 i) (hc1 : ¬cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (xi7 : Vec F S1x512x256 .f32) (xi8 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Fr

end
-- ==== Proof.KRunB.lean ====
/- The node kernel's body run symbolically at a half's middle steps. -/
import proofs.«423388_j24472723652621_3_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at a middle step of a half (the accumulators are added to, nothing is written out): on whole buffers — the seven inputs at their contents, the two idle outputs handed back untouched, the two accumulators at what the step before left — it runs to the end holding the inputs as they were and each buffer it stored into with its stores written, last first. The lists of stores are found by the run itself. -/
noncomputable def kernelRun0_B (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : ¬cond0_0 i) (hc1 : ¬cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) (xs0 : Vec F S512x256 .f32) (xs1 : Vec F S1x512 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (xi7 : Vec F S1x512x256 .f32) (xi8 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Fr

end
-- ==== Proof.KRunC.lean ====
/- The node kernel's body run symbolically at a half's last step. -/
import proofs.«423388_j24472723652621_3_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at the last step of a half (the accumulators are added to and written out): on whole buffers — the seven inputs at their contents, the two outputs at anything, the two accumulators at what the step before left — it runs to the end holding the inputs as they were and each buffer it stored into with its stores written, last first. The lists of stores are found by the run itself. -/
noncomputable def kernelRun0_C (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : ¬cond0_0 i) (hc1 : cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) (xs0 : Vec F S512x256 .f32) (xs1 : Vec F S1x512 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.Kernel.Fr

end
-- ==== Proof.KFrame0.lean ====
/- The first kernel's frame over the 2 × 32 grid: what its two outputs and its two accumulators hold after each point (by recursion on the point: a half's first step starts from zero, every other step adds to what the step before left, a half's last step also writes the accumulators out), the region's invariant carrying the accumulators' contents from point to point, the proof data, and the body obligation at a generic point. -/
import proofs.«423388_j24472723652621_3_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)
abbrev runB (c : Dev nD) (t : Fin cfg0.N) (hc0 : ¬cond0_0 (grid0.coords t)) (hc1 : ¬cond0_1 (grid0.coords t)) (xs0 : Vec F S512x256 .f32) (xs1 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1
abbrev runC (c : Dev nD) (t : Fin cfg0.N) (hc0 : ¬cond0_0 (grid0.coords t)) (hc1 : cond0_1 (grid0.coords t)) (xs0 : Vec F S512x256 .f32) (xs1 : Vec F S1x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-! ## What each case leaves: its stores read back -/

/-- The accumulators after a half's first step. -/
def sA0 (c : Dev nD) (t : Fin cfg0.N) (hc0 : cond0_0 (grid0.coords t)) (hc1 : ¬cond0_1 (grid0.coords t)) : Vec F S512x256 .f32 :=
  VS0_0.read (Elt F) (VS0_0.writes (Elt F) VS0_0.junk (runA V c t hc0 hc1).2.2.1)
def sA1 (c : Dev nD) (t : Fin cfg0.N) (hc0 : cond0_0 (grid0.coords t)) (hc1 : ¬cond0_1 (grid0.coords t)) : Vec F S1x512 .f32 :=
  VS0_1.read (Elt F) (VS0_1.writes (Elt F) VS0_1.junk (runA V c t hc0 hc1).2.2.2.1)
theorem scoverA0 (c : Dev nD) (t : Fin cfg0.N) (hc0 : cond0_0 (grid0.coords t)) (hc1 : ¬cond0_1 (grid0.coords t)) (y : S512x256.Idx) :
    ∃ pc ∈ (runA V c t hc0 hc1).2.2.1, y ∈ pc.1.set :=
  View.cover_of_tiledL (runA V c t hc0 hc1).2.2.1 S512x256.size (by sl_kernel_rfl) y
theorem scoverA1 (c : Dev nD) (t : Fin cfg0.N) (hc0 : cond0_0 (grid0.coords t)) (hc1 : ¬cond0_1 (grid0.coords t)) (y : S1x512.Idx) :
    ∃ pc ∈ (runA V c t hc0 hc1).2.2.2.1, y ∈ pc.1.set :=
  View.cover_of_tiledL (runA V c t hc0 hc1).2.2.2.1 S1x512.size (by sl_kernel_rfl) y

/-- The accumulators after a middle step, over what the step before left. -/
def sB0 (c : Dev nD) (t : Fin cfg0.N) (hc0 : ¬cond0_0 (grid0.coords t)) (hc1 : ¬cond0_1 (grid0.coords t)) (xs0 : Vec F S512x256 .f32) (xs1 : Vec F S1x512 .f32) : Vec F S512x256 .f32 :=
  VS0_0.read (Elt F) (VS0_0.writes (Elt F) VS0_0.junk (runB V c t hc0 hc1 xs0 xs1).2.2.1)
def sB1 (c : Dev nD) (t : Fin cfg0.N) (hc0 : ¬cond0_0 (grid0.coords t)) (hc1 : ¬cond0_1 (grid0.coords t)) (xs0 : Vec F S512x256 .f32) (xs1 : Vec F S1x512 .f32) : Vec F S1x512 .f32 :=
  VS0_1.read (Elt F) (VS0_1.writes (Elt F) VS0_1.junk (runB V c t hc0 hc1 xs0 xs1).2.2.2.1)
theorem scoverB0 (c : Dev nD) (t : Fin cfg0.N) (hc0 : ¬cond0_0 (grid0.coords t)) (hc1 : ¬cond0_1 (grid0.coords t)) (xs0 : Vec F S512x256 .f32) (xs1 : Vec F S1x512 .f32) (y : S512x256.Idx) :
    ∃ pc ∈ (runB V c t hc0 hc1 xs0 xs1).2.2.1, y ∈ pc.1.set :=
  View.cover_of_tiledL (runB V c t hc0 hc1 xs0 xs1).2.2.1 S512x256.size (by sl_kernel_rfl) y
theorem scoverB1 (c : Dev nD) (t : Fin cfg0.N) (hc0 : ¬cond0_0 (grid0.coords t)) (hc1 : ¬cond0_1 (grid0.coords t)) (xs0 : Vec F S512x256 .f32) (xs1 : Vec F S1x512 .f32) (y : S1x512.Idx) :
    ∃ pc ∈ (runB V c t hc0 hc1 xs0 xs1).2.2.2.1, y ∈ pc.1.set :=
  View.cover_of_tiledL (runB V c t hc0 hc1 xs0 xs1).2.2.2.1 S1x512.size (by sl_kernel_rfl) y

/-- The accumulators and the two outputs after a half's last step. -/
def sC0 (c : Dev nD) (t : Fin cfg0.N) (hc0 : ¬cond0_0 (grid0.coords t)) (hc1 : cond0_1 (grid0.coords t)) (xs0 : Vec F S512x256 .f32) (xs1 : Vec F S1x512 .f32) : Vec F S512x256 .f32 :=
  VS0_0.read (Elt F) (VS0_0.writes (Elt F) VS0_0.junk (runC V c t hc0 hc1 xs0 xs1).2.2.1)
def sC1 (c : Dev nD) (t : Fin cfg0.N) (hc0 : ¬cond0_0 (grid0.coords t)) (hc1 : cond0_1 (grid0.coords t)) (xs0 : Vec F S512x256 .f32) (xs1 : Vec F S1x512 .f32) : Vec F S1x512 .f32 :=
  VS0_1.read (Elt F) (VS0_1.writes (Elt F) VS0_1.junk (runC V c t hc0 hc1 xs0 xs1).2.2.2.1)
def oC7 (c : Dev nD) (t : Fin cfg0.N) (hc0 : ¬cond0_0 (grid0.coords t)) (hc1 : cond0_1 (grid0.coords t)) (xs0 : Vec F S512x256 .f32) (xs1 : Vec F S1x512 .f32) : Vec F S1x512x256 .f32 :=
  VO0_7.read (Elt F) (VO0_7.writes (Elt F) VO0_7.junk (runC V c t hc0 hc1 xs0 xs1).1)
def oC8 (c : Dev nD) (t : Fin cfg0.N) (hc0 : ¬cond0_0 (grid0.coords t)) (hc1 : cond0_1 (grid0.coords t)) (xs0 : Vec F S512x256 .f32) (xs1 : Vec F S1x512 .f32) : Vec F S1x1x512 .f32 :=
  VO0_8.read (Elt F) (VO0_8.writes (Elt F) VO0_8.junk (runC V c t hc0 hc1 xs0 xs1).2.1)
theorem scoverC0 (c : Dev nD) (t : Fin cfg0.N) (hc0 : ¬cond0_0 (grid0.coords t)) (hc1 : cond0_1 (grid0.coords t)) (xs0 : Vec F S512x256 .f32) (xs1 : Vec F S1x512 .f32) (y : S512x256.Idx) :
    ∃ pc ∈ (runC V c t hc0 hc1 xs0 xs1).2.2.1, y ∈ pc.1.set :=
  View.cover_of_tiledL (runC V c t hc0 hc1 xs0 xs1).2.2.1 S512x256.size (by sl_kernel_rfl) y
theorem scoverC1 (c : Dev nD) (t : Fin cfg0.N) (hc0 : ¬cond0_0 (grid0.coords t)) (hc1 : cond0_1 (grid0.coords t)) (xs0 : Vec F S512x256 .f32) (xs1 : Vec F S1x512 .f32) (y : S1x512.Idx) :
    ∃ pc ∈ (runC V c t hc0 hc1 xs0 xs1).2.2.2.1, y ∈ pc.1.set :=
  View.cover_of_tiledL (runC V c t hc0 hc1 xs0 xs1).2.2.2.1 S1x512.size (by sl_kernel_rfl) y
theorem coverC7 (c : Dev nD) (t : Fin cfg0.N) (hc0 : ¬cond0_0 (grid0.coords t)) (hc1 : cond0_1 (grid0.coords t)) (xs0 : Vec F S512x256 .f32) (xs1 : Vec F S1x512 .f32) (y : S1x512x256.Idx) :
    ∃ pc ∈ (runC V c t hc0 hc1 xs0 xs1).1, y ∈ pc.1.set :=
  View.cover_of_tiledL (runC V c t hc0 hc1 xs0 xs1).1 S1x512x256.size (by sl_kernel_rfl) y
theorem coverC8 (c : Dev nD) (t : Fin cfg0.N) (hc0 : ¬cond0_0 (grid0.coords t)) (hc1 : cond0_1 (grid0.coords t)) (xs0 : Vec F S512x256 .f32) (xs1 : Vec F S1x512 .f32) (y : S1x1x512.Idx) :
    ∃ pc ∈ (runC V c t hc0 hc1 xs0 xs1).2.1, y ∈ pc.1.set :=
  View.cover_of_tiledL (runC V c t hc0 hc1 xs0 xs1).2.1 S1x1x512.size (by sl_kernel_rfl) y

/-- What an output holds at a point where it is idle: nothing consults it (the window is neither written back there nor
    read at the next point). -/
def idle7 : Vec F S1x512x256 .f32 := VO0_7.read (Elt F) VO0_7.junk
def idle8 : Vec F S1x1x512 .f32 := VO0_8.read (Elt F) VO0_8.junk

/-! ## What the outputs and the accumulators hold after each point -/

/-- After the body at position `n`: the two outputs' staging buffers, then the two accumulators. -/
def outsAt0 (c : Dev nD) : (n : ℕ) → n < cfg0.N → Vec F S1x512x256 .f32 × Vec F S1x1x512 .f32 × Vec F S512x256 .f32 × Vec F S1x512 .f32
  | 0, hn => (idle7, idle8, sA0 V c ⟨0, hn⟩ ((hcond0_0 ⟨0, hn⟩).mpr (Nat.zero_mod _)) (fun h => (fun h => by (try dsimp only at h); omega) ((hcond0_1 ⟨0, hn⟩).mp h)), sA1 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by omega)
      else
        (idle7, idle8, sA0 V c ⟨n + 1, hn⟩ ((hcond0_0 ⟨n + 1, hn⟩).mpr h0) (fun h => h1 ((hcond0_1 ⟨n + 1, hn⟩).mp h)), sA1 V c ⟨n + 1, hn⟩ ((hcond0_0 ⟨n + 1, hn⟩).mpr h0) (fun h => h1 ((hcond0_1 ⟨n + 1, hn⟩).mp h)))
    else
      if h1 : (n + 1) % 32 = 31 then
        (oC7 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, oC8 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, sC0 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, sC1 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2)
      else
        (idle7, idle8, sB0 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2, sB1 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2)

/-- The accumulators the step before `t` left. -/
abbrev prev0 (c : Dev nD) (t : Fin cfg0.N) : Vec F S512x256 .f32 := (outsAt0 V c (t.val - 1) (Nat.lt_of_le_of_lt (Nat.sub_le _ _) t.isLt)).2.2.1
abbrev prev1 (c : Dev nD) (t : Fin cfg0.N) : Vec F S1x512 .f32 := (outsAt0 V c (t.val - 1) (Nat.lt_of_le_of_lt (Nat.sub_le _ _) t.isLt)).2.2.2

theorem outsAt0_A (c : Dev nD) (t : Fin cfg0.N) (h0 : t.val % 32 = 0) (h1 : ¬t.val % 32 = 31) :
    outsAt0 V c t.val t.isLt = (idle7, idle8, sA0 V c t ((hcond0_0 t).mpr h0) (fun h => h1 ((hcond0_1 t).mp h)), sA1 V c t ((hcond0_0 t).mpr h0) (fun h => h1 ((hcond0_1 t).mp h))) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (idle7, idle8, sB0 V c t (fun h => h0 ((hcond0_0 t).mp h)) (fun h => h1 ((hcond0_1 t).mp h)) (prev0 V c t) (prev1 V c t), sB1 V c t (fun h => h0 ((hcond0_0 t).mp h)) (fun h => h1 ((hcond0_1 t).mp h)) (prev0 V c t) (prev1 V c t)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (oC7 V c t (fun h => h0 ((hcond0_0 t).mp h)) ((hcond0_1 t).mpr h1) (prev0 V c t) (prev1 V c t), oC8 V c t (fun h => h0 ((hcond0_0 t).mp h)) ((hcond0_1 t).mpr h1) (prev0 V c t) (prev1 V c t), sC0 V c t (fun h => h0 ((hcond0_0 t).mp h)) ((hcond0_1 t).mpr h1) (prev0 V c t) (prev1 V c t), sC1 V c t (fun h => h0 ((hcond0_0 t).mp h)) ((hcond0_1 t).mpr h1) (prev0 V c t) (prev1 V c t)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very first point the resting invariant (the accumulators at anything); afterwards the
    accumulators at what the point before left, the untouched scoped buffers, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: each input's buffer holds its block; the two conditions' closed forms say which of the three
    cases the point is in; the invariant hands the body the accumulators at what the point before left (at anything at the
    very first point) and takes them back at this point's contents; an idle output's buffer passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · -- a half's first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold sA0 sA1; (try dsimp only)
      by_cases hz : t.val = 0
      ·
        rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t ((hcond0_0 t).mpr h0) (fun h => h1 ((hcond0_1 t).mp h))).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA0 V c t _ _)
            isplitl [HS1]
            · unfold owns; iexists _; isplitr
              swap; · iexact HS1
              ipureintro; exact View.read_writes_of_cover _ _ _ _ _ (scoverA1 V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t ((hcond0_0 t).mpr h0) (fun h => h1 ((hcond0_1 t).mp h))).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA0 V c t _ _)
            isplitl [HS1]
            · unfold owns; iexists _; isplitr
              swap; · iexact HS1
              ipureintro; exact View.read_writes_of_cover _ _ _ _ _ (scoverA1 V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 32 = 31
    · -- a half's last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold oC7 oC8 sC0 sC1; (try dsimp only)
      by_cases hz : t.val = 0
      · exfalso; omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runC V c t (fun h => h0 ((hcond0_0 t).mp h)) ((hcond0_1 t).mpr h1) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverC0 V c t _ _ _ _)
            isplitl [HS1]
            · unfold owns; iexists _; isplitr
              swap; · iexact HS1
              ipureintro; exact View.read_writes_of_cover _ _ _ _ _ (scoverC1 V c t _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (coverC7 V c t _ _ _ _)
        unfold owns; iexists _; isplitr
        swap; · iexact H8
        ipureintro; exact View.read_writes_of_cover _ _ _ _ _ (coverC8 V c t _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold sB0 sB1; (try dsimp only)
      by_cases hz : t.val = 0
      · exfalso; omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runB V c t (fun h => h0 ((hcond0_0 t).mp h)) (fun h => h1 ((hcond0_1 t).mp h)) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverB0 V c t _ _ _ _)
            isplitl [HS1]
            · unfold owns; iexists _; isplitr
              swap; · iexact HS1
              ipureintro; exact View.read_writes_of_cover _ _ _ _ _ (scoverB1 V c t _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end

end Cert.Kernel.Fr

end
-- ==== Proof.KRun1.lean ====
/- The second kernel's body run symbolically at its one grid point. -/
import proofs.«423388_j24472723652621_3_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body: on whole buffers — the eight inputs at their contents, the output at anything — it runs to the end holding the inputs as they were and the output with its one store written. -/
noncomputable def kernelRun1 (c : Dev nD) (i : grid1.Coords) (arg1 : Memref sig .tc .vmem S2x512x256 .f32) (harg1 : arg1.IsWhole) (arg2 : Memref sig .tc .vmem S2x1x512 .f32) (harg2 : arg2.IsWhole) (arg3 : Memref sig .tc .vmem S512x256 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S512x256 .f32) (harg9 : arg9.IsWhole)
    (x0 : Vec F S2x512x256 .f32) (x1 : Vec F S2x1x512 .f32) (x2 : Vec F S512x256 .bf16) (x3 : Vec F S256x512 .bf16) (x4 : Vec F S256x512 .bf16) (x5 : Vec F S1x512 .f32) (x6 : Vec F S512x256 .bf16) (x7 : Vec F S1x256 .f32) :
    { L8 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__phi_kernel i arg1 harg1 arg2 harg2 arg3 harg3 arg4 harg4 arg5 harg5 arg6 harg6 arg7 harg7 arg8 harg8 arg9 harg9) K } := by
  refine ⟨?_, fun E K => ?run⟩
  case run =>
    simp only [cc1__phi_kernel_eq_skeleton]; unfold cc1__phi_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.Kernel.Fr

end
-- ==== Proof.KFrame1.lean ====
/- The second kernel's frame at its one grid point: what its output holds after the body (its one store read back), the proof data, and the body obligation. -/
import proofs.«423388_j24472723652621_3_alg».proof.Proof.KRun1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- One staging buffer of the output, through which its contents are stated. -/
abbrev VO1_8 : View sig .tc .vmem S512x256 .f32 := (Memref.whole cc1_stg8_0 : Memref sig .tc .vmem S512x256 .f32).view

abbrev run1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-- The output's staging buffer after the body: its store read back. -/
def out1_8 (c : Dev nD) (t : Fin cfg1.N) : Vec F S512x256 .f32 :=
  VO1_8.read (Elt F) (VO1_8.writes (Elt F) VO1_8.junk (run1 V c t).1)

theorem cover1_8 (c : Dev nD) (t : Fin cfg1.N) (y : S512x256.Idx) : ∃ pc ∈ (run1 V c t).1, y ∈ pc.1.set :=
  View.cover_of_tiledL (run1 V c t).1 S512x256.size (by sl_kernel_rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at the point: each input's buffer holds its block; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_8 V c t)

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.KMain.lean ====
/- The whole run of the program: the buffers' contents at each boundary between @main's items (the launch, the eighteen host operations, the first kernel's region, the second kernel's region), each region as a segment entered from one boundary's contents and left at the next, and the run itself: every weakly fair execution ends with the result array at what the second region's write-back leaves and with every argument array as launched. -/
import proofs.«423388_j24472723652621_3_alg».proof.Proof.KFrame0
import proofs.«423388_j24472723652621_3_alg».proof.Proof.KFrame1
import proofs.«423388_j24472723652621_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch, and after the host operations (the first region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

/-- The node features are the first region's input 0: read, never written. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := Gen.V1_of m c main_arg0 (by decide)
    _ = m ((c : Thread nD τ).loc main_arg0) := rfl
/-- `main_arg1` is no window's array and no host operation's result. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
/-- `main_arg2` is no window's array and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
/-- `main_arg3` is no window's array and no host operation's result. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
/-- `main_arg4` is no window's array and no host operation's result. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
/-- `main_arg5` is no window's array and no host operation's result. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
/-- `main_arg6` is no window's array and no host operation's result. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
/-- `main_arg7` is no window's array and no host operation's result. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl
/-- `main_arg8` is no window's array and no host operation's result. -/
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := Gen.V1_of m c main_arg8 (by decide)
    _ = m ((c : Thread nD τ).loc main_arg8) := rfl
/-- `main_arg9` is no window's array and no host operation's result. -/
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := Gen.V1_of m c main_arg9 (by decide)
    _ = m ((c : Thread nD τ).loc main_arg9) := rfl
/-- `main_arg10` is no window's array and no host operation's result. -/
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := Gen.V1_of m c main_arg10 (by decide)
    _ = m ((c : Thread nD τ).loc main_arg10) := rfl
/-- `main_arg11` is no window's array and no host operation's result. -/
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := Gen.V1_of m c main_arg11 (by decide)
    _ = m ((c : Thread nD τ).loc main_arg11) := rfl
/-- `main_arg12` is no window's array and no host operation's result. -/
theorem W3_main_arg12 (c : Dev nD) : W3 m c (Proc.devRef .tc main_arg12) = m ((c : Thread nD τ).loc main_arg12) :=
  calc W3 m c (Proc.devRef .tc main_arg12)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := Gen.V1_of m c main_arg12 (by decide)
    _ = m ((c : Thread nD τ).loc main_arg12) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first kernel's region: entered from every unscoped buffer at the contents after the host operations, left with
    its arrays at what the write-backs leave. The generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from the first region's exit contents, left with the result array written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The result array ends at what the second region's write-back leaves, and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v19) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
    ⟨(h c _ (mem_uc main_v19 (by decide))).trans (W3_arr m c 8),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c)⟩) (run_all m ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c => (h c).2) (run_main m ρ)

end Cert.Kernel.Fr

end
-- ==== Proof.KIBase.lean ====
/- What the two kernels' frames share: each window's block at a grid point read off the array the region finds, the fact that an input's staging buffer holds that block whether or not it was fetched at the point, the first kernel's two conditions (first step of a half: reset the accumulators; last step: write them out) decided over the 2 × 32 grid, where its two outputs are idle, and the names of the staging and scratch buffers. -/
import proofs.«423388_j24472723652621_3_alg».proof.Proof.Gen.KernelIdeal.Launch
import proofs.«423388_j24472723652621_3_alg».proof.Proof.Gen.KernelIdeal.Skeleton
import proofs.«423388_j24472723652621_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The first kernel (64 points: two halves of 32 steps) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's staging buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input 1's staging buffer holds its block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input 2's staging buffer holds its block at every point, fetched there or not: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input 3's staging buffer holds its block at every point, fetched there or not: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input 4's staging buffer holds its block at every point, fetched there or not: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input 5's staging buffer holds its block at every point, fetched there or not: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input 6's staging buffer holds its block at every point, fetched there or not: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The second kernel (one point) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end

/-! ## The first kernel's two conditions -/

/-- "This is the first step of its half": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last step of its half": the accumulators are written out. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Output 7 is stored only at a half's last step; elsewhere it is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel
/-- Output 8 is stored only at a half's last step; elsewhere it is idle and not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging and scratch buffers by name -/

abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms1_0 (t : Fin cfg1.N) : Memref sig .tc .vmem S2x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x256 .f32 := win1_8.stage (cfg1.slots t 8)
abbrev hs1_8 (t : Fin cfg1.N) : (ms1_8 t).IsWhole := hstage1_8 ((cfg1.slots t 8).cast nbuf1_8)
/-- One staging buffer of each output of the first kernel, through which its contents are stated. -/
abbrev VO0_7 : View sig .tc .vmem S1x512x256 .f32 := (Memref.whole cc0_stg7_0 : Memref sig .tc .vmem S1x512x256 .f32).view
abbrev VO0_8 : View sig .tc .vmem S1x1x512 .f32 := (Memref.whole cc0_stg8_0 : Memref sig .tc .vmem S1x1x512 .f32).view
/-- The two accumulators the first kernel carries from step to step. -/
abbrev scM0_0 : Memref sig .tc .vmem S512x256 .f32 := Memref.whole cc0_scratch0
abbrev scM0_1 : Memref sig .tc .vmem S1x512 .f32 := Memref.whole cc0_scratch1
abbrev VS0_0 : View sig .tc .vmem S512x256 .f32 := scM0_0.view
abbrev VS0_1 : View sig .tc .vmem S1x512 .f32 := scM0_1.view

/-- The scoped buffers the first kernel never touches: the second kernel's staging buffers, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f))

/-- The region's resting invariant with the two accumulators as owned buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA; rw [scopedRest0_eq]; simp only [scM0_0, scM0_1, owns_whole, Rest0]; try rfl

end Cert.KernelIdeal.Fr

end
-- ==== Proof.KIRunA.lean ====
/- The node kernel's body run symbolically at a half's first step. -/
import proofs.«423388_j24472723652621_3_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at the first step of a half (the accumulators are reset, nothing is written out): on whole buffers — the seven inputs at their contents, the two idle outputs handed back untouched, the two accumulators at anything — it runs to the end holding the inputs as they were and each buffer it stored into with its stores written, last first. The lists of stores are found by the run itself. -/
noncomputable def kernelRun0_A (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : cond0_0 i) (hc1 : ¬cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (xi7 : Vec F S1x512x256 .f32) (xi8 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Fr

end
-- ==== Proof.KIRunB.lean ====
/- The node kernel's body run symbolically at a half's middle steps. -/
import proofs.«423388_j24472723652621_3_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at a middle step of a half (the accumulators are added to, nothing is written out): on whole buffers — the seven inputs at their contents, the two idle outputs handed back untouched, the two accumulators at what the step before left — it runs to the end holding the inputs as they were and each buffer it stored into with its stores written, last first. The lists of stores are found by the run itself. -/
noncomputable def kernelRun0_B (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : ¬cond0_0 i) (hc1 : ¬cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) (xs0 : Vec F S512x256 .f32) (xs1 : Vec F S1x512 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (xi7 : Vec F S1x512x256 .f32) (xi8 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨[], [], ?_, ?_, fun xi7 xi8 E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Fr

end
-- ==== Proof.KIRunC.lean ====
/- The node kernel's body run symbolically at a half's last step. -/
import proofs.«423388_j24472723652621_3_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The node kernel's body at the last step of a half (the accumulators are added to and written out): on whole buffers — the seven inputs at their contents, the two outputs at anything, the two accumulators at what the step before left — it runs to the end holding the inputs as they were and each buffer it stored into with its stores written, last first. The lists of stores are found by the run itself. -/
noncomputable def kernelRun0_C (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S512x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S1x512x256 .f32) (harg9 : arg9.IsWhole) (arg10 : Memref sig .tc .vmem S1x1x512 .f32) (harg10 : arg10.IsWhole) (arg11 : Memref sig .tc .vmem S512x256 .f32) (harg11 : arg11.IsWhole) (arg12 : Memref sig .tc .vmem S1x512 .f32) (harg12 : arg12.IsWhole) (hc0 : ¬cond0_0 i) (hc1 : cond0_1 i)
    (x0 : Vec F S2048x256 .f32) (x1 : Vec F S2048x1 .i32) (x2 : Vec F S512x512 .bf16) (x3 : Vec F S256x512 .bf16) (x4 : Vec F S1x512 .f32) (x5 : Vec F S512x256 .bf16) (x6 : Vec F S1x256 .f32) (xs0 : Vec F S512x256 .f32) (xs1 : Vec F S1x512 .f32) :
    Σ' (L7 : List (View.Piece (Elt F) S1x512x256 .f32)) (L8 : List (View.Piece (Elt F) S1x1x512 .f32)) (LS0 : List (View.Piece (Elt F) S512x256 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__node_kernel_eq_skeleton]; unfold cc0__node_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.KernelIdeal.Fr

end
-- ==== Proof.KIFrame0.lean ====
/- The first kernel's frame over the 2 × 32 grid: what its two outputs and its two accumulators hold after each point (by recursion on the point: a half's first step starts from zero, every other step adds to what the step before left, a half's last step also writes the accumulators out), the region's invariant carrying the accumulators' contents from point to point, the proof data, and the body obligation at a generic point. -/
import proofs.«423388_j24472723652621_3_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a point of the grid -/

abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)
abbrev runB (c : Dev nD) (t : Fin cfg0.N) (hc0 : ¬cond0_0 (grid0.coords t)) (hc1 : ¬cond0_1 (grid0.coords t)) (xs0 : Vec F S512x256 .f32) (xs1 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1
abbrev runC (c : Dev nD) (t : Fin cfg0.N) (hc0 : ¬cond0_0 (grid0.coords t)) (hc1 : cond0_1 (grid0.coords t)) (xs0 : Vec F S512x256 .f32) (xs1 : Vec F S1x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-! ## What each case leaves: its stores read back -/

/-- The accumulators after a half's first step. -/
def sA0 (c : Dev nD) (t : Fin cfg0.N) (hc0 : cond0_0 (grid0.coords t)) (hc1 : ¬cond0_1 (grid0.coords t)) : Vec F S512x256 .f32 :=
  VS0_0.read (Elt F) (VS0_0.writes (Elt F) VS0_0.junk (runA V c t hc0 hc1).2.2.1)
def sA1 (c : Dev nD) (t : Fin cfg0.N) (hc0 : cond0_0 (grid0.coords t)) (hc1 : ¬cond0_1 (grid0.coords t)) : Vec F S1x512 .f32 :=
  VS0_1.read (Elt F) (VS0_1.writes (Elt F) VS0_1.junk (runA V c t hc0 hc1).2.2.2.1)
theorem scoverA0 (c : Dev nD) (t : Fin cfg0.N) (hc0 : cond0_0 (grid0.coords t)) (hc1 : ¬cond0_1 (grid0.coords t)) (y : S512x256.Idx) :
    ∃ pc ∈ (runA V c t hc0 hc1).2.2.1, y ∈ pc.1.set :=
  View.cover_of_tiledL (runA V c t hc0 hc1).2.2.1 S512x256.size (by sl_kernel_rfl) y
theorem scoverA1 (c : Dev nD) (t : Fin cfg0.N) (hc0 : cond0_0 (grid0.coords t)) (hc1 : ¬cond0_1 (grid0.coords t)) (y : S1x512.Idx) :
    ∃ pc ∈ (runA V c t hc0 hc1).2.2.2.1, y ∈ pc.1.set :=
  View.cover_of_tiledL (runA V c t hc0 hc1).2.2.2.1 S1x512.size (by sl_kernel_rfl) y

/-- The accumulators after a middle step, over what the step before left. -/
def sB0 (c : Dev nD) (t : Fin cfg0.N) (hc0 : ¬cond0_0 (grid0.coords t)) (hc1 : ¬cond0_1 (grid0.coords t)) (xs0 : Vec F S512x256 .f32) (xs1 : Vec F S1x512 .f32) : Vec F S512x256 .f32 :=
  VS0_0.read (Elt F) (VS0_0.writes (Elt F) VS0_0.junk (runB V c t hc0 hc1 xs0 xs1).2.2.1)
def sB1 (c : Dev nD) (t : Fin cfg0.N) (hc0 : ¬cond0_0 (grid0.coords t)) (hc1 : ¬cond0_1 (grid0.coords t)) (xs0 : Vec F S512x256 .f32) (xs1 : Vec F S1x512 .f32) : Vec F S1x512 .f32 :=
  VS0_1.read (Elt F) (VS0_1.writes (Elt F) VS0_1.junk (runB V c t hc0 hc1 xs0 xs1).2.2.2.1)
theorem scoverB0 (c : Dev nD) (t : Fin cfg0.N) (hc0 : ¬cond0_0 (grid0.coords t)) (hc1 : ¬cond0_1 (grid0.coords t)) (xs0 : Vec F S512x256 .f32) (xs1 : Vec F S1x512 .f32) (y : S512x256.Idx) :
    ∃ pc ∈ (runB V c t hc0 hc1 xs0 xs1).2.2.1, y ∈ pc.1.set :=
  View.cover_of_tiledL (runB V c t hc0 hc1 xs0 xs1).2.2.1 S512x256.size (by sl_kernel_rfl) y
theorem scoverB1 (c : Dev nD) (t : Fin cfg0.N) (hc0 : ¬cond0_0 (grid0.coords t)) (hc1 : ¬cond0_1 (grid0.coords t)) (xs0 : Vec F S512x256 .f32) (xs1 : Vec F S1x512 .f32) (y : S1x512.Idx) :
    ∃ pc ∈ (runB V c t hc0 hc1 xs0 xs1).2.2.2.1, y ∈ pc.1.set :=
  View.cover_of_tiledL (runB V c t hc0 hc1 xs0 xs1).2.2.2.1 S1x512.size (by sl_kernel_rfl) y

/-- The accumulators and the two outputs after a half's last step. -/
def sC0 (c : Dev nD) (t : Fin cfg0.N) (hc0 : ¬cond0_0 (grid0.coords t)) (hc1 : cond0_1 (grid0.coords t)) (xs0 : Vec F S512x256 .f32) (xs1 : Vec F S1x512 .f32) : Vec F S512x256 .f32 :=
  VS0_0.read (Elt F) (VS0_0.writes (Elt F) VS0_0.junk (runC V c t hc0 hc1 xs0 xs1).2.2.1)
def sC1 (c : Dev nD) (t : Fin cfg0.N) (hc0 : ¬cond0_0 (grid0.coords t)) (hc1 : cond0_1 (grid0.coords t)) (xs0 : Vec F S512x256 .f32) (xs1 : Vec F S1x512 .f32) : Vec F S1x512 .f32 :=
  VS0_1.read (Elt F) (VS0_1.writes (Elt F) VS0_1.junk (runC V c t hc0 hc1 xs0 xs1).2.2.2.1)
def oC7 (c : Dev nD) (t : Fin cfg0.N) (hc0 : ¬cond0_0 (grid0.coords t)) (hc1 : cond0_1 (grid0.coords t)) (xs0 : Vec F S512x256 .f32) (xs1 : Vec F S1x512 .f32) : Vec F S1x512x256 .f32 :=
  VO0_7.read (Elt F) (VO0_7.writes (Elt F) VO0_7.junk (runC V c t hc0 hc1 xs0 xs1).1)
def oC8 (c : Dev nD) (t : Fin cfg0.N) (hc0 : ¬cond0_0 (grid0.coords t)) (hc1 : cond0_1 (grid0.coords t)) (xs0 : Vec F S512x256 .f32) (xs1 : Vec F S1x512 .f32) : Vec F S1x1x512 .f32 :=
  VO0_8.read (Elt F) (VO0_8.writes (Elt F) VO0_8.junk (runC V c t hc0 hc1 xs0 xs1).2.1)
theorem scoverC0 (c : Dev nD) (t : Fin cfg0.N) (hc0 : ¬cond0_0 (grid0.coords t)) (hc1 : cond0_1 (grid0.coords t)) (xs0 : Vec F S512x256 .f32) (xs1 : Vec F S1x512 .f32) (y : S512x256.Idx) :
    ∃ pc ∈ (runC V c t hc0 hc1 xs0 xs1).2.2.1, y ∈ pc.1.set :=
  View.cover_of_tiledL (runC V c t hc0 hc1 xs0 xs1).2.2.1 S512x256.size (by sl_kernel_rfl) y
theorem scoverC1 (c : Dev nD) (t : Fin cfg0.N) (hc0 : ¬cond0_0 (grid0.coords t)) (hc1 : cond0_1 (grid0.coords t)) (xs0 : Vec F S512x256 .f32) (xs1 : Vec F S1x512 .f32) (y : S1x512.Idx) :
    ∃ pc ∈ (runC V c t hc0 hc1 xs0 xs1).2.2.2.1, y ∈ pc.1.set :=
  View.cover_of_tiledL (runC V c t hc0 hc1 xs0 xs1).2.2.2.1 S1x512.size (by sl_kernel_rfl) y
theorem coverC7 (c : Dev nD) (t : Fin cfg0.N) (hc0 : ¬cond0_0 (grid0.coords t)) (hc1 : cond0_1 (grid0.coords t)) (xs0 : Vec F S512x256 .f32) (xs1 : Vec F S1x512 .f32) (y : S1x512x256.Idx) :
    ∃ pc ∈ (runC V c t hc0 hc1 xs0 xs1).1, y ∈ pc.1.set :=
  View.cover_of_tiledL (runC V c t hc0 hc1 xs0 xs1).1 S1x512x256.size (by sl_kernel_rfl) y
theorem coverC8 (c : Dev nD) (t : Fin cfg0.N) (hc0 : ¬cond0_0 (grid0.coords t)) (hc1 : cond0_1 (grid0.coords t)) (xs0 : Vec F S512x256 .f32) (xs1 : Vec F S1x512 .f32) (y : S1x1x512.Idx) :
    ∃ pc ∈ (runC V c t hc0 hc1 xs0 xs1).2.1, y ∈ pc.1.set :=
  View.cover_of_tiledL (runC V c t hc0 hc1 xs0 xs1).2.1 S1x1x512.size (by sl_kernel_rfl) y

/-- What an output holds at a point where it is idle: nothing consults it (the window is neither written back there nor
    read at the next point). -/
def idle7 : Vec F S1x512x256 .f32 := VO0_7.read (Elt F) VO0_7.junk
def idle8 : Vec F S1x1x512 .f32 := VO0_8.read (Elt F) VO0_8.junk

/-! ## What the outputs and the accumulators hold after each point -/

/-- After the body at position `n`: the two outputs' staging buffers, then the two accumulators. -/
def outsAt0 (c : Dev nD) : (n : ℕ) → n < cfg0.N → Vec F S1x512x256 .f32 × Vec F S1x1x512 .f32 × Vec F S512x256 .f32 × Vec F S1x512 .f32
  | 0, hn => (idle7, idle8, sA0 V c ⟨0, hn⟩ ((hcond0_0 ⟨0, hn⟩).mpr (Nat.zero_mod _)) (fun h => (fun h => by (try dsimp only at h); omega) ((hcond0_1 ⟨0, hn⟩).mp h)), sA1 V c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 32 = 0 then
      if h1 : (n + 1) % 32 = 31 then
        False.elim (by omega)
      else
        (idle7, idle8, sA0 V c ⟨n + 1, hn⟩ ((hcond0_0 ⟨n + 1, hn⟩).mpr h0) (fun h => h1 ((hcond0_1 ⟨n + 1, hn⟩).mp h)), sA1 V c ⟨n + 1, hn⟩ ((hcond0_0 ⟨n + 1, hn⟩).mpr h0) (fun h => h1 ((hcond0_1 ⟨n + 1, hn⟩).mp h)))
    else
      if h1 : (n + 1) % 32 = 31 then
        (oC7 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, oC8 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, sC0 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2, sC1 V c ⟨n + 1, hn⟩ (fun h => h0 ((hcond0_0 ⟨n + 1, hn⟩).mp h)) ((hcond0_1 ⟨n + 1, hn⟩).mpr h1) (outsAt0 c n (Nat.lt_of_succ_lt hn)).2.2.1 (outsAt0 c n (Nat.lt_of_succ_lt hn)).2.2.2)
      else
        (idle7, idle8, sB0 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2, sB1 V c ⟨n + 1, hn⟩ (fun h => h0 ((hcond0_0 ⟨n + 1, hn⟩).mp h)) (fun h => h1 ((hcond0_1 ⟨n + 1, hn⟩).mp h)) (outsAt0 c n (Nat.lt_of_succ_lt hn)).2.2.1 (outsAt0 c n (Nat.lt_of_succ_lt hn)).2.2.2)

/-- The accumulators the step before `t` left. -/
abbrev prev0 (c : Dev nD) (t : Fin cfg0.N) : Vec F S512x256 .f32 := (outsAt0 V c (t.val - 1) (Nat.lt_of_le_of_lt (Nat.sub_le _ _) t.isLt)).2.2.1
abbrev prev1 (c : Dev nD) (t : Fin cfg0.N) : Vec F S1x512 .f32 := (outsAt0 V c (t.val - 1) (Nat.lt_of_le_of_lt (Nat.sub_le _ _) t.isLt)).2.2.2

theorem outsAt0_A (c : Dev nD) (t : Fin cfg0.N) (h0 : t.val % 32 = 0) (h1 : ¬t.val % 32 = 31) :
    outsAt0 V c t.val t.isLt = (idle7, idle8, sA0 V c t ((hcond0_0 t).mpr h0) (fun h => h1 ((hcond0_1 t).mp h)), sA1 V c t ((hcond0_0 t).mpr h0) (fun h => h1 ((hcond0_1 t).mp h))) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (idle7, idle8, sB0 V c t (fun h => h0 ((hcond0_0 t).mp h)) (fun h => h1 ((hcond0_1 t).mp h)) (prev0 V c t) (prev1 V c t), sB1 V c t (fun h => h0 ((hcond0_0 t).mp h)) (fun h => h1 ((hcond0_1 t).mp h)) (prev0 V c t) (prev1 V c t)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (oC7 V c t (fun h => h0 ((hcond0_0 t).mp h)) ((hcond0_1 t).mpr h1) (prev0 V c t) (prev1 V c t), oC8 V c t (fun h => h0 ((hcond0_0 t).mp h)) ((hcond0_1 t).mpr h1) (prev0 V c t) (prev1 V c t), sC0 V c t (fun h => h0 ((hcond0_0 t).mp h)) ((hcond0_1 t).mpr h1) (prev0 V c t) (prev1 V c t), sC1 V c t (fun h => h0 ((hcond0_0 t).mp h)) ((hcond0_1 t).mpr h1) (prev0 V c t) (prev1 V c t)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very first point the resting invariant (the accumulators at anything); afterwards the
    accumulators at what the point before left, the untouched scoped buffers, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ Rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: each input's buffer holds its block; the two conditions' closed forms say which of the three
    cases the point is in; the invariant hands the body the accumulators at what the point before left (at anything at the
    very first point) and takes them back at this point's contents; an idle output's buffer passes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · -- a half's first step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold sA0 sA1; (try dsimp only)
      by_cases hz : t.val = 0
      ·
        rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t ((hcond0_0 t).mpr h0) (fun h => h1 ((hcond0_1 t).mp h))).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA0 V c t _ _)
            isplitl [HS1]
            · unfold owns; iexists _; isplitr
              swap; · iexact HS1
              ipureintro; exact View.read_writes_of_cover _ _ _ _ _ (scoverA1 V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runA V c t ((hcond0_0 t).mpr h0) (fun h => h1 ((hcond0_1 t).mp h))).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexists _; iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA0 V c t _ _)
            isplitl [HS1]
            · unfold owns; iexists _; isplitr
              swap; · iexact HS1
              ipureintro; exact View.read_writes_of_cover _ _ _ _ _ (scoverA1 V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
  · by_cases h1 : t.val % 32 = 31
    · -- a half's last step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold oC7 oC8 sC0 sC1; (try dsimp only)
      by_cases hz : t.val = 0
      · exfalso; omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runC V c t (fun h => h0 ((hcond0_0 t).mp h)) ((hcond0_1 t).mpr h1) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverC0 V c t _ _ _ _)
            isplitl [HS1]
            · unfold owns; iexists _; isplitr
              swap; · iexact HS1
              ipureintro; exact View.read_writes_of_cover _ _ _ _ _ (scoverC1 V c t _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (coverC7 V c t _ _ _ _)
        unfold owns; iexists _; isplitr
        swap; · iexact H8
        ipureintro; exact View.read_writes_of_cover _ _ _ _ _ (coverC8 V c t _ _ _ _)
    · -- a middle step
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold sB0 sB1; (try dsimp only)
      by_cases hz : t.val = 0
      · exfalso; omega
      ·
        rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runB V c t (fun h => h0 ((hcond0_0 t).mp h)) (fun h => h1 ((hcond0_1 t).mp h)) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H0, H1, H2, H3, H4, H5, H6, H7, H8, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverB0 V c t _ _ _ _)
            isplitl [HS1]
            · unfold owns; iexists _; isplitr
              swap; · iexact HS1
              ipureintro; exact View.read_writes_of_cover _ _ _ _ _ (scoverB1 V c t _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end

end Cert.KernelIdeal.Fr

end
-- ==== Proof.KIRun1.lean ====
/- The second kernel's body run symbolically at its one grid point. -/
import proofs.«423388_j24472723652621_3_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body: on whole buffers — the eight inputs at their contents, the output at anything — it runs to the end holding the inputs as they were and the output with its one store written. -/
noncomputable def kernelRun1 (c : Dev nD) (i : grid1.Coords) (arg1 : Memref sig .tc .vmem S2x512x256 .f32) (harg1 : arg1.IsWhole) (arg2 : Memref sig .tc .vmem S2x1x512 .f32) (harg2 : arg2.IsWhole) (arg3 : Memref sig .tc .vmem S512x256 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x512 .f32) (harg6 : arg6.IsWhole) (arg7 : Memref sig .tc .vmem S512x256 .bf16) (harg7 : arg7.IsWhole) (arg8 : Memref sig .tc .vmem S1x256 .f32) (harg8 : arg8.IsWhole) (arg9 : Memref sig .tc .vmem S512x256 .f32) (harg9 : arg9.IsWhole)
    (x0 : Vec F S2x512x256 .f32) (x1 : Vec F S2x1x512 .f32) (x2 : Vec F S512x256 .bf16) (x3 : Vec F S256x512 .bf16) (x4 : Vec F S256x512 .bf16) (x5 : Vec F S1x512 .f32) (x6 : Vec F S512x256 .bf16) (x7 : Vec F S1x256 .f32) :
    { L8 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__phi_kernel i arg1 harg1 arg2 harg2 arg3 harg3 arg4 harg4 arg5 harg5 arg6 harg6 arg7 harg7 arg8 harg8 arg9 harg9) K } := by
  refine ⟨?_, fun E K => ?run⟩
  case run =>
    simp only [cc1__phi_kernel_eq_skeleton]; unfold cc1__phi_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.KernelIdeal.Fr

end
-- ==== Proof.KIFrame1.lean ====
/- The second kernel's frame at its one grid point: what its output holds after the body (its one store read back), the proof data, and the body obligation. -/
import proofs.«423388_j24472723652621_3_alg».proof.Proof.KIRun1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- One staging buffer of the output, through which its contents are stated. -/
abbrev VO1_8 : View sig .tc .vmem S512x256 .f32 := (Memref.whole cc1_stg8_0 : Memref sig .tc .vmem S512x256 .f32).view

abbrev run1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-- The output's staging buffer after the body: its store read back. -/
def out1_8 (c : Dev nD) (t : Fin cfg1.N) : Vec F S512x256 .f32 :=
  VO1_8.read (Elt F) (VO1_8.writes (Elt F) VO1_8.junk (run1 V c t).1)

theorem cover1_8 (c : Dev nD) (t : Fin cfg1.N) (y : S512x256.Idx) : ∃ pc ∈ (run1 V c t).1, y ∈ pc.1.set :=
  View.cover_of_tiledL (run1 V c t).1 S512x256.size (by sl_kernel_rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at the point: each input's buffer holds its block; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold out1_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_8 V c t)

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KIMain.lean ====
/- The whole run of the program: the buffers' contents at each boundary between @main's items (the launch, the eighteen host operations, the first kernel's region, the second kernel's region), each region as a segment entered from one boundary's contents and left at the next, and the run itself: every weakly fair execution ends with the result array at what the second region's write-back leaves and with every argument array as launched. -/
import proofs.«423388_j24472723652621_3_alg».proof.Proof.KIFrame0
import proofs.«423388_j24472723652621_3_alg».proof.Proof.KIFrame1
import proofs.«423388_j24472723652621_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch, and after the host operations (the first region's entry). -/
abbrev W0 : Dev nD → Valuation τ sig (Elt F) := fun c => Gen.V0 m c
abbrev W1 : Dev nD → Valuation τ sig (Elt F) := fun c => Gen.V1 m c
abbrev E1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

/-- The node features are the first region's input 0: read, never written. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := Gen.V1_of m c main_arg0 (by decide)
    _ = m ((c : Thread nD τ).loc main_arg0) := rfl
/-- `main_arg1` is no window's array and no host operation's result. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl
/-- `main_arg2` is no window's array and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := Gen.V1_of m c main_arg2 (by decide)
    _ = m ((c : Thread nD τ).loc main_arg2) := rfl
/-- `main_arg3` is no window's array and no host operation's result. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl
/-- `main_arg4` is no window's array and no host operation's result. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := Gen.V1_of m c main_arg4 (by decide)
    _ = m ((c : Thread nD τ).loc main_arg4) := rfl
/-- `main_arg5` is no window's array and no host operation's result. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl
/-- `main_arg6` is no window's array and no host operation's result. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl
/-- `main_arg7` is no window's array and no host operation's result. -/
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl
/-- `main_arg8` is no window's array and no host operation's result. -/
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := Gen.V1_of m c main_arg8 (by decide)
    _ = m ((c : Thread nD τ).loc main_arg8) := rfl
/-- `main_arg9` is no window's array and no host operation's result. -/
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := Gen.V1_of m c main_arg9 (by decide)
    _ = m ((c : Thread nD τ).loc main_arg9) := rfl
/-- `main_arg10` is no window's array and no host operation's result. -/
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := W2_of_ne m c main_arg10 (by decide)
    _ = W0 m c (Proc.devRef .tc main_arg10) := Gen.V1_of m c main_arg10 (by decide)
    _ = m ((c : Thread nD τ).loc main_arg10) := rfl
/-- `main_arg11` is no window's array and no host operation's result. -/
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := Gen.V1_of m c main_arg11 (by decide)
    _ = m ((c : Thread nD τ).loc main_arg11) := rfl
/-- `main_arg12` is no window's array and no host operation's result. -/
theorem W3_main_arg12 (c : Dev nD) : W3 m c (Proc.devRef .tc main_arg12) = m ((c : Thread nD τ).loc main_arg12) :=
  calc W3 m c (Proc.devRef .tc main_arg12)
    _ = W2 m c (Proc.devRef .tc main_arg12) := W3_of_ne m c main_arg12 (by decide)
    _ = W1 m c (Proc.devRef .tc main_arg12) := W2_of_ne m c main_arg12 (by decide)
    _ = W0 m c (Proc.devRef .tc main_arg12) := Gen.V1_of m c main_arg12 (by decide)
    _ = m ((c : Thread nD τ).loc main_arg12) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first kernel's region: entered from every unscoped buffer at the contents after the host operations, left with
    its arrays at what the write-backs leave. The generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from the first region's exit contents, left with the result array written. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The result array ends at what the second region's write-back leaves, and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v19) = (dat1 (E2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
    ⟨(h c _ (mem_uc main_v19 (by decide))).trans (W3_arr m c 8),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c),
      (h c _ (mem_uc main_arg11 (by decide))).trans (W3_main_arg11 m c),
      (h c _ (mem_uc main_arg12 (by decide))).trans (W3_main_arg12 m c)⟩) (run_all m ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c => (h c).2) (run_main m ρ)

end Cert.KernelIdeal.Fr

end
-- ==== Proof.KIPieces.lean ====
/- The stores each case of the two kernels' bodies leaves, read back as values: the accumulators after a step are the accumulation formulas applied to the step's input blocks and to what the step before left (zero at a half's first step), and what a half's last step writes out is those accumulators with a leading axis of extent one. -/
import Idealize.ShloMosaic.Lib.Pipeline.Value
import proofs.«423388_j24472723652621_3_alg».proof.Proof.KIFrame0
import proofs.«423388_j24472723652621_3_alg».proof.Proof.KIFrame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero-one matrix of a point's block of graph ids, and the block's gated features. -/
abbrev hotW (c : Dev nD) (t : Fin cfg0.N) : FVec F S2048x512 .f32 := k0_pay7 (F := F) (iblk0 V c 1 t)
abbrev hot8 (c : Dev nD) (t : Fin cfg0.N) : FVec F S2048x512 .bf16 := k0_pay8 (F := F) (iblk0 V c 1 t)
abbrev gated (c : Dev nD) (t : Fin cfg0.N) : FVec F S2048x256 .bf16 :=
  k0_pay9 (F := F) (iblk0 V c 0 t) (iblk0 V c 1 t) (iblk0 V c 3 t) (iblk0 V c 2 t) (iblk0 V c 4 t) (iblk0 V c 5 t) (iblk0 V c 6 t)
abbrev zacc : FVec F S512x256 .f32 := constant S512x256 .f32 0x00000000#32

/-- The all-zero offsets of a rank-two and of a rank-three block, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- An accumulator is a whole buffer: reading back the raw contents chosen for a value gives that value (stated for both
    spellings of the accumulator's view). -/
private theorem rd_sc0 (x : Vec F S512x256 .f32) :
    View.read (Elt F) (View.whole cc0_scratch0) ((Memref.isWhole_whole (sig := sig) cc0_scratch0).unread x) = x :=
  (Memref.isWhole_whole cc0_scratch0).read_unread x
private theorem rd_sc1 (x : Vec F S1x512 .f32) :
    View.read (Elt F) (View.whole cc0_scratch1) ((Memref.isWhole_whole (sig := sig) cc0_scratch1).unread x) = x :=
  (Memref.isWhole_whole cc0_scratch1).read_unread x
private theorem rd_sc0' (x : Vec F S512x256 .f32) :
    View.read (Elt F) scM0_0.view ((Memref.isWhole_whole (sig := sig) cc0_scratch0).unread x) = x :=
  (Memref.isWhole_whole cc0_scratch0).read_unread x
private theorem rd_sc1' (x : Vec F S1x512 .f32) :
    View.read (Elt F) scM0_1.view ((Memref.isWhole_whole (sig := sig) cc0_scratch1).unread x) = x :=
  (Memref.isWhole_whole cc0_scratch1).read_unread x

/-! Each case below has the same shape: the buffer's last store covers it whole, so what is read back is that store's
    payload; every load inside the payload reads a whole buffer at zero offsets, hence the buffer's contents; and a load
    of an accumulator that the same step stored before reads that earlier store's payload. -/

theorem sA0_eq (c : Dev nD) (t : Fin cfg0.N) (hc0 : cond0_0 (grid0.coords t)) (hc1 : ¬cond0_1 (grid0.coords t)) :
    sA0 V c t hc0 hc1 = k0_pay1 (F := F) (hot8 V c t) (gated V c t) zacc (k0_pay5 (F := F)) := by
  unfold sA0
  rw [View.read_writes_eq_canon _ _ _ (scoverA0 V c t hc0 hc1)]
  unfold runA kernelRun0_A
  dsimp only
  sl_unfold_words
  rw [View.canon_cons_unit_zero (S := S512x256) hz2]
  simp only [View.readCov_unit_zero (S := S512x256) _ hz2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem sA1_eq (c : Dev nD) (t : Fin cfg0.N) (hc0 : cond0_0 (grid0.coords t)) (hc1 : ¬cond0_1 (grid0.coords t)) :
    sA1 V c t hc0 hc1 = k0_pay2 (F := F) (hotW V c t) (k0_pay6 (F := F)) := by
  unfold sA1
  rw [View.read_writes_eq_canon _ _ _ (scoverA1 V c t hc0 hc1)]
  unfold runA kernelRun0_A
  dsimp only
  sl_unfold_words
  rw [View.canon_cons_unit_zero (S := S1x512) hz2]
  simp only [View.readCov_unit_zero (S := S1x512) _ hz2, View.readAt_eq_ld, (hs0_0 t).read_unread, (hs0_1 t).read_unread, (hs0_2 t).read_unread, (hs0_3 t).read_unread, (hs0_4 t).read_unread, (hs0_5 t).read_unread, (hs0_6 t).read_unread, View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem sB0_eq (c : Dev nD) (t : Fin cfg0.N) (hc0 : ¬cond0_0 (grid0.coords t)) (hc1 : ¬cond0_1 (grid0.coords t)) (xs0 : Vec F S512x256 .f32) (xs1 : Vec F S1x512 .f32) :
    sB0 V c t hc0 hc1 xs0 xs1 = k0_pay1 (F := F) (hot8 V c t) (gated V c t) zacc xs0 := by
  unfold sB0
  rw [View.read_writes_eq_canon _ _ _ (scoverB0 V c t hc0 hc1 xs0 xs1)]
  unfold runB kernelRun0_B
  dsimp only
  sl_unfold_words
  rw [View.canon_unit_zero (S := S512x256) hz2]
  simp only [View.readAt_eq_ld, (hs0_0 t).read_unread, (hs0_1 t).read_unread, (hs0_2 t).read_unread, (hs0_3 t).read_unread, (hs0_4 t).read_unread, (hs0_5 t).read_unread, (hs0_6 t).read_unread, rd_sc0, View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem sB1_eq (c : Dev nD) (t : Fin cfg0.N) (hc0 : ¬cond0_0 (grid0.coords t)) (hc1 : ¬cond0_1 (grid0.coords t)) (xs0 : Vec F S512x256 .f32) (xs1 : Vec F S1x512 .f32) :
    sB1 V c t hc0 hc1 xs0 xs1 = k0_pay2 (F := F) (hotW V c t) xs1 := by
  unfold sB1
  rw [View.read_writes_eq_canon _ _ _ (scoverB1 V c t hc0 hc1 xs0 xs1)]
  unfold runB kernelRun0_B
  dsimp only
  sl_unfold_words
  rw [View.canon_unit_zero (S := S1x512) hz2]
  simp only [View.readAt_eq_ld, (hs0_0 t).read_unread, (hs0_1 t).read_unread, (hs0_2 t).read_unread, (hs0_3 t).read_unread, (hs0_4 t).read_unread, (hs0_5 t).read_unread, (hs0_6 t).read_unread, rd_sc1, View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem sC0_eq (c : Dev nD) (t : Fin cfg0.N) (hc0 : ¬cond0_0 (grid0.coords t)) (hc1 : cond0_1 (grid0.coords t)) (xs0 : Vec F S512x256 .f32) (xs1 : Vec F S1x512 .f32) :
    sC0 V c t hc0 hc1 xs0 xs1 = k0_pay1 (F := F) (hot8 V c t) (gated V c t) zacc xs0 := by
  unfold sC0
  rw [View.read_writes_eq_canon _ _ _ (scoverC0 V c t hc0 hc1 xs0 xs1)]
  unfold runC kernelRun0_C
  dsimp only
  sl_unfold_words
  rw [View.canon_unit_zero (S := S512x256) hz2]
  simp only [View.readAt_eq_ld, (hs0_0 t).read_unread, (hs0_1 t).read_unread, (hs0_2 t).read_unread, (hs0_3 t).read_unread, (hs0_4 t).read_unread, (hs0_5 t).read_unread, (hs0_6 t).read_unread, rd_sc0, rd_sc0', View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem sC1_eq (c : Dev nD) (t : Fin cfg0.N) (hc0 : ¬cond0_0 (grid0.coords t)) (hc1 : cond0_1 (grid0.coords t)) (xs0 : Vec F S512x256 .f32) (xs1 : Vec F S1x512 .f32) :
    sC1 V c t hc0 hc1 xs0 xs1 = k0_pay2 (F := F) (hotW V c t) xs1 := by
  unfold sC1
  rw [View.read_writes_eq_canon _ _ _ (scoverC1 V c t hc0 hc1 xs0 xs1)]
  unfold runC kernelRun0_C
  dsimp only
  sl_unfold_words
  rw [View.canon_unit_zero (S := S1x512) hz2]
  simp only [View.readAt_eq_ld, (hs0_0 t).read_unread, (hs0_1 t).read_unread, (hs0_2 t).read_unread, (hs0_3 t).read_unread, (hs0_4 t).read_unread, (hs0_5 t).read_unread, (hs0_6 t).read_unread, rd_sc1, rd_sc1', View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem oC7_eq (c : Dev nD) (t : Fin cfg0.N) (hc0 : ¬cond0_0 (grid0.coords t)) (hc1 : cond0_1 (grid0.coords t)) (xs0 : Vec F S512x256 .f32) (xs1 : Vec F S1x512 .f32) :
    oC7 V c t hc0 hc1 xs0 xs1 = k0_pay3 (F := F) (k0_pay1 (F := F) (hot8 V c t) (gated V c t) zacc xs0) := by
  unfold oC7
  rw [View.read_writes_eq_canon _ _ _ (coverC7 V c t hc0 hc1 xs0 xs1)]
  unfold runC kernelRun0_C
  dsimp only
  sl_unfold_words
  rw [View.canon_unit_zero (S := S1x512x256) hz3]
  simp only [View.readCov_unit_zero (S := S512x256) _ hz2, View.readAt_eq_ld, (hs0_0 t).read_unread, (hs0_1 t).read_unread, (hs0_2 t).read_unread, (hs0_3 t).read_unread, (hs0_4 t).read_unread, (hs0_5 t).read_unread, (hs0_6 t).read_unread, rd_sc0, rd_sc0', View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]
theorem oC8_eq (c : Dev nD) (t : Fin cfg0.N) (hc0 : ¬cond0_0 (grid0.coords t)) (hc1 : cond0_1 (grid0.coords t)) (xs0 : Vec F S512x256 .f32) (xs1 : Vec F S1x512 .f32) :
    oC8 V c t hc0 hc1 xs0 xs1 = k0_pay4 (F := F) (k0_pay2 (F := F) (hotW V c t) xs1) := by
  unfold oC8
  rw [View.read_writes_eq_canon _ _ _ (coverC8 V c t hc0 hc1 xs0 xs1)]
  unfold runC kernelRun0_C
  dsimp only
  sl_unfold_words
  rw [View.canon_unit_zero (S := S1x1x512) hz3]
  simp only [View.readCov_unit_zero (S := S1x512) _ hz2, View.readAt_eq_ld, (hs0_0 t).read_unread, (hs0_1 t).read_unread, (hs0_2 t).read_unread, (hs0_3 t).read_unread, (hs0_4 t).read_unread, (hs0_5 t).read_unread, (hs0_6 t).read_unread, rd_sc1, rd_sc1', View.ld_unit_zero (S := S2048x1) hz2, View.ld_unit_zero (S := S2048x256) hz2, View.ld_unit_zero (S := S256x512) hz2, View.ld_unit_zero (S := S512x512) hz2, View.ld_unit_zero (S := S1x512) hz2, View.ld_unit_zero (S := S512x256) hz2, View.ld_unit_zero (S := S1x256) hz2]

/-- The second kernel's one store. -/
theorem out1_8_eq (c : Dev nD) (t : Fin cfg1.N) :
    out1_8 V c t = k1_pay1 (F := F) (k1_pay2 (F := F) (iblk1 V c 0 t) (iblk1 V c 1 t) (iblk1 V c 3 t) (iblk1 V c 2 t) (iblk1 V c 4 t) (iblk1 V c 5 t) (iblk1 V c 6 t)) (k1_pay3 (F := F) (iblk1 V c 7 t)) := by
  unfold out1_8
  rw [View.read_writes_eq_canon _ _ _ (cover1_8 V c t)]
  unfold run1 kernelRun1
  dsimp only
  sl_unfold_words
  rw [View.canon_unit_zero (S := S512x256) hz2]
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread,
    View.ld_unit_zero (S := S2x512x256) hz3, View.ld_unit_zero (S := S2x1x512) hz3, View.ld_unit_zero (S := S256x512) hz2, View.ld_unit_zero (S := S512x256) hz2, View.ld_unit_zero (S := S1x512) hz2, View.ld_unit_zero (S := S1x256) hz2]

end

end Cert.KernelIdeal.Fr

end
-- ==== Proof.KIPay0.lean ====
/- The node kernel's stored values read at an index, over the extended reals: the zero-one row of a node's graph id, the gated features, and the two accumulations over a block's 2048 nodes. -/
import proofs.«423388_j24472723652621_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KIValue

open Cert.KernelIdeal Cert.KernelIdeal.Gen Idealize.ShloMosaic Idealize.ShloMosaic.ValueIdx

/-- A widened equality test of two words, read as a number, is one when they agree and zero otherwise. -/
theorem sitofp_eq_word (a b : BitVec 32) :
    FloatOps.sitofp (F := Ideal) .f32 ((IntOp.cmpi .eq a b).setWidth 32) = if a = b then 1 else 0 := by
  by_cases h : a = b
  · rw [if_pos h]
    have e : (IntOp.cmpi .eq a b).setWidth 32 = 1#32 := by
      subst h
      simp [IntOp.cmpi]
    rw [e]
    show (((1#32 : BitVec 32).toInt : ℝ) : EReal) = 1
    have : (1#32 : BitVec 32).toInt = 1 := by decide
    rw [this]
    norm_num
  · rw [if_neg h]
    have e : (IntOp.cmpi .eq a b).setWidth 32 = 0#32 := by
      have hb : (a == b) = false := beq_eq_false_iff_ne.mpr h
      simp [IntOp.cmpi, hb]
    rw [e]
    show (((0#32 : BitVec 32).toInt : ℝ) : EReal) = 0
    have : (0#32 : BitVec 32).toInt = 0 := by decide
    rw [this]
    norm_num

/-- A column of 2048 words spread over 512 columns reads its own row's word everywhere. -/
theorem spread_col (v : IVec S2048x1 32) (n : Fin 2048) (g : Fin 512) :
    broadcastTo S2048x512 v broadcasts_S2048x1_S2048x512 (ix2 n g) = v (ix2 n (0 : Fin 1)) := by
  refine broadcastTo_apply v broadcasts_S2048x1_S2048x512 (ix2 n g) (ix2 n (0 : Fin 1)) fun ax => ?_
  match ax with
  | ⟨0, _⟩ =>
    show n.val = if (2048 : Nat) = 1 then 0 else n.val
    rw [if_neg (by decide)]
  | ⟨1, _⟩ => rfl

/-- The column counter reads the column number. -/
theorem col_counter (n : Fin 2048) (g : Fin 512) :
    iota .tc S2048x512 32 [1] iota_S2048x512_d1_w32 (ix2 n g) = BitVec.ofNat 32 g.val :=
  iota_single_apply .tc S2048x512 32 1 iota_S2048x512_d1_w32 (ix2 n g)

/-- The zero-one matrix: entry (n, g) is one exactly when node `n`'s id is `g`. -/
theorem pay7_apply (bb : Vec Ideal S2048x1 .i32) (n : Fin 2048) (g : Fin 512) :
    k0_pay7 (F := Ideal) bb (ix2 n g) = if bb (ix2 n (0 : Fin 1)) = BitVec.ofNat 32 g.val then 1 else 0 := by
  unfold k0_pay7
  show FloatOps.sitofp (F := Ideal) .f32 ((IntOp.cmpi .eq
      (broadcastTo S2048x512 (shapeCast S2048x1 bb shapeCasts_S2048x1_S2048x1) broadcasts_S2048x1_S2048x512 (ix2 n g))
      (iota .tc S2048x512 32 [1] iota_S2048x512_d1_w32 (ix2 n g))).setWidth 32) = _
  rw [spread_col, col_counter, shapeCast_self]
  exact sitofp_eq_word _ _

/-- Narrowing the zero-one matrix changes nothing over the extended reals. -/
theorem pay8_eq (bb : Vec Ideal S2048x1 .i32) : k0_pay8 (F := Ideal) bb = k0_pay7 (F := Ideal) bb := by
  unfold k0_pay8
  rfl

/-- Summing a 2048-by-512 matrix down its rows gives, at column `g`, the sum of that column's 2048 entries. -/
theorem col_sum (h : FVec Ideal S2048x512 .f32) (g : Fin 512) :
    multiReduction (F := Ideal) .add [0] S512 h 0x00000000#32 reduces_S2048x512_S512 (.inl rfl) rfl (ix1 g)
      = ∑ n : Fin 2048, h (ix2 n g) := by
  refine (Ideal.multiReduction_add_single h 0x00000000#32 reduces_S2048x512_S512 (.inl rfl) rfl (ix1 g)).trans ?_
  refine Finset.sum_congr rfl fun n _ => congrArg h ?_
  exact funext fun a => Fin.ext (by
    match a with
    | ⟨0, _⟩ => rfl
    | ⟨1, _⟩ => rfl)

/-- The counts' accumulation: what was there plus the column sums of the zero-one matrix. -/
theorem pay2_apply (h : FVec Ideal S2048x512 .f32) (s : Vec Ideal S1x512 .f32) (g : Fin 512) :
    k0_pay2 (F := Ideal) h s (ix2 (0 : Fin 1) g) = s (ix2 (0 : Fin 1) g) + ∑ n : Fin 2048, h (ix2 n g) := by
  unfold k0_pay2
  refine (congrFun (shapeCast_self _ shapeCasts_S1x512_S1x512) (ix2 (0 : Fin 1) g)).trans ?_
  refine congrArg (s (ix2 (0 : Fin 1) g) + ·) ?_
  refine (shapeCast_a_1a_apply _ shapeCasts_S512_S1x512 (0 : Fin 1) g).trans ?_
  exact col_sum h g

/-- In the accumulating product both operands are read down their rows: the left operand's row is the summation index, -/
theorem lhs_acc_0 (i : S512x256.Idx) (q : dot_S2048x512_S2048x256_S512x256_0_0_1_1_n_n.contr.Idx) :
    (dot_S2048x512_S2048x256_S512x256_0_0_1_1_n_n.lhsIdx i q 0).val = (q ⟨0, by decide⟩).val :=
  dot_S2048x512_S2048x256_S512x256_0_0_1_1_n_n.lhsIdx_val_of_single rfl i q
/-- its column the result's row, -/
theorem lhs_acc_1 (i : S512x256.Idx) (q : dot_S2048x512_S2048x256_S512x256_0_0_1_1_n_n.contr.Idx) :
    (dot_S2048x512_S2048x256_S512x256_0_0_1_1_n_n.lhsIdx i q 1).val = (i 0).val := by
  unfold DotDims.lhsIdx
  rw [dif_neg (show ¬(1 : Fin S2048x512.rank) ∈ dot_S2048x512_S2048x256_S512x256_0_0_1_1_n_n.lhsBatch by decide), dif_pos (show (1 : Fin S2048x512.rank) ∈ dot_S2048x512_S2048x256_S512x256_0_0_1_1_n_n.lhsNonContracting by decide)]
  rfl
/-- the right operand's row the summation index again, -/
theorem rhs_acc_0 (i : S512x256.Idx) (q : dot_S2048x512_S2048x256_S512x256_0_0_1_1_n_n.contr.Idx) :
    (dot_S2048x512_S2048x256_S512x256_0_0_1_1_n_n.rhsIdx i q 0).val = (q ⟨0, by decide⟩).val :=
  dot_S2048x512_S2048x256_S512x256_0_0_1_1_n_n.rhsIdx_val_of_single rfl i q
/-- and its column the result's column. -/
theorem rhs_acc_1 (i : S512x256.Idx) (q : dot_S2048x512_S2048x256_S512x256_0_0_1_1_n_n.contr.Idx) :
    (dot_S2048x512_S2048x256_S512x256_0_0_1_1_n_n.rhsIdx i q 1).val = (i 1).val := by
  unfold DotDims.rhsIdx
  rw [dif_neg (show ¬(1 : Fin S2048x256.rank) ∈ dot_S2048x512_S2048x256_S512x256_0_0_1_1_n_n.rhsBatch by decide), dif_pos (show (1 : Fin S2048x256.rank) ∈ dot_S2048x512_S2048x256_S512x256_0_0_1_1_n_n.rhsNonContracting by decide)]
  rfl

/-- So the product into a zero accumulator is, at (g, f), the sum over the 2048 rows of the two operands' entries in columns `g` and `f`. -/
theorem acc_product (h : FVec Ideal S2048x512 .bf16) (v : FVec Ideal S2048x256 .bf16) (g : Fin 512) (f : Fin 256) :
    matmul (F := Ideal) dot_S2048x512_S2048x256_S512x256_0_0_1_1_n_n none h v (constant (F := Ideal) S512x256 .f32 0x00000000#32) (ix2 g f)
      = ∑ n : Fin 2048, h (ix2 n g) * v (ix2 n f) := by
  simp only [matmul]
  rw [Ideal.matmul_constant_zero_apply, ← Equiv.sum_comp (ValueIdx.contrEquiv1 dot_S2048x512_S2048x256_S512x256_0_0_1_1_n_n 2048 rfl rfl).symm]
  refine Finset.sum_congr rfl fun k _ => ?_
  have hk := ValueIdx.contrEquiv1_symm_val dot_S2048x512_S2048x256_S512x256_0_0_1_1_n_n 2048 rfl rfl k
  have el : dot_S2048x512_S2048x256_S512x256_0_0_1_1_n_n.lhsIdx (ix2 g f) ((ValueIdx.contrEquiv1 dot_S2048x512_S2048x256_S512x256_0_0_1_1_n_n 2048 rfl rfl).symm k) = ix2 k g := funext fun a => Fin.ext (by
    match a with
    | ⟨0, _⟩ => exact (lhs_acc_0 _ _).trans hk
    | ⟨1, _⟩ => exact lhs_acc_1 _ _)
  have er : dot_S2048x512_S2048x256_S512x256_0_0_1_1_n_n.rhsIdx (ix2 g f) ((ValueIdx.contrEquiv1 dot_S2048x512_S2048x256_S512x256_0_0_1_1_n_n 2048 rfl rfl).symm k) = ix2 k f := funext fun a => Fin.ext (by
    match a with
    | ⟨0, _⟩ => exact (rhs_acc_0 _ _).trans hk
    | ⟨1, _⟩ => exact rhs_acc_1 _ _)
  rw [el, er]

/-- The sums' accumulation: what was there plus, per graph and feature, the block's nodes selected by the zero-one matrix. -/
theorem pay1_apply (h : FVec Ideal S2048x512 .bf16) (v : FVec Ideal S2048x256 .bf16) (s : Vec Ideal S512x256 .f32)
    (g : Fin 512) (f : Fin 256) :
    k0_pay1 (F := Ideal) h v (constant S512x256 .f32 0x00000000#32) s (ix2 g f)
      = s (ix2 g f) + ∑ n : Fin 2048, h (ix2 n g) * v (ix2 n f) := by
  unfold k0_pay1
  refine (congrFun (shapeCast_self _ shapeCasts_S512x256_S512x256) (ix2 g f)).trans ?_
  exact congrArg (s (ix2 g f) + ·) (acc_product h v g f)

/-- The reset values are zero. -/
theorem pay5_apply (g : Fin 512) (f : Fin 256) : k0_pay5 (F := Ideal) (ix2 g f) = 0 := by
  unfold k0_pay5
  refine (congrFun (shapeCast_self _ shapeCasts_S512x256_S512x256) (ix2 g f)).trans ?_
  exact Ideal.ofBits_zero_f32
theorem pay6_apply (g : Fin 512) : k0_pay6 (F := Ideal) (ix2 (0 : Fin 1) g) = 0 := by
  unfold k0_pay6
  refine (congrFun (shapeCast_self _ shapeCasts_S1x512_S1x512) (ix2 (0 : Fin 1) g)).trans ?_
  exact Ideal.ofBits_zero_f32

/-- Writing the accumulators out only adds a leading axis of extent one. -/
theorem pay3_apply (v : Vec Ideal S512x256 .f32) (g : Fin 512) (f : Fin 256) :
    k0_pay3 (F := Ideal) v (ix3 (0 : Fin 1) g f) = v (ix2 g f) := by
  unfold k0_pay3
  exact shapeCast_ab_1ab_apply v shapeCasts_S512x256_S1x512x256 (0 : Fin 1) g f
theorem pay4_apply (v : Vec Ideal S1x512 .f32) (g : Fin 512) :
    k0_pay4 (F := Ideal) v (ix3 (0 : Fin 1) (0 : Fin 1) g) = v (ix2 (0 : Fin 1) g) := by
  unfold k0_pay4
  exact shapeCast_ab_1ab_apply v shapeCasts_S1x512_S1x1x512 (0 : Fin 1) (0 : Fin 1) g

end Cert.KIValue

end
-- ==== Proof.KIPay9.lean ====
/- The node kernel's gated features read at an index, over the extended reals: three matrix products, two biases, a positive part and a pointwise product. -/
import proofs.«423388_j24472723652621_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KIValue

open Cert.KernelIdeal Cert.KernelIdeal.Gen Idealize.ShloMosaic Idealize.ShloMosaic.ValueIdx

/-! ### The features times the first layer's weights -/

/- Where the product's dimension numbers send an output position (row, column) and a position on the shared axis:
   the left operand is read at (row, shared), the right one at (shared, column). One coordinate per lemma. -/
theorem lhs_xw_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_xw_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_xw_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_xw_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- Into a zero accumulator the product of a [2048,256] by a [256,512] matrix reads, at row `n` and column `c`, the sum over
    the shared axis of the row's entries times the column's. -/
theorem mm_xw_apply (l : FVec Ideal S2048x256 .bf16) (r : FVec Ideal S256x512 .bf16) (n : Fin 2048) (c : Fin 512) :
    matmul dot_S2048x256_S256x512_S2048x512_1_0_0_1_n_n none l r (constant (F := Ideal) S2048x512 .f32 0x00000000#32) (ix2 n c)
      = ∑ j : Fin 256, l (ix2 n j) * r (ix2 j c) := by
  simp only [matmul]
  rw [Ideal.matmul_constant_zero_apply, ← Equiv.sum_comp (contrEquiv1 dot_S2048x256_S256x512_S2048x512_1_0_0_1_n_n 256 rfl rfl).symm]
  refine Finset.sum_congr rfl fun j _ => ?_
  have hj := contrEquiv1_symm_val dot_S2048x256_S256x512_S2048x512_1_0_0_1_n_n 256 rfl rfl j
  have el : dot_S2048x256_S256x512_S2048x512_1_0_0_1_n_n.lhsIdx (ix2 n c) ((contrEquiv1 dot_S2048x256_S256x512_S2048x512_1_0_0_1_n_n 256 rfl rfl).symm j) = ix2 n j := funext fun a => Fin.ext (by
    match a with
    | ⟨0, _⟩ => exact lhs_xw_0 _ _
    | ⟨1, _⟩ => exact (lhs_xw_1 _ _).trans hj)
  have er : dot_S2048x256_S256x512_S2048x512_1_0_0_1_n_n.rhsIdx (ix2 n c) ((contrEquiv1 dot_S2048x256_S256x512_S2048x512_1_0_0_1_n_n 256 rfl rfl).symm j) = ix2 j c := funext fun a => Fin.ext (by
    match a with
    | ⟨0, _⟩ => exact (rhs_xw_0 _ _).trans hj
    | ⟨1, _⟩ => exact rhs_xw_1 _ _)
  rw [el, er]

/-! ### The zero-one matrix times the graph features' weights -/

/- Where the product's dimension numbers send an output position (row, column) and a position on the shared axis:
   the left operand is read at (row, shared), the right one at (shared, column). One coordinate per lemma. -/
theorem lhs_gw_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_gw_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_gw_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_gw_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Into a zero accumulator the product of a [2048,512] by a [512,512] matrix reads, at row `n` and column `c`, the sum over
    the shared axis of the row's entries times the column's. -/
theorem mm_gw_apply (l : FVec Ideal S2048x512 .bf16) (r : FVec Ideal S512x512 .bf16) (n : Fin 2048) (c : Fin 512) :
    matmul dot_S2048x512_S512x512_S2048x512_1_0_0_1_n_n none l r (constant (F := Ideal) S2048x512 .f32 0x00000000#32) (ix2 n c)
      = ∑ j : Fin 512, l (ix2 n j) * r (ix2 j c) := by
  simp only [matmul]
  rw [Ideal.matmul_constant_zero_apply, ← Equiv.sum_comp (contrEquiv1 dot_S2048x512_S512x512_S2048x512_1_0_0_1_n_n 512 rfl rfl).symm]
  refine Finset.sum_congr rfl fun j _ => ?_
  have hj := contrEquiv1_symm_val dot_S2048x512_S512x512_S2048x512_1_0_0_1_n_n 512 rfl rfl j
  have el : dot_S2048x512_S512x512_S2048x512_1_0_0_1_n_n.lhsIdx (ix2 n c) ((contrEquiv1 dot_S2048x512_S512x512_S2048x512_1_0_0_1_n_n 512 rfl rfl).symm j) = ix2 n j := funext fun a => Fin.ext (by
    match a with
    | ⟨0, _⟩ => exact lhs_gw_0 _ _
    | ⟨1, _⟩ => exact (lhs_gw_1 _ _).trans hj)
  have er : dot_S2048x512_S512x512_S2048x512_1_0_0_1_n_n.rhsIdx (ix2 n c) ((contrEquiv1 dot_S2048x512_S512x512_S2048x512_1_0_0_1_n_n 512 rfl rfl).symm j) = ix2 j c := funext fun a => Fin.ext (by
    match a with
    | ⟨0, _⟩ => exact (rhs_gw_0 _ _).trans hj
    | ⟨1, _⟩ => exact rhs_gw_1 _ _)
  rw [el, er]

/-! ### The hidden layer times the second layer's weights -/

/- Where the product's dimension numbers send an output position (row, column) and a position on the shared axis:
   the left operand is read at (row, shared), the right one at (shared, column). One coordinate per lemma. -/
theorem lhs_hw_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_hw_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_hw_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_hw_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- Into a zero accumulator the product of a [2048,512] by a [512,256] matrix reads, at row `n` and column `c`, the sum over
    the shared axis of the row's entries times the column's. -/
theorem mm_hw_apply (l : FVec Ideal S2048x512 .bf16) (r : FVec Ideal S512x256 .bf16) (n : Fin 2048) (c : Fin 256) :
    matmul dot_S2048x512_S512x256_S2048x256_1_0_0_1_n_n none l r (constant (F := Ideal) S2048x256 .f32 0x00000000#32) (ix2 n c)
      = ∑ j : Fin 512, l (ix2 n j) * r (ix2 j c) := by
  simp only [matmul]
  rw [Ideal.matmul_constant_zero_apply, ← Equiv.sum_comp (contrEquiv1 dot_S2048x512_S512x256_S2048x256_1_0_0_1_n_n 512 rfl rfl).symm]
  refine Finset.sum_congr rfl fun j _ => ?_
  have hj := contrEquiv1_symm_val dot_S2048x512_S512x256_S2048x256_1_0_0_1_n_n 512 rfl rfl j
  have el : dot_S2048x512_S512x256_S2048x256_1_0_0_1_n_n.lhsIdx (ix2 n c) ((contrEquiv1 dot_S2048x512_S512x256_S2048x256_1_0_0_1_n_n 512 rfl rfl).symm j) = ix2 n j := funext fun a => Fin.ext (by
    match a with
    | ⟨0, _⟩ => exact lhs_hw_0 _ _
    | ⟨1, _⟩ => exact (lhs_hw_1 _ _).trans hj)
  have er : dot_S2048x512_S512x256_S2048x256_1_0_0_1_n_n.rhsIdx (ix2 n c) ((contrEquiv1 dot_S2048x512_S512x256_S2048x256_1_0_0_1_n_n 512 rfl rfl).symm j) = ix2 j c := funext fun a => Fin.ext (by
    match a with
    | ⟨0, _⟩ => exact (rhs_hw_0 _ _).trans hj
    | ⟨1, _⟩ => exact rhs_hw_1 _ _)
  rw [el, er]

/-- The gated features of a block: each node's features times the gating network's output, the graph features
    entering the first layer through the zero-one matrix. -/
theorem pay9_apply (xb : Vec Ideal S2048x256 .f32) (bb : Vec Ideal S2048x1 .i32) (w3 : Vec Ideal S256x512 .bf16)
    (w13 : Vec Ideal S512x512 .bf16) (b14 : Vec Ideal S1x512 .f32) (w6 : Vec Ideal S512x256 .bf16) (b15 : Vec Ideal S1x256 .f32)
    (n : Fin 2048) (f : Fin 256) :
    k0_pay9 (F := Ideal) xb bb w3 w13 b14 w6 b15 (ix2 n f)
      = xb (ix2 n f) * ((∑ k : Fin 512, max (((∑ j : Fin 256, xb (ix2 n j) * w3 (ix2 j k))
          + ∑ g : Fin 512, k0_pay7 (F := Ideal) bb (ix2 n g) * w13 (ix2 g k)) + b14 (ix2 (0 : Fin 1) k)) 0 * w6 (ix2 k f))
          + b15 (ix2 (0 : Fin 1) f)) := by
  unfold k0_pay9
  -- the last narrowing is the identity; then the product with the features and the sum with the second bias, read at (n, f)
  refine Eq.trans (truncf_apply (ψ := .bf16) _ bitsLt_bf16_f32 _) ?_
  refine Eq.trans (mulf_apply _ _ _) ?_
  refine congrArg (xb (ix2 n f) * ·) ?_
  refine Eq.trans (addf_apply _ _ _) ?_
  refine congrArg₂ (· + ·) ?_ ?_
  · -- the second layer's product, a sum over the hidden coordinate k
    refine Eq.trans (mm_hw_apply _ _ n f) ?_
    refine Finset.sum_congr rfl fun k _ => ?_
    refine congrArg₂ (· * ·) ?_ ?_
    · -- the hidden layer at (n, k): the positive part of the two products plus the first bias
      refine Eq.trans (truncf_apply (ψ := .bf16) _ bitsLt_bf16_f32 _) ?_
      refine Eq.trans (maximumf_apply _ _ _) ?_
      refine congrArg₂ max ?_ ?_
      · refine Eq.trans (addf_apply _ _ _) ?_
        refine congrArg₂ (· + ·) ?_ ?_
        · refine Eq.trans (addf_apply _ _ _) ?_
          refine congrArg₂ (· + ·) ?_ ?_
          · refine Eq.trans (mm_xw_apply _ _ n k) ?_
            refine Finset.sum_congr rfl fun j _ => ?_
            refine congrArg₂ (· * ·) ?_ ?_
            · exact truncf_apply (ψ := .bf16) _ bitsLt_bf16_f32 _
            · exact congrFun (shapeCast_self w3 _) _
          · refine Eq.trans (mm_gw_apply _ _ n k) ?_
            refine Finset.sum_congr rfl fun g _ => ?_
            refine congrArg₂ (· * ·) ?_ ?_
            · exact truncf_apply (ψ := .bf16) _ bitsLt_bf16_f32 _
            · exact congrFun (shapeCast_self w13 _) _
        · refine Eq.trans (broadcastTo_1b_ab_apply _ _ n k) ?_
          exact congrFun (shapeCast_self b14 _) _
      · show Ideal.ofBits .f32 0x00000000#32 = 0
        exact Ideal.ofBits_zero_f32
    · exact congrFun (shapeCast_self w6 _) _
  · refine Eq.trans (broadcastTo_1b_ab_apply _ _ n f) ?_
    exact congrFun (shapeCast_self b15 _) _

end Cert.KIValue

end
-- ==== Proof.Spec.lean ====
/- The mathematics both programs compute, over plain finite index types and the extended reals.

   A graph model with 131072 nodes in 512 graphs: a gating network weighs each node's features, the weighted features
   are summed per graph and divided by the graph's node count, and a second network maps the result. Two arrangements
   of it are written down: the one that selects a node's graph by a row of zeros and ones and sums block by block
   (`outK`), and the one that looks the graph's row up and sums over all nodes at once (`outR`). They are equal
   (`outK_eq_outR`): a sum against a row with a single one picks that entry, a sum over 512 columns splits into two
   halves of 256, and a sum over the nodes regroups into 2 × 32 blocks of 2048. Only the laws of a commutative
   monoid with `0 * a = 0` and `1 * a = a` are used, so nothing has to be finite. -/
import Idealize.ShloMosaic.PureOps.Ideal

noncomputable section

open scoped BigOperators

namespace Cert.Spec

/-- The eleven arrays the model reads, by coordinates. -/
structure Inp where
  x : Fin 131072 → Fin 256 → EReal
  u : Fin 512 → Fin 256 → EReal
  b : Fin 131072 → BitVec 32
  Wg1 : Fin 512 → Fin 512 → EReal
  bg1 : Fin 512 → EReal
  Wg2 : Fin 512 → Fin 256 → EReal
  bg2 : Fin 256 → EReal
  Wp1 : Fin 512 → Fin 512 → EReal
  bp1 : Fin 512 → EReal
  Wp2 : Fin 512 → Fin 256 → EReal
  bp2 : Fin 256 → EReal

variable (I : Inp)

/-- Row `j` of the upper half of a 512-row matrix, and of the lower half. -/
def lo (j : Fin 256) : Fin 512 := ⟨j.val, by omega⟩
def hi (j : Fin 256) : Fin 512 := ⟨256 + j.val, by omega⟩

/-! ## Selecting by a row of zeros and ones, block by block -/

/-- One where node `n` belongs to graph `g`, zero elsewhere. -/
def hot (n : Fin 131072) (g : Fin 512) : EReal := if I.b n = BitVec.ofNat 32 g.val then 1 else 0

/-- The graph features through the lower half of the first gating layer. -/
def uW (g k : Fin 512) : EReal := ∑ j : Fin 256, I.u g j * I.Wg1 (hi j) k

def h1K (n : Fin 131072) (k : Fin 512) : EReal :=
  max (((∑ j : Fin 256, I.x n j * I.Wg1 (lo j) k) + ∑ g : Fin 512, hot I n g * uW I g k) + I.bg1 k) 0

def aK (n : Fin 131072) (f : Fin 256) : EReal := (∑ k : Fin 512, h1K I n k * I.Wg2 k f) + I.bg2 f

def wK (n : Fin 131072) (f : Fin 256) : EReal := I.x n f * aK I n f

/-- Node `r` of block `j` of half `c`. -/
def row (c : Fin 2) (j : Fin 32) (r : Fin 2048) : Fin 131072 := ⟨(c.val * 32 + j.val) * 2048 + r.val, by omega⟩

def blkSum (c : Fin 2) (j : Fin 32) (g : Fin 512) (f : Fin 256) : EReal :=
  ∑ r : Fin 2048, hot I (row c j r) g * wK I (row c j r) f

def blkCnt (c : Fin 2) (j : Fin 32) (g : Fin 512) : EReal := ∑ r : Fin 2048, hot I (row c j r) g

def sumsK (c : Fin 2) (g : Fin 512) (f : Fin 256) : EReal := ∑ j : Fin 32, blkSum I c j g f
def cntK (c : Fin 2) (g : Fin 512) : EReal := ∑ j : Fin 32, blkCnt I c j g

def sumsTot (g : Fin 512) (f : Fin 256) : EReal := ∑ c : Fin 2, sumsK I c g f
def cntTot (g : Fin 512) : EReal := ∑ c : Fin 2, cntK I c g

def xaggK (g : Fin 512) (f : Fin 256) : EReal := sumsTot I g f / max (cntTot I g) 1

def h2K (g k : Fin 512) : EReal :=
  max (((∑ j : Fin 256, xaggK I g j * I.Wp1 (lo j) k) + ∑ j : Fin 256, I.u g j * I.Wp1 (hi j) k) + I.bp1 k) 0

def outK (g : Fin 512) (f : Fin 256) : EReal := (∑ k : Fin 512, h2K I g k * I.Wp2 k f) + I.bp2 f

/-! ## Looking the graph's row up, all nodes at once -/

/-- The row of `u` a node's graph id selects: a negative id counts from the end, and the result is clamped into the table. -/
def gsel (n : Fin 131072) : BitVec 32 := if (I.b n).slt 0#32 then I.b n + 512#32 else I.b n
def gidx (n : Fin 131072) : Fin 512 := ⟨min (gsel I n).toInt.toNat 511, by omega⟩

/-- A node's features beside its graph's. -/
def cat (n : Fin 131072) (k : Fin 512) : EReal :=
  if h : k.val < 256 then I.x n ⟨k.val, h⟩ else I.u (gidx I n) ⟨k.val - 256, by omega⟩

def h1R (n : Fin 131072) (k : Fin 512) : EReal := max ((∑ k' : Fin 512, cat I n k' * I.Wg1 k' k) + I.bg1 k) 0
def aR (n : Fin 131072) (f : Fin 256) : EReal := (∑ k : Fin 512, h1R I n k * I.Wg2 k f) + I.bg2 f
def wR (n : Fin 131072) (f : Fin 256) : EReal := I.x n f * aR I n f

/-- Per graph: the weighted features of its nodes summed; a node whose id names no graph is in no sum. -/
def sumsR (g : Fin 512) (f : Fin 256) : EReal := ∑ n : Fin 131072, if (I.b n).toInt = (g.val : ℤ) then wR I n f else 0
def cntR (g : Fin 512) : EReal := ∑ n : Fin 131072, if (I.b n).toInt = (g.val : ℤ) then (1 : EReal) else 0

def xaggR (g : Fin 512) (f : Fin 256) : EReal := sumsR I g f / max (cntR I g) 1

def cat2 (g k : Fin 512) : EReal :=
  if h : k.val < 256 then xaggR I g ⟨k.val, h⟩ else I.u g ⟨k.val - 256, by omega⟩

def h2R (g k : Fin 512) : EReal := max ((∑ k' : Fin 512, cat2 I g k' * I.Wp1 k' k) + I.bp1 k) 0
def outR (g : Fin 512) (f : Fin 256) : EReal := (∑ k : Fin 512, h2R I g k * I.Wp2 k f) + I.bp2 f

/-! ## The two are one function -/

/-! ### Graph ids as 32-bit words -/

/-- A 32-bit word is the word of a graph number below 512 exactly when its signed value is that number. -/
theorem word_eq_iff (v : BitVec 32) (g : Fin 512) :
    v = BitVec.ofNat 32 g.val ↔ v.toInt = (g.val : ℤ) := by
  have hv := v.isLt
  have hg := g.isLt
  rw [← BitVec.toNat_inj, BitVec.toNat_ofNat, BitVec.toInt_eq_toNat_cond]
  constructor
  · intro h
    split <;> omega
  · intro h
    split at h <;> omega

/-- Distinct graph numbers have distinct words. -/
theorem word_inj (g g' : Fin 512) : BitVec.ofNat 32 g.val = BitVec.ofNat 32 g'.val ↔ g = g' := by
  have hg := g.isLt
  have hg' := g'.isLt
  rw [← BitVec.toNat_inj, BitVec.toNat_ofNat, BitVec.toNat_ofNat, Fin.ext_iff]
  omega

/-- The word of a graph number is not negative, so the lookup takes it as it is and finds that graph. -/
theorem gidx_of_eq (n : Fin 131072) (g : Fin 512) (h : I.b n = BitVec.ofNat 32 g.val) : gidx I n = g := by
  have hg := g.isLt
  have hi : (I.b n).toInt = (g.val : ℤ) := (word_eq_iff (I.b n) g).1 h
  have hs : (I.b n).slt 0#32 = false := by
    rw [BitVec.slt_eq_decide, BitVec.toInt_zero, hi]
    simp
  apply Fin.ext
  simp only [gidx, gsel, hs, Bool.false_eq_true, if_false, hi, Int.toNat_natCast]
  omega

/-! ### Sums that pick, split and regroup -/

/-- Against the row of zeros and ones of a node in graph `g`, a sum over the graphs is its entry at `g`. -/
theorem sum_hot_mul (n : Fin 131072) (g : Fin 512) (h : I.b n = BitVec.ofNat 32 g.val) (a : Fin 512 → EReal) :
    ∑ g' : Fin 512, hot I n g' * a g' = a g := by
  have : ∀ g' : Fin 512, hot I n g' * a g' = if g = g' then a g' else 0 := by
    intro g'
    unfold hot
    rw [h]
    by_cases hgg : g = g'
    · rw [if_pos ((word_inj g g').2 hgg), if_pos hgg, one_mul]
    · rw [if_neg (fun hc => hgg ((word_inj g g').1 hc)), if_neg hgg, zero_mul]
  rw [Finset.sum_congr rfl (fun g' _ => this g')]
  rw [Finset.sum_ite_eq]
  simp

/-- A sum over 512 columns is the sum over the first 256 plus the sum over the last 256. -/
theorem split512 (F : Fin 512 → EReal) :
    ∑ k : Fin 512, F k = (∑ j : Fin 256, F (lo j)) + ∑ j : Fin 256, F (hi j) := by
  have h := Fin.sum_univ_add (a := 256) (b := 256) (f := F)
  have hlo : ∀ j : Fin 256, Fin.castAdd 256 j = lo j := fun j => Fin.ext rfl
  have hhi : ∀ j : Fin 256, Fin.natAdd 256 j = hi j := fun j => Fin.ext rfl
  simp only [hlo, hhi] at h
  exact h

/-- Every node is node `r` of block `j` of half `c` for exactly one `(c, j, r)`. -/
def rowEquiv : Fin 2 × Fin 32 × Fin 2048 ≃ Fin 131072 where
  toFun p := row p.1 p.2.1 p.2.2
  invFun n := (⟨n.val / 65536, by omega⟩, ⟨n.val / 2048 % 32, by omega⟩, ⟨n.val % 2048, by omega⟩)
  left_inv := by
    rintro ⟨c, j, r⟩
    have hc := c.isLt
    have hj := j.isLt
    have hr := r.isLt
    refine Prod.ext (Fin.ext ?_) (Prod.ext (Fin.ext ?_) (Fin.ext ?_)) <;> simp only [row] <;> omega
  right_inv := by
    intro n
    apply Fin.ext
    simp only [row]
    omega

/-- A sum over all nodes, taken half by half, block by block, node by node. -/
theorem sum_rows (F : Fin 131072 → EReal) :
    ∑ n : Fin 131072, F n = ∑ c : Fin 2, ∑ j : Fin 32, ∑ r : Fin 2048, F (row c j r) := by
  rw [← Fintype.sum_equiv rowEquiv (fun p => F (row p.1 p.2.1 p.2.2)) F (fun _ => rfl)]
  rw [Fintype.sum_prod_type]
  refine Finset.sum_congr rfl (fun c _ => ?_)
  rw [Fintype.sum_prod_type]

/-! ### Node by node -/

/-- For a node of graph `g` both first gating layers see the same 512 numbers. -/
theorem h1K_eq_h1R_of (n : Fin 131072) (g : Fin 512) (h : I.b n = BitVec.ofNat 32 g.val) (k : Fin 512) :
    h1K I n k = h1R I n k := by
  unfold h1K h1R
  rw [sum_hot_mul I n g h (fun g' => uW I g' k), split512 (fun k' => cat I n k' * I.Wg1 k' k)]
  have hlo : ∀ j : Fin 256, cat I n (lo j) = I.x n j := by
    intro j
    have hj : (lo j).val < 256 := j.isLt
    unfold cat
    rw [dif_pos hj]
    rfl
  have hhi : ∀ j : Fin 256, cat I n (hi j) = I.u g j := by
    intro j
    have hj : ¬ (hi j).val < 256 := by simp only [hi]; omega
    unfold cat
    rw [dif_neg hj, gidx_of_eq I n g h]
    congr 1
    apply Fin.ext
    simp only [hi]
    omega
  simp only [hlo, hhi]
  rfl

theorem wK_eq_wR_of (n : Fin 131072) (g : Fin 512) (h : I.b n = BitVec.ofNat 32 g.val) (f : Fin 256) :
    wK I n f = wR I n f := by
  unfold wK wR aK aR
  simp only [h1K_eq_h1R_of I n g h]

/-- A node's share of graph `g`'s sum, in both arrangements. -/
theorem hot_mul_wK (n : Fin 131072) (g : Fin 512) (f : Fin 256) :
    hot I n g * wK I n f = if (I.b n).toInt = (g.val : ℤ) then wR I n f else 0 := by
  by_cases h : I.b n = BitVec.ofNat 32 g.val
  · rw [if_pos ((word_eq_iff (I.b n) g).1 h), ← wK_eq_wR_of I n g h f]
    unfold hot
    rw [if_pos h, one_mul]
  · rw [if_neg (fun hc => h ((word_eq_iff (I.b n) g).2 hc))]
    unfold hot
    rw [if_neg h, zero_mul]

theorem hot_eq (n : Fin 131072) (g : Fin 512) :
    hot I n g = if (I.b n).toInt = (g.val : ℤ) then (1 : EReal) else 0 := by
  unfold hot
  by_cases h : I.b n = BitVec.ofNat 32 g.val
  · rw [if_pos h, if_pos ((word_eq_iff (I.b n) g).1 h)]
  · rw [if_neg h, if_neg (fun hc => h ((word_eq_iff (I.b n) g).2 hc))]

/-! ### Graph by graph -/

theorem sumsTot_eq (g : Fin 512) (f : Fin 256) : sumsTot I g f = sumsR I g f := by
  unfold sumsTot sumsK blkSum sumsR
  rw [← sum_rows (fun n => hot I n g * wK I n f)]
  exact Finset.sum_congr rfl (fun n _ => hot_mul_wK I n g f)

theorem cntTot_eq (g : Fin 512) : cntTot I g = cntR I g := by
  unfold cntTot cntK blkCnt cntR
  rw [← sum_rows (fun n => hot I n g)]
  exact Finset.sum_congr rfl (fun n _ => hot_eq I n g)

theorem xagg_eq (g : Fin 512) (f : Fin 256) : xaggK I g f = xaggR I g f := by
  unfold xaggK xaggR
  rw [sumsTot_eq, cntTot_eq]

theorem h2_eq (g k : Fin 512) : h2K I g k = h2R I g k := by
  unfold h2K h2R
  rw [split512 (fun k' => cat2 I g k' * I.Wp1 k' k)]
  have hlo : ∀ j : Fin 256, cat2 I g (lo j) = xaggK I g j := by
    intro j
    have hj : (lo j).val < 256 := j.isLt
    unfold cat2
    rw [dif_pos hj, xagg_eq]
    rfl
  have hhi : ∀ j : Fin 256, cat2 I g (hi j) = I.u g j := by
    intro j
    have hj : ¬ (hi j).val < 256 := by simp only [hi]; omega
    unfold cat2
    rw [dif_neg hj]
    congr 1
    apply Fin.ext
    simp only [hi]
    omega
  simp only [hlo, hhi]

theorem outK_eq_outR (g : Fin 512) (f : Fin 256) : outK I g f = outR I g f := by
  unfold outK outR
  simp only [h2_eq]

end Cert.Spec

end
-- ==== Proof.Arr.lean ====
/- The model's inputs as a record of coordinate functions, read off the eleven argument arrays. -/
import proofs.«423388_j24472723652621_3_alg».proof.Proof.Spec
import Idealize.ShloMosaic.Lib.ValueIdx

noncomputable section

namespace Cert.Spec

open Idealize.ShloMosaic Idealize.ShloMosaic.ValueIdx

/-- The record of coordinate functions of the argument arrays: node features, graph features, graph ids, and the two
    networks' weights and biases. -/
def inpOf (x0 : FVec Ideal ⟨2, ![131072, 256]⟩ .f32) (x3 : FVec Ideal ⟨2, ![512, 256]⟩ .f32) (x4 : IVec ⟨1, ![131072]⟩ 32)
    (x5 : FVec Ideal ⟨2, ![512, 512]⟩ .f32) (x6 : FVec Ideal ⟨1, ![512]⟩ .f32) (x7 : FVec Ideal ⟨2, ![512, 256]⟩ .f32)
    (x8 : FVec Ideal ⟨1, ![256]⟩ .f32) (x9 : FVec Ideal ⟨2, ![512, 512]⟩ .f32) (x10 : FVec Ideal ⟨1, ![512]⟩ .f32)
    (x11 : FVec Ideal ⟨2, ![512, 256]⟩ .f32) (x12 : FVec Ideal ⟨1, ![256]⟩ .f32) : Inp where
  x n f := x0 (ix2 n f)
  u g j := x3 (ix2 g j)
  b n := x4 (ix1 n)
  Wg1 a k := x5 (ix2 a k)
  bg1 k := x6 (ix1 k)
  Wg2 k f := x7 (ix2 k f)
  bg2 f := x8 (ix1 f)
  Wp1 a k := x9 (ix2 a k)
  bp1 k := x10 (ix1 k)
  Wp2 k f := x11 (ix2 k f)
  bp2 f := x12 (ix1 f)

end Cert.Spec

end
-- ==== Proof.KIHost.lean ====
/- The eighteen host operations before the first kernel, read at an index over the extended reals: each is a reshape, a
   slice of the upper or lower 256 rows, a narrowing (the identity here), or the product of the graph features with the
   lower half of the first gating layer. -/
import proofs.«423388_j24472723652621_3_alg».proof.Proof.KIMain
import proofs.«423388_j24472723652621_3_alg».proof.Proof.Arr
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KIValue

open Cert.KernelIdeal Cert.KernelIdeal.Gen Cert.KernelIdeal.Fr Idealize.ShloMosaic Idealize.ShloMosaic.TcCoe Idealize.SL.Sem Idealize.ShloMosaic.ValueIdx Cert.Spec

variable (m : (ℓ : Loc nD τ sig) → Buf (Elt Ideal) ℓ) (c : Dev nD)

/-- The model's inputs, read off the launch memory's argument arrays. -/
abbrev inp : Inp :=
  inpOf (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The node features reach the first kernel as launched: no host operation writes them. -/
theorem E1_arg0 : (E1 m c main_arg0 : Vec Ideal S131072x256 .f32) = m ((c : Thread nD τ).loc main_arg0) :=
  (Gen.V1_of m c main_arg0 (by decide)).trans rfl
/-- The graph ids as a column: entry `(n, 0)` of the column sits at row-major position `n`. -/
theorem E1_v0 (n : Fin 131072) : (E1 m c main_v0 : Vec Ideal S131072x1 .i32) (ix2 n (0 : Fin 1)) = (inp m c).b n := by
  have e : (E1 m c main_v0 : S131072x1.Idx → BitVec 32) = shapeCast S131072x1 (m ((c : Thread nD τ).loc main_arg4)) shapeCasts_S131072_S131072x1 := by
    dsimp only [E1, W1, Gen.V1, Gen.hostOps0]; after_results; rfl
  rw [e]
  exact shapeCast_apply _ shapeCasts_S131072_S131072x1 (ix2 n (0 : Fin 1)) (ix1 n) (by
    rw [Shape.rowMajor_val_two, Shape.rowMajor_val_one]
    show n.val = n.val * 1 + 0
    omega)
/-- The graph features, narrowed. -/
theorem E1_v1 (g : Fin 512) (j : Fin 256) : (E1 m c main_v1 : Vec Ideal S512x256 .bf16) (ix2 g j) = (inp m c).u g j := by
  have e : (E1 m c main_v1 : FVec Ideal S512x256 .bf16) = (truncf (F := Ideal) .bf16 (m ((c : Thread nD τ).loc main_arg3) : FVec Ideal S512x256 .f32) bitsLt_bf16_f32 : FVec Ideal S512x256 .bf16) := by
    dsimp only [E1, W1, Gen.V1, Gen.hostOps0]; after_results
  rw [e]
  rfl
/-- The upper and lower halves of the first gating layer. -/
theorem E1_v3 (j : Fin 256) (k : Fin 512) : (E1 m c main_v3 : Vec Ideal S256x512 .bf16) (ix2 j k) = (inp m c).Wg1 (lo j) k := by
  have e : (E1 m c main_v3 : FVec Ideal S256x512 .bf16) = (truncf (F := Ideal) .bf16 (extractStridedSlice S256x512 ![0, 0] (m ((c : Thread nD τ).loc main_arg5) : FVec Ideal S512x512 .f32) slices_S512x512_S256x512_0_0 : FVec Ideal S256x512 .f32) bitsLt_bf16_f32 : FVec Ideal S256x512 .bf16) := by
    dsimp only [E1, W1, Gen.V1, Gen.hostOps0]; after_results
  rw [e, truncf_apply]
  exact slice2_axis0_apply 0 _ slices_S512x512_S256x512_0_0 j k (lo j) (Nat.zero_add _).symm
theorem E1_v6 (k : Fin 512) (f : Fin 256) : (E1 m c main_v6 : Vec Ideal S512x256 .bf16) (ix2 k f) = (inp m c).Wg2 k f := by
  have e : (E1 m c main_v6 : FVec Ideal S512x256 .bf16) = (truncf (F := Ideal) .bf16 (m ((c : Thread nD τ).loc main_arg7) : FVec Ideal S512x256 .f32) bitsLt_bf16_f32 : FVec Ideal S512x256 .bf16) := by
    dsimp only [E1, W1, Gen.V1, Gen.hostOps0]; after_results
  rw [e]
  rfl
/-- The halves of the second network's first layer. -/
theorem E1_v8 (j : Fin 256) (k : Fin 512) : (E1 m c main_v8 : Vec Ideal S256x512 .bf16) (ix2 j k) = (inp m c).Wp1 (lo j) k := by
  have e : (E1 m c main_v8 : FVec Ideal S256x512 .bf16) = (truncf (F := Ideal) .bf16 (extractStridedSlice S256x512 ![0, 0] (m ((c : Thread nD τ).loc main_arg9) : FVec Ideal S512x512 .f32) slices_S512x512_S256x512_0_0 : FVec Ideal S256x512 .f32) bitsLt_bf16_f32 : FVec Ideal S256x512 .bf16) := by
    dsimp only [E1, W1, Gen.V1, Gen.hostOps0]; after_results
  rw [e, truncf_apply]
  exact slice2_axis0_apply 0 _ slices_S512x512_S256x512_0_0 j k (lo j) (Nat.zero_add _).symm
theorem E1_v10 (j : Fin 256) (k : Fin 512) : (E1 m c main_v10 : Vec Ideal S256x512 .bf16) (ix2 j k) = (inp m c).Wp1 (hi j) k := by
  have e : (E1 m c main_v10 : FVec Ideal S256x512 .bf16) = (truncf (F := Ideal) .bf16 (extractStridedSlice S256x512 ![256, 0] (m ((c : Thread nD τ).loc main_arg9) : FVec Ideal S512x512 .f32) slices_S512x512_S256x512_256_0 : FVec Ideal S256x512 .f32) bitsLt_bf16_f32 : FVec Ideal S256x512 .bf16) := by
    dsimp only [E1, W1, Gen.V1, Gen.hostOps0]; after_results
  rw [e, truncf_apply]
  exact slice2_axis0_apply 256 _ slices_S512x512_S256x512_256_0 j k (hi j) rfl
theorem E1_v11 (k : Fin 512) (f : Fin 256) : (E1 m c main_v11 : Vec Ideal S512x256 .bf16) (ix2 k f) = (inp m c).Wp2 k f := by
  have e : (E1 m c main_v11 : FVec Ideal S512x256 .bf16) = (truncf (F := Ideal) .bf16 (m ((c : Thread nD τ).loc main_arg11) : FVec Ideal S512x256 .f32) bitsLt_bf16_f32 : FVec Ideal S512x256 .bf16) := by
    dsimp only [E1, W1, Gen.V1, Gen.hostOps0]; after_results
  rw [e]
  rfl

/-- The operand indices of the 512 × 256 by 256 × 512 product, axis by axis: the left operand is read at (row, contraction
    index), the right at (contraction index, column). -/
theorem lhs_main_v12_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_main_v12_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_main_v12_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_main_v12_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The host's product of a 512 × 256 by a 256 × 512 matrix, entry by entry. -/
theorem dot_main_v12_apply (l : FVec Ideal S512x256 .bf16) (r : FVec Ideal S256x512 .bf16) (g k : Fin 512) :
    (Host.dotGeneral dot_S512x256_S256x512_S512x512_1_0_0_1_n_n none l r : FVec Ideal S512x512 .f32) (ix2 g k)
      = ∑ j : Fin 256, l (ix2 g j) * r (ix2 j k) := by
  simp only [Host.dotGeneral]
  rw [Ideal.dotGeneral_apply, ← Equiv.sum_comp (contrEquiv1 dot_S512x256_S256x512_S512x512_1_0_0_1_n_n 256 rfl rfl).symm]
  refine Finset.sum_congr rfl fun j _ => ?_
  have hj := contrEquiv1_symm_val dot_S512x256_S256x512_S512x512_1_0_0_1_n_n 256 rfl rfl j
  have el : dot_S512x256_S256x512_S512x512_1_0_0_1_n_n.lhsIdx (ix2 g k) ((contrEquiv1 dot_S512x256_S256x512_S512x512_1_0_0_1_n_n 256 rfl rfl).symm j) = ix2 g j := funext fun a => Fin.ext (by
    match a with
    | ⟨0, _⟩ => exact lhs_main_v12_0 _ _
    | ⟨1, _⟩ => exact (lhs_main_v12_1 _ _).trans hj)
  have er : dot_S512x256_S256x512_S512x512_1_0_0_1_n_n.rhsIdx (ix2 g k) ((contrEquiv1 dot_S512x256_S256x512_S512x512_1_0_0_1_n_n 256 rfl rfl).symm j) = ix2 j k := funext fun a => Fin.ext (by
    match a with
    | ⟨0, _⟩ => exact (rhs_main_v12_0 _ _).trans hj
    | ⟨1, _⟩ => exact rhs_main_v12_1 _ _)
  rw [el, er]

/-- The narrowed product of the narrowed graph features with the narrowed lower half of a 512-row matrix, entry by
    entry: narrowing changes nothing over the extended reals, and row `j` of the cut is row `256 + j` of the matrix. -/
theorem lower_prod_apply (x3 : FVec Ideal S512x256 .f32) (x5 : FVec Ideal S512x512 .f32) (g k : Fin 512) :
    (truncf (F := Ideal) .bf16
        (Host.dotGeneral dot_S512x256_S256x512_S512x512_1_0_0_1_n_n none
          (truncf (F := Ideal) .bf16 x3 bitsLt_bf16_f32 : FVec Ideal S512x256 .bf16)
          (truncf (F := Ideal) .bf16 (extractStridedSlice S256x512 ![256, 0] x5 slices_S512x512_S256x512_256_0 : FVec Ideal S256x512 .f32) bitsLt_bf16_f32 : FVec Ideal S256x512 .bf16)
          : FVec Ideal S512x512 .f32) bitsLt_bf16_f32 : FVec Ideal S512x512 .bf16) (ix2 g k)
      = ∑ j : Fin 256, x3 (ix2 g j) * x5 (ix2 (hi j) k) := by
  rw [truncf_apply, dot_main_v12_apply]
  refine Finset.sum_congr rfl fun j _ => ?_
  rw [truncf_apply, truncf_apply]
  exact congrArg (_ * ·) (slice2_axis0_apply 256 x5 slices_S512x512_S256x512_256_0 j k (hi j) rfl)

/-- The graph features through the lower half of the first gating layer. -/
theorem E1_v13 (g k : Fin 512) : (E1 m c main_v13 : Vec Ideal S512x512 .bf16) (ix2 g k) = uW (inp m c) g k := by
  have e : (E1 m c main_v13 : FVec Ideal S512x512 .bf16)
      = (truncf (F := Ideal) .bf16
          (Host.dotGeneral dot_S512x256_S256x512_S512x512_1_0_0_1_n_n none
            (truncf (F := Ideal) .bf16 (m ((c : Thread nD τ).loc main_arg3) : FVec Ideal S512x256 .f32) bitsLt_bf16_f32 : FVec Ideal S512x256 .bf16)
            (truncf (F := Ideal) .bf16 (extractStridedSlice S256x512 ![256, 0] (m ((c : Thread nD τ).loc main_arg5) : FVec Ideal S512x512 .f32) slices_S512x512_S256x512_256_0 : FVec Ideal S256x512 .f32) bitsLt_bf16_f32 : FVec Ideal S256x512 .bf16)
            : FVec Ideal S512x512 .f32) bitsLt_bf16_f32 : FVec Ideal S512x512 .bf16) := by
    dsimp only [E1, W1, Gen.V1, Gen.hostOps0]; after_results
  rw [e]
  exact lower_prod_apply _ _ g k
/-- The four biases as rows. -/
theorem E1_v14 (k : Fin 512) : (E1 m c main_v14 : Vec Ideal S1x512 .f32) (ix2 (0 : Fin 1) k) = (inp m c).bg1 k := by
  have e : (E1 m c main_v14 : S1x512.Idx → EReal) = shapeCast S1x512 (m ((c : Thread nD τ).loc main_arg6)) shapeCasts_S512_S1x512 := by
    dsimp only [E1, W1, Gen.V1, Gen.hostOps0]; after_results; rfl
  rw [e]
  exact shapeCast_a_1a_apply _ shapeCasts_S512_S1x512 (0 : Fin 1) k
theorem E1_v15 (f : Fin 256) : (E1 m c main_v15 : Vec Ideal S1x256 .f32) (ix2 (0 : Fin 1) f) = (inp m c).bg2 f := by
  have e : (E1 m c main_v15 : S1x256.Idx → EReal) = shapeCast S1x256 (m ((c : Thread nD τ).loc main_arg8)) shapeCasts_S256_S1x256 := by
    dsimp only [E1, W1, Gen.V1, Gen.hostOps0]; after_results; rfl
  rw [e]
  exact shapeCast_a_1a_apply _ shapeCasts_S256_S1x256 (0 : Fin 1) f
theorem E1_v16 (k : Fin 512) : (E1 m c main_v16 : Vec Ideal S1x512 .f32) (ix2 (0 : Fin 1) k) = (inp m c).bp1 k := by
  have e : (E1 m c main_v16 : S1x512.Idx → EReal) = shapeCast S1x512 (m ((c : Thread nD τ).loc main_arg10)) shapeCasts_S512_S1x512 := by
    dsimp only [E1, W1, Gen.V1, Gen.hostOps0]; after_results; rfl
  rw [e]
  exact shapeCast_a_1a_apply _ shapeCasts_S512_S1x512 (0 : Fin 1) k
theorem E1_v17 (f : Fin 256) : (E1 m c main_v17 : Vec Ideal S1x256 .f32) (ix2 (0 : Fin 1) f) = (inp m c).bp2 f := by
  have e : (E1 m c main_v17 : S1x256.Idx → EReal) = shapeCast S1x256 (m ((c : Thread nD τ).loc main_arg12)) shapeCasts_S256_S1x256 := by
    dsimp only [E1, W1, Gen.V1, Gen.hostOps0]; after_results; rfl
  rw [e]
  exact shapeCast_a_1a_apply _ shapeCasts_S256_S1x256 (0 : Fin 1) f

end Cert.KIValue

end
-- ==== Proof.KIVal0.lean ====
/- The first kernel's two result arrays over the extended reals: per half, the 32 steps' block sums added up. A point's input blocks are rows 2048·t … 2048·t + 2047 of the node features and graph ids and the whole of the small operands; a step adds the block's selected gated features (and the block's column counts) to what the step before left, a half's first step starting from zero; the half's last step writes the totals out. -/
import proofs.«423388_j24472723652621_3_alg».proof.Proof.KIPieces
import proofs.«423388_j24472723652621_3_alg».proof.Proof.KIPay0
import proofs.«423388_j24472723652621_3_alg».proof.Proof.KIPay9
import proofs.«423388_j24472723652621_3_alg».proof.Proof.KIHost
import Idealize.ShloMosaic.Lib.ValueIdx
import Idealize.ShloMosaic.Lib.Pipeline.Value

set_option maxRecDepth 16384

noncomputable section

namespace Cert.KIValue

open Cert.KernelIdeal Cert.KernelIdeal.Gen Cert.KernelIdeal.Fr Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (c : Dev nD)

/-! ## Where each window's block sits on the 2 × 32 grid -/
namespace Node

/-- Where the row blocks sit: the node features' and the graph ids' block at point t is block t along the rows. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The small operands' block is the whole array at every point, and an output's block is its half's. -/
theorem idx_whole : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0))
theorem idx_outs : ∀ t : Fin cfg0.N,
    (win0_7.index t (0 : Fin 3) = t.val / 32 ∧ win0_7.index t (1 : Fin 3) = 0 ∧ win0_7.index t (2 : Fin 3) = 0)
    ∧ (win0_8.index t (0 : Fin 3) = t.val / 32 ∧ win0_8.index t (1 : Fin 3) = 0 ∧ win0_8.index t (2 : Fin 3) = 0) :=
  (by decide +kernel : ∀ t : Fin grid0.N,
    (win0_7.index t (0 : Fin 3) = t.val / 32 ∧ win0_7.index t (1 : Fin 3) = 0 ∧ win0_7.index t (2 : Fin 3) = 0)
    ∧ (win0_8.index t (0 : Fin 3) = t.val / 32 ∧ win0_8.index t (1 : Fin 3) = 0 ∧ win0_8.index t (2 : Fin 3) = 0))

/-! ## A point's input blocks -/

/-- Row r of the node features' block at point t is node 2048·t + r. -/
theorem blk0_apply (t : Fin cfg0.N) (r : Fin 2048) (f : Fin 256) (n : Fin 131072) (hn : n.val = 2048 * t.val + r.val) :
    (iblk0 (E1 m) c 0 t : Vec Ideal S2048x256 .f32) (ix2 r f) = (inp m c).x n f := by
  unfold iblk0
  rw [View.read_apply]
  show (E1 m c main_arg0 : Vec Ideal S131072x256 .f32) _ = _
  rw [E1_arg0]
  show m ((c : Thread nD τ).loc main_arg0) _ = m ((c : Thread nD τ).loc main_arg0) (ix2 n f)
  congr 1
  funext a
  apply Fin.ext
  match a with
  | ⟨0, _⟩ =>
    show win0_0.index t 0 * 2048 + 1 * r.val = n.val
    rw [(idx_rows t).1]; omega
  | ⟨1, _⟩ =>
    show win0_0.index t 1 * 256 + 1 * f.val = f.val
    rw [(idx_rows t).2.1]; omega

/-- The same row of the graph ids' block is that node's id. -/
theorem blk1_apply (t : Fin cfg0.N) (r : Fin 2048) (n : Fin 131072) (hn : n.val = 2048 * t.val + r.val) :
    (iblk0 (E1 m) c 1 t : Vec Ideal S2048x1 .i32) (ix2 r (0 : Fin 1)) = (inp m c).b n := by
  unfold iblk0
  rw [View.read_apply]
  refine Eq.trans (congrArg (E1 m c main_v0 : Vec Ideal S131072x1 .i32) (?_ : _ = ix2 n (0 : Fin 1))) (E1_v0 m c n)
  funext a
  apply Fin.ext
  match a with
  | ⟨0, _⟩ =>
    show win0_1.index t 0 * 2048 + 1 * r.val = n.val
    rw [(idx_rows t).2.2.1]; omega
  | ⟨1, _⟩ =>
    show win0_1.index t 1 * 1 + 1 * 0 = 0
    rw [(idx_rows t).2.2.2]

/-- The small operands are read whole: the graph features through the first layer's lower half, -/
theorem blk2_apply (t : Fin cfg0.N) (g k : Fin 512) :
    (iblk0 (E1 m) c 2 t : Vec Ideal S512x512 .bf16) (ix2 g k) = uW (inp m c) g k := by
  unfold iblk0
  rw [View.read_apply]
  refine Eq.trans (congrArg (E1 m c main_v13 : Vec Ideal S512x512 .bf16) (?_ : _ = ix2 g k)) (E1_v13 m c g k)
  funext a
  apply Fin.ext
  match a with
  | ⟨0, _⟩ =>
    show win0_2.index t 0 * 512 + 1 * g.val = g.val
    rw [(idx_whole t).1.1]; omega
  | ⟨1, _⟩ =>
    show win0_2.index t 1 * 512 + 1 * k.val = k.val
    rw [(idx_whole t).1.2]; omega
/-- the first layer's upper half, -/
theorem blk3_apply (t : Fin cfg0.N) (j : Fin 256) (k : Fin 512) :
    (iblk0 (E1 m) c 3 t : Vec Ideal S256x512 .bf16) (ix2 j k) = (inp m c).Wg1 (lo j) k := by
  unfold iblk0
  rw [View.read_apply]
  refine Eq.trans (congrArg (E1 m c main_v3 : Vec Ideal S256x512 .bf16) (?_ : _ = ix2 j k)) (E1_v3 m c j k)
  funext a
  apply Fin.ext
  match a with
  | ⟨0, _⟩ =>
    show win0_3.index t 0 * 256 + 1 * j.val = j.val
    rw [(idx_whole t).2.1.1]; omega
  | ⟨1, _⟩ =>
    show win0_3.index t 1 * 512 + 1 * k.val = k.val
    rw [(idx_whole t).2.1.2]; omega
/-- its bias, -/
theorem blk4_apply (t : Fin cfg0.N) (k : Fin 512) :
    (iblk0 (E1 m) c 4 t : Vec Ideal S1x512 .f32) (ix2 (0 : Fin 1) k) = (inp m c).bg1 k := by
  unfold iblk0
  rw [View.read_apply]
  refine Eq.trans (congrArg (E1 m c main_v14 : Vec Ideal S1x512 .f32) (?_ : _ = ix2 (0 : Fin 1) k)) (E1_v14 m c k)
  funext a
  apply Fin.ext
  match a with
  | ⟨0, _⟩ =>
    show win0_4.index t 0 * 1 + 1 * 0 = 0
    rw [(idx_whole t).2.2.1.1]
  | ⟨1, _⟩ =>
    show win0_4.index t 1 * 512 + 1 * k.val = k.val
    rw [(idx_whole t).2.2.1.2]; omega
/-- the second layer, -/
theorem blk5_apply (t : Fin cfg0.N) (k : Fin 512) (f : Fin 256) :
    (iblk0 (E1 m) c 5 t : Vec Ideal S512x256 .bf16) (ix2 k f) = (inp m c).Wg2 k f := by
  unfold iblk0
  rw [View.read_apply]
  refine Eq.trans (congrArg (E1 m c main_v6 : Vec Ideal S512x256 .bf16) (?_ : _ = ix2 k f)) (E1_v6 m c k f)
  funext a
  apply Fin.ext
  match a with
  | ⟨0, _⟩ =>
    show win0_5.index t 0 * 512 + 1 * k.val = k.val
    rw [(idx_whole t).2.2.2.1.1]; omega
  | ⟨1, _⟩ =>
    show win0_5.index t 1 * 256 + 1 * f.val = f.val
    rw [(idx_whole t).2.2.2.1.2]; omega
/-- and its bias. -/
theorem blk6_apply (t : Fin cfg0.N) (f : Fin 256) :
    (iblk0 (E1 m) c 6 t : Vec Ideal S1x256 .f32) (ix2 (0 : Fin 1) f) = (inp m c).bg2 f := by
  unfold iblk0
  rw [View.read_apply]
  refine Eq.trans (congrArg (E1 m c main_v15 : Vec Ideal S1x256 .f32) (?_ : _ = ix2 (0 : Fin 1) f)) (E1_v15 m c f)
  funext a
  apply Fin.ext
  match a with
  | ⟨0, _⟩ =>
    show win0_6.index t 0 * 1 + 1 * 0 = 0
    rw [(idx_whole t).2.2.2.2.1]
  | ⟨1, _⟩ =>
    show win0_6.index t 1 * 256 + 1 * f.val = f.val
    rw [(idx_whole t).2.2.2.2.2]; omega

/-! ## A point's step -/

/-- Node r of the block at grid point t. -/
def nodeAt (t : Fin cfg0.N) (r : Fin 2048) : Fin 131072 :=
  ⟨2048 * t.val + r.val, by have h := t.isLt; have hN : cfg0.N = 64 := N_0; have := r.isLt; omega⟩

/-- From a block's entries to the model's: given that row r of the blocks holds node n's features and id and that the
    small operands hold the model's weights, the gated features of row r are node n's. -/
theorem gated_of (I : Inp) (xb : Vec Ideal S2048x256 .f32) (bb : Vec Ideal S2048x1 .i32) (w3 : Vec Ideal S256x512 .bf16)
    (w13 : Vec Ideal S512x512 .bf16) (b14 : Vec Ideal S1x512 .f32) (w6 : Vec Ideal S512x256 .bf16) (b15 : Vec Ideal S1x256 .f32)
    (r : Fin 2048) (n : Fin 131072)
    (hx : ∀ f, xb (ix2 r f) = I.x n f) (hb : bb (ix2 r (0 : Fin 1)) = I.b n)
    (h3 : ∀ j k, w3 (ix2 j k) = I.Wg1 (lo j) k) (h13 : ∀ g k, w13 (ix2 g k) = uW I g k)
    (h14 : ∀ k, b14 (ix2 (0 : Fin 1) k) = I.bg1 k) (h6 : ∀ k f, w6 (ix2 k f) = I.Wg2 k f)
    (h15 : ∀ f, b15 (ix2 (0 : Fin 1) f) = I.bg2 f) (f : Fin 256) :
    k0_pay9 (F := Ideal) xb bb w3 w13 b14 w6 b15 (ix2 r f) = wK I n f := by
  rw [pay9_apply]
  unfold wK aK h1K hot
  simp only [hx, h3, h13, h14, h6, h15, pay7_apply, hb]

/-- The zero-one row of row r is node n's. -/
theorem hot_of (I : Inp) (bb : Vec Ideal S2048x1 .i32) (r : Fin 2048) (n : Fin 131072)
    (hb : bb (ix2 r (0 : Fin 1)) = I.b n) (g : Fin 512) :
    k0_pay7 (F := Ideal) bb (ix2 r g) = hot I n g := by
  rw [pay7_apply, hb]
  rfl

theorem hotW_apply (t : Fin cfg0.N) (r : Fin 2048) (g : Fin 512) :
    hotW (E1 m) c t (ix2 r g) = hot (inp m c) (nodeAt t r) g :=
  hot_of (inp m c) (iblk0 (E1 m) c 1 t) r (nodeAt t r) (blk1_apply m c t r (nodeAt t r) rfl) g

theorem hot8_apply (t : Fin cfg0.N) (r : Fin 2048) (g : Fin 512) :
    hot8 (E1 m) c t (ix2 r g) = hot (inp m c) (nodeAt t r) g :=
  (congrFun (pay8_eq (iblk0 (E1 m) c 1 t)) (ix2 r g)).trans (hotW_apply m c t r g)

theorem gated_apply (t : Fin cfg0.N) (r : Fin 2048) (f : Fin 256) :
    gated (E1 m) c t (ix2 r f) = wK (inp m c) (nodeAt t r) f :=
  gated_of (inp m c) (iblk0 (E1 m) c 0 t) (iblk0 (E1 m) c 1 t) (iblk0 (E1 m) c 3 t) (iblk0 (E1 m) c 2 t) (iblk0 (E1 m) c 4 t)
    (iblk0 (E1 m) c 5 t) (iblk0 (E1 m) c 6 t) r (nodeAt t r)
    (fun f => blk0_apply m c t r f (nodeAt t r) rfl) (blk1_apply m c t r (nodeAt t r) rfl)
    (blk3_apply m c t) (blk2_apply m c t) (blk4_apply m c t) (blk5_apply m c t) (blk6_apply m c t) f

/-- What the block at point t adds to the sums and to the counts. -/
def stepSum (I : Inp) (t : Fin cfg0.N) (g : Fin 512) (f : Fin 256) : EReal :=
  ∑ r : Fin 2048, hot I (nodeAt t r) g * wK I (nodeAt t r) f
def stepCnt (I : Inp) (t : Fin cfg0.N) (g : Fin 512) : EReal :=
  ∑ r : Fin 2048, hot I (nodeAt t r) g

/-- A step adds the block's share to whatever the accumulators held. -/
theorem step0 (t : Fin cfg0.N) (s : Vec Ideal S512x256 .f32) (g : Fin 512) (f : Fin 256) :
    k0_pay1 (F := Ideal) (hot8 (E1 m) c t) (gated (E1 m) c t) zacc s (ix2 g f) = s (ix2 g f) + stepSum (inp m c) t g f := by
  refine (pay1_apply _ _ s g f).trans ?_
  refine congrArg (s (ix2 g f) + ·) ?_
  exact Finset.sum_congr rfl fun r _ => congrArg₂ (· * ·) (hot8_apply m c t r g) (gated_apply m c t r f)
theorem step1 (t : Fin cfg0.N) (s : Vec Ideal S1x512 .f32) (g : Fin 512) :
    k0_pay2 (F := Ideal) (hotW (E1 m) c t) s (ix2 (0 : Fin 1) g) = s (ix2 (0 : Fin 1) g) + stepCnt (inp m c) t g := by
  refine (pay2_apply _ s g).trans ?_
  refine congrArg (s (ix2 (0 : Fin 1) g) + ·) ?_
  exact Finset.sum_congr rfl fun r _ => hotW_apply m c t r g

/-! ## The fold over a half's steps -/

/-- The accumulators after a point, case by case: a half's first step, a middle step, a half's last step. -/
theorem acc0_A (t : Fin cfg0.N) (h0 : t.val % 32 = 0) (h1 : ¬t.val % 32 = 31) :
    (outsAt0 (E1 m) c t.val t.isLt).2.2.1 = sA0 (E1 m) c t ((hcond0_0 t).mpr h0) (fun h => h1 ((hcond0_1 t).mp h)) := by
  rw [outsAt0_A (E1 m) c t h0 h1]
theorem acc1_A (t : Fin cfg0.N) (h0 : t.val % 32 = 0) (h1 : ¬t.val % 32 = 31) :
    (outsAt0 (E1 m) c t.val t.isLt).2.2.2 = sA1 (E1 m) c t ((hcond0_0 t).mpr h0) (fun h => h1 ((hcond0_1 t).mp h)) := by
  rw [outsAt0_A (E1 m) c t h0 h1]
theorem acc0_B (t : Fin cfg0.N) (h0 : ¬t.val % 32 = 0) (h1 : ¬t.val % 32 = 31) :
    (outsAt0 (E1 m) c t.val t.isLt).2.2.1
      = sB0 (E1 m) c t (fun h => h0 ((hcond0_0 t).mp h)) (fun h => h1 ((hcond0_1 t).mp h)) (prev0 (E1 m) c t) (prev1 (E1 m) c t) := by
  rw [outsAt0_B (E1 m) c t h0 h1]
theorem acc1_B (t : Fin cfg0.N) (h0 : ¬t.val % 32 = 0) (h1 : ¬t.val % 32 = 31) :
    (outsAt0 (E1 m) c t.val t.isLt).2.2.2
      = sB1 (E1 m) c t (fun h => h0 ((hcond0_0 t).mp h)) (fun h => h1 ((hcond0_1 t).mp h)) (prev0 (E1 m) c t) (prev1 (E1 m) c t) := by
  rw [outsAt0_B (E1 m) c t h0 h1]
theorem acc0_C (t : Fin cfg0.N) (h0 : ¬t.val % 32 = 0) (h1 : t.val % 32 = 31) :
    (outsAt0 (E1 m) c t.val t.isLt).2.2.1
      = sC0 (E1 m) c t (fun h => h0 ((hcond0_0 t).mp h)) ((hcond0_1 t).mpr h1) (prev0 (E1 m) c t) (prev1 (E1 m) c t) := by
  rw [outsAt0_C (E1 m) c t h0 h1]
theorem acc1_C (t : Fin cfg0.N) (h0 : ¬t.val % 32 = 0) (h1 : t.val % 32 = 31) :
    (outsAt0 (E1 m) c t.val t.isLt).2.2.2
      = sC1 (E1 m) c t (fun h => h0 ((hcond0_0 t).mp h)) ((hcond0_1 t).mpr h1) (prev0 (E1 m) c t) (prev1 (E1 m) c t) := by
  rw [outsAt0_C (E1 m) c t h0 h1]
theorem out7_C (t : Fin cfg0.N) (h0 : ¬t.val % 32 = 0) (h1 : t.val % 32 = 31) :
    (outsAt0 (E1 m) c t.val t.isLt).1
      = oC7 (E1 m) c t (fun h => h0 ((hcond0_0 t).mp h)) ((hcond0_1 t).mpr h1) (prev0 (E1 m) c t) (prev1 (E1 m) c t) := by
  rw [outsAt0_C (E1 m) c t h0 h1]
theorem out8_C (t : Fin cfg0.N) (h0 : ¬t.val % 32 = 0) (h1 : t.val % 32 = 31) :
    (outsAt0 (E1 m) c t.val t.isLt).2.1
      = oC8 (E1 m) c t (fun h => h0 ((hcond0_0 t).mp h)) ((hcond0_1 t).mpr h1) (prev0 (E1 m) c t) (prev1 (E1 m) c t) := by
  rw [outsAt0_C (E1 m) c t h0 h1]

/-- A step's share by the step's number, zero past the grid. -/
def stepSumN (I : Inp) (k : ℕ) (g : Fin 512) (f : Fin 256) : EReal :=
  if h : k < cfg0.N then stepSum I ⟨k, h⟩ g f else 0
def stepCntN (I : Inp) (k : ℕ) (g : Fin 512) : EReal :=
  if h : k < cfg0.N then stepCnt I ⟨k, h⟩ g else 0

theorem stepSumN_eq (I : Inp) (k n : ℕ) (hn : n < cfg0.N) (e : k = n) (g : Fin 512) (f : Fin 256) :
    stepSumN I k g f = stepSum I ⟨n, hn⟩ g f := by
  subst e; exact dif_pos hn
theorem stepCntN_eq (I : Inp) (k n : ℕ) (hn : n < cfg0.N) (e : k = n) (g : Fin 512) :
    stepCntN I k g = stepCnt I ⟨n, hn⟩ g := by
  subst e; exact dif_pos hn

/-- After step n the sums' accumulator holds the shares of its half's steps so far, in step order. -/
theorem acc0_eq (n : ℕ) : ∀ (hn : n < cfg0.N) (g : Fin 512) (f : Fin 256),
    (outsAt0 (E1 m) c n hn).2.2.1 (ix2 g f)
      = ∑ s ∈ Finset.range (n % 32 + 1), stepSumN (inp m c) (32 * (n / 32) + s) g f := by
  induction n using Nat.strong_induction_on with
  | _ n ih =>
    intro hn g f
    have hN : cfg0.N = 64 := N_0
    by_cases h0 : n % 32 = 0
    · have h1 : ¬n % 32 = 31 := by omega
      refine (congrFun (acc0_A m c ⟨n, hn⟩ h0 h1) (ix2 g f)).trans ?_
      refine (congrFun (sA0_eq (E1 m) c ⟨n, hn⟩ _ _) (ix2 g f)).trans ?_
      refine (step0 m c ⟨n, hn⟩ _ g f).trans ?_
      rw [pay5_apply, zero_add, h0, Finset.sum_range_one]
      exact (stepSumN_eq (inp m c) _ n hn (by omega) g f).symm
    · have ihp := ih (n - 1) (by omega) (by omega) g f
      rw [show (n - 1) % 32 + 1 = n % 32 by omega, show (n - 1) / 32 = n / 32 by omega] at ihp
      rw [Finset.sum_range_succ, stepSumN_eq (inp m c) (32 * (n / 32) + n % 32) n hn (by omega) g f]
      by_cases h1 : n % 32 = 31
      · refine (congrFun (acc0_C m c ⟨n, hn⟩ h0 h1) (ix2 g f)).trans ?_
        refine (congrFun (sC0_eq (E1 m) c ⟨n, hn⟩ _ _ _ _) (ix2 g f)).trans ?_
        refine (step0 m c ⟨n, hn⟩ _ g f).trans ?_
        exact congrArg (· + stepSum (inp m c) ⟨n, hn⟩ g f) ihp
      · refine (congrFun (acc0_B m c ⟨n, hn⟩ h0 h1) (ix2 g f)).trans ?_
        refine (congrFun (sB0_eq (E1 m) c ⟨n, hn⟩ _ _ _ _) (ix2 g f)).trans ?_
        refine (step0 m c ⟨n, hn⟩ _ g f).trans ?_
        exact congrArg (· + stepSum (inp m c) ⟨n, hn⟩ g f) ihp

/-- Likewise the counts' accumulator. -/
theorem acc1_eq (n : ℕ) : ∀ (hn : n < cfg0.N) (g : Fin 512),
    (outsAt0 (E1 m) c n hn).2.2.2 (ix2 (0 : Fin 1) g)
      = ∑ s ∈ Finset.range (n % 32 + 1), stepCntN (inp m c) (32 * (n / 32) + s) g := by
  induction n using Nat.strong_induction_on with
  | _ n ih =>
    intro hn g
    have hN : cfg0.N = 64 := N_0
    by_cases h0 : n % 32 = 0
    · have h1 : ¬n % 32 = 31 := by omega
      refine (congrFun (acc1_A m c ⟨n, hn⟩ h0 h1) (ix2 (0 : Fin 1) g)).trans ?_
      refine (congrFun (sA1_eq (E1 m) c ⟨n, hn⟩ _ _) (ix2 (0 : Fin 1) g)).trans ?_
      refine (step1 m c ⟨n, hn⟩ _ g).trans ?_
      rw [pay6_apply, zero_add, h0, Finset.sum_range_one]
      exact (stepCntN_eq (inp m c) _ n hn (by omega) g).symm
    · have ihp := ih (n - 1) (by omega) (by omega) g
      rw [show (n - 1) % 32 + 1 = n % 32 by omega, show (n - 1) / 32 = n / 32 by omega] at ihp
      rw [Finset.sum_range_succ, stepCntN_eq (inp m c) (32 * (n / 32) + n % 32) n hn (by omega) g]
      by_cases h1 : n % 32 = 31
      · refine (congrFun (acc1_C m c ⟨n, hn⟩ h0 h1) (ix2 (0 : Fin 1) g)).trans ?_
        refine (congrFun (sC1_eq (E1 m) c ⟨n, hn⟩ _ _ _ _) (ix2 (0 : Fin 1) g)).trans ?_
        refine (step1 m c ⟨n, hn⟩ _ g).trans ?_
        exact congrArg (· + stepCnt (inp m c) ⟨n, hn⟩ g) ihp
      · refine (congrFun (acc1_B m c ⟨n, hn⟩ h0 h1) (ix2 (0 : Fin 1) g)).trans ?_
        refine (congrFun (sB1_eq (E1 m) c ⟨n, hn⟩ _ _ _ _) (ix2 (0 : Fin 1) g)).trans ?_
        refine (step1 m c ⟨n, hn⟩ _ g).trans ?_
        exact congrArg (· + stepCnt (inp m c) ⟨n, hn⟩ g) ihp

/-! ## What a half's last step writes out -/

/-- A half's 32 steps' shares, in step order, are the model's block sums of that half. -/
theorem steps_eq_sumsK (I : Inp) (c0 : Fin 2) (g : Fin 512) (f : Fin 256) :
    ∑ s ∈ Finset.range 32, stepSumN I (32 * c0.val + s) g f = sumsK I c0 g f := by
  have hN : cfg0.N = 64 := N_0
  unfold sumsK
  rw [Finset.sum_range]
  refine Finset.sum_congr rfl fun j _ => ?_
  have hj : 32 * c0.val + j.val < cfg0.N := by have := c0.isLt; have := j.isLt; omega
  rw [stepSumN_eq I _ (32 * c0.val + j.val) hj rfl]
  unfold stepSum blkSum
  refine Finset.sum_congr rfl fun r _ => ?_
  have e : nodeAt ⟨32 * c0.val + j.val, hj⟩ r = row c0 j r := Fin.ext (by simp only [nodeAt, row]; omega)
  rw [e]
theorem steps_eq_cntK (I : Inp) (c0 : Fin 2) (g : Fin 512) :
    ∑ s ∈ Finset.range 32, stepCntN I (32 * c0.val + s) g = cntK I c0 g := by
  have hN : cfg0.N = 64 := N_0
  unfold cntK
  rw [Finset.sum_range]
  refine Finset.sum_congr rfl fun j _ => ?_
  have hj : 32 * c0.val + j.val < cfg0.N := by have := c0.isLt; have := j.isLt; omega
  rw [stepCntN_eq I _ (32 * c0.val + j.val) hj rfl]
  unfold stepCnt blkCnt
  refine Finset.sum_congr rfl fun r _ => ?_
  have e : nodeAt ⟨32 * c0.val + j.val, hj⟩ r = row c0 j r := Fin.ext (by simp only [nodeAt, row]; omega)
  rw [e]

/-- At a half's last step the sums' output block holds that half's totals, -/
theorem out7_eq (t : Fin cfg0.N) (h31 : t.val % 32 = 31) (c0 : Fin 2) (hc : c0.val = t.val / 32) (g : Fin 512) (f : Fin 256) :
    (outsAt0 (E1 m) c t.val t.isLt).1 (ix3 (0 : Fin 1) g f) = sumsK (inp m c) c0 g f := by
  have h0 : ¬t.val % 32 = 0 := by omega
  have e := acc0_eq m c t.val t.isLt g f
  rw [h31, ← hc, steps_eq_sumsK] at e
  refine Eq.trans ?_ e
  refine (congrFun (out7_C m c t h0 h31) (ix3 (0 : Fin 1) g f)).trans ?_
  refine (congrFun (oC7_eq (E1 m) c t _ _ _ _) (ix3 (0 : Fin 1) g f)).trans ?_
  refine (pay3_apply _ g f).trans ?_
  refine Eq.symm ((congrFun (acc0_C m c t h0 h31) (ix2 g f)).trans ?_)
  exact congrFun (sC0_eq (E1 m) c t _ _ _ _) (ix2 g f)
/-- and the counts' output block that half's node counts. -/
theorem out8_eq (t : Fin cfg0.N) (h31 : t.val % 32 = 31) (c0 : Fin 2) (hc : c0.val = t.val / 32) (g : Fin 512) :
    (outsAt0 (E1 m) c t.val t.isLt).2.1 (ix3 (0 : Fin 1) (0 : Fin 1) g) = cntK (inp m c) c0 g := by
  have h0 : ¬t.val % 32 = 0 := by omega
  have e := acc1_eq m c t.val t.isLt g
  rw [h31, ← hc, steps_eq_cntK] at e
  refine Eq.trans ?_ e
  refine (congrFun (out8_C m c t h0 h31) (ix3 (0 : Fin 1) (0 : Fin 1) g)).trans ?_
  refine (congrFun (oC8_eq (E1 m) c t _ _ _ _) (ix3 (0 : Fin 1) (0 : Fin 1) g)).trans ?_
  refine (pay4_apply _ g).trans ?_
  refine Eq.symm ((congrFun (acc1_C m c t h0 h31) (ix2 (0 : Fin 1) g)).trans ?_)
  exact congrFun (sC1_eq (E1 m) c t _ _ _ _) (ix2 (0 : Fin 1) g)

/-! ## The two arrays after the region -/

/-- What the sums' write-backs leave: at (c0, g, f) half c0's total for graph g and feature f. -/
def G7 : Vec Ideal S2x512x256 .f32 :=
  fun i => sumsK (inp m c) ⟨(i 0).val, (i 0).isLt⟩ ⟨(i 1).val, (i 1).isLt⟩ ⟨(i 2).val, (i 2).isLt⟩
/-- What the counts' write-backs leave: at (c0, 0, g) half c0's node count of graph g. -/
def G8 : Vec Ideal S2x1x512 .f32 :=
  fun i => cntK (inp m c) ⟨(i 0).val, (i 0).isLt⟩ ⟨(i 2).val, (i 2).isLt⟩

/-- A half's last step writes its block of that array: element (0, g, f) of the block sits at (t / 32, g, f). -/
theorem flushed7_eq (t : Fin cfg0.N) (hf : (cfg0.win 7).flush t = true) :
    (dat0 (E1 m) c).flushed 7 t = ((cfg0.win 7).blk t).view.read (Elt Ideal) (G7 m c) := by
  have h31 := (flush0_7 t).mp hf
  have hN : cfg0.N = 64 := N_0
  show (cfg0.win 7).cut (grid0.coords t) ((dat0 (E1 m) c).after 7 t) = _
  rw [after0_7]
  funext y
  rw [View.read_apply]
  obtain ⟨a, g, f, rfl⟩ : ∃ (a : Fin 1) (g : Fin 512) (f : Fin 256), y = ix3 a g f := ⟨y 0, y 1, y 2, eq_ix3 y⟩
  obtain rfl : a = 0 := Subsingleton.elim _ _
  show (outsAt0 (E1 m) c t.val t.isLt).1 _ = G7 m c _
  refine Eq.trans (congrArg (outsAt0 (E1 m) c t.val t.isLt).1 (?_ : _ = ix3 (0 : Fin 1) g f)) ?_
  · funext a
    match a with
    | ⟨0, _⟩ => rfl
    | ⟨1, _⟩ => rfl
    | ⟨2, _⟩ => rfl
  have ht : t.val / 32 < 2 := by have := t.isLt; omega
  rw [out7_eq m c t h31 ⟨t.val / 32, ht⟩ rfl g f]
  unfold G7
  congr 1 <;> apply Fin.ext
  · show t.val / 32 = win0_7.index t 0 * 1 + 1 * 0
    rw [(idx_outs t).1.1]; omega
  · show g.val = win0_7.index t 1 * 512 + 1 * g.val
    rw [(idx_outs t).1.2.1]; omega
  · show f.val = win0_7.index t 2 * 256 + 1 * f.val
    rw [(idx_outs t).1.2.2]; omega

theorem flushed8_eq (t : Fin cfg0.N) (hf : (cfg0.win 8).flush t = true) :
    (dat0 (E1 m) c).flushed 8 t = ((cfg0.win 8).blk t).view.read (Elt Ideal) (G8 m c) := by
  have h31 := (flush0_8 t).mp hf
  have hN : cfg0.N = 64 := N_0
  show (cfg0.win 8).cut (grid0.coords t) ((dat0 (E1 m) c).after 8 t) = _
  rw [after0_8]
  funext y
  rw [View.read_apply]
  obtain ⟨a, b, g, rfl⟩ : ∃ (a : Fin 1) (b : Fin 1) (g : Fin 512), y = ix3 a b g := ⟨y 0, y 1, y 2, eq_ix3 y⟩
  obtain rfl : a = 0 := Subsingleton.elim _ _
  obtain rfl : b = 0 := Subsingleton.elim _ _
  show (outsAt0 (E1 m) c t.val t.isLt).2.1 _ = G8 m c _
  refine Eq.trans (congrArg (outsAt0 (E1 m) c t.val t.isLt).2.1 (?_ : _ = ix3 (0 : Fin 1) (0 : Fin 1) g)) ?_
  · funext a
    match a with
    | ⟨0, _⟩ => rfl
    | ⟨1, _⟩ => rfl
    | ⟨2, _⟩ => rfl
  have ht : t.val / 32 < 2 := by have := t.isLt; omega
  rw [out8_eq m c t h31 ⟨t.val / 32, ht⟩ rfl g]
  unfold G8
  congr 1 <;> apply Fin.ext
  · show t.val / 32 = win0_8.index t 0 * 1 + 1 * 0
    rw [(idx_outs t).2.1]; omega
  · show g.val = win0_8.index t 2 * 512 + 1 * g.val
    rw [(idx_outs t).2.2.2]; omega

/-- The last step of half c0. -/
def lastOf (c0 : ℕ) (h : c0 < 2) : Fin cfg0.N := ⟨32 * c0 + 31, by have hN : cfg0.N = 64 := N_0; omega⟩

/-- Every index of the sums' array is in the block of its half's last step, so the array ends holding the totals. -/
theorem final7 : (dat0 (E1 m) c).arrAt 7 cfg0.N = G7 m c :=
  (dat0 (E1 m) c).arrAt_eq_of_cover 7 (G7 m c) (flushed7_eq m c) fun i => by
    have h0 : (i 0 : Nat) < 2 := (i 0).isLt
    have h1 : (i 1 : Nat) < 512 := (i 1).isLt
    have h2 : (i 2 : Nat) < 256 := (i 2).isLt
    have hv : (lastOf (i 0 : Nat) h0).val = 32 * (i 0 : Nat) + 31 := rfl
    refine ⟨lastOf (i 0 : Nat) h0, (flush0_7 _).mpr (by rw [hv]; omega), ?_⟩
    show i ∈ ((View.whole main_v18_0).slice (win0_7.rect (lastOf (i 0 : Nat) h0))).set
    rw [View.set_slice_whole, Rect.mem_set_unit]
    intro a
    match a with
    | ⟨0, _⟩ =>
      show win0_7.index (lastOf (i 0 : Nat) h0) 0 * 1 ≤ (i 0 : Nat) ∧ (i 0 : Nat) < win0_7.index (lastOf (i 0 : Nat) h0) 0 * 1 + 1
      rw [(idx_outs _).1.1, hv]
      omega
    | ⟨1, _⟩ =>
      show win0_7.index (lastOf (i 0 : Nat) h0) 1 * 512 ≤ (i 1 : Nat) ∧ (i 1 : Nat) < win0_7.index (lastOf (i 0 : Nat) h0) 1 * 512 + 512
      rw [(idx_outs _).1.2.1]
      omega
    | ⟨2, _⟩ =>
      show win0_7.index (lastOf (i 0 : Nat) h0) 2 * 256 ≤ (i 2 : Nat) ∧ (i 2 : Nat) < win0_7.index (lastOf (i 0 : Nat) h0) 2 * 256 + 256
      rw [(idx_outs _).1.2.2]
      omega

/-- Likewise the counts' array. -/
theorem final8 : (dat0 (E1 m) c).arrAt 8 cfg0.N = G8 m c :=
  (dat0 (E1 m) c).arrAt_eq_of_cover 8 (G8 m c) (flushed8_eq m c) fun i => by
    have h0 : (i 0 : Nat) < 2 := (i 0).isLt
    have h1 : (i 1 : Nat) < 1 := (i 1).isLt
    have h2 : (i 2 : Nat) < 512 := (i 2).isLt
    have hv : (lastOf (i 0 : Nat) h0).val = 32 * (i 0 : Nat) + 31 := rfl
    refine ⟨lastOf (i 0 : Nat) h0, (flush0_8 _).mpr (by rw [hv]; omega), ?_⟩
    show i ∈ ((View.whole main_v18_1).slice (win0_8.rect (lastOf (i 0 : Nat) h0))).set
    rw [View.set_slice_whole, Rect.mem_set_unit]
    intro a
    match a with
    | ⟨0, _⟩ =>
      show win0_8.index (lastOf (i 0 : Nat) h0) 0 * 1 ≤ (i 0 : Nat) ∧ (i 0 : Nat) < win0_8.index (lastOf (i 0 : Nat) h0) 0 * 1 + 1
      rw [(idx_outs _).2.1, hv]
      omega
    | ⟨1, _⟩ =>
      show win0_8.index (lastOf (i 0 : Nat) h0) 1 * 1 ≤ (i 1 : Nat) ∧ (i 1 : Nat) < win0_8.index (lastOf (i 0 : Nat) h0) 1 * 1 + 1
      rw [(idx_outs _).2.2.1]
      omega
    | ⟨2, _⟩ =>
      show win0_8.index (lastOf (i 0 : Nat) h0) 2 * 512 ≤ (i 2 : Nat) ∧ (i 2 : Nat) < win0_8.index (lastOf (i 0 : Nat) h0) 2 * 512 + 512
      rw [(idx_outs _).2.2.2]
      omega

end Node

open Node

/-- After the first region, the sums' array holds each half's total per graph and feature, -/
theorem arr7_eq (c0 : Fin 2) (g : Fin 512) (f : Fin 256) :
    (E2 m c main_v18_0 : Vec Ideal S2x512x256 .f32) (ix3 c0 g f) = sumsK (inp m c) c0 g f := by
  have e : (E2 m c main_v18_0 : Vec Ideal S2x512x256 .f32) = G7 m c := (W2_arr m c 7).trans (final7 m c)
  rw [e]
  rfl

/-- and the counts' array each half's node count per graph. -/
theorem arr8_eq (c0 : Fin 2) (g : Fin 512) :
    (E2 m c main_v18_1 : Vec Ideal S2x1x512 .f32) (ix3 c0 (0 : Fin 1) g) = cntK (inp m c) c0 g := by
  have e : (E2 m c main_v18_1 : Vec Ideal S2x1x512 .f32) = G8 m c := (W2_arr m c 8).trans (final8 m c)
  rw [e]
  rfl

/-- The first region leaves every other buffer as it found it. -/
theorem E2_of_ne (b : Ref sig .tc) (hb : ∀ w, Pipeline.arrRef spec0 w ≠ b) : E2 m c b = E1 m c b :=
  W2_of_ne m c b hb

end Cert.KIValue

end
-- ==== Proof.KIPay1.lean ====
/- The second kernel's stored value read at an index, over the extended reals: the two halves' sums and counts added, the mean per graph, and the second network. -/
import proofs.«423388_j24472723652621_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KIValue

open Cert.KernelIdeal Cert.KernelIdeal.Gen Idealize.ShloMosaic Idealize.ShloMosaic.ValueIdx

/-! ## Small facts about the extended reals and the two literals -/

/-- The word of the float one is the extended real one. -/
theorem k1_ofBits_one_f32 : Ideal.ofBits .f32 0x3F800000#32 = 1 := by
  simp [Ideal.ofBits, Ideal.ieee, -EReal.coe_mul]; norm_num

/-- A quotient whose divisor is not zero is the product with the inverse, which is the extended reals' division. -/
theorem k1_div_of_ne_zero (x y : EReal) (hy : y ≠ 0) : Ideal.div x y = x / y := by
  unfold Ideal.div
  rw [if_neg hy, div_eq_mul_inv]

/-- The larger of anything and one is not zero. -/
theorem k1_max_one_ne_zero (c : EReal) : max c 1 ≠ 0 := by
  have h : (1 : EReal) ≤ max c 1 := le_max_right c 1
  intro h0
  rw [h0] at h
  exact absurd h (by norm_num)

/-! ## Layout operations at an index -/

/-- A column of extent one broadcast along the second axis reads, at `(p, c)`, the column at `p`. -/
theorem k1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the leading axis of extent two of a `[2, 512, 256]` array, at `(g, j)`. -/
theorem k1_sum_halves_apply (s : FVec Ideal S2x512x256 .f32) (g : Fin 512) (j : Fin 256) :
    multiReduction (F := Ideal) .add [0] S512x256 s 0x00000000#32 reduces_S2x512x256_S512x256 (.inl rfl) rfl (ix2 g j)
      = ∑ c : Fin 2, s (ix3 c g j) := by
  refine (Ideal.multiReduction_add_single s 0x00000000#32 reduces_S2x512x256_S512x256 (.inl rfl) rfl (ix2 g j)).trans ?_
  show ∑ c : Fin 2, s (reduces_S2x512x256_S512x256.lift (ix2 g j) c) = ∑ c : Fin 2, s (ix3 c g j)
  refine Finset.sum_congr rfl fun c _ => congrArg s (funext fun a => Fin.ext ?_)
  match a with
  | ⟨0, _⟩ => rfl
  | ⟨1, _⟩ => rfl
  | ⟨2, _⟩ => rfl

/-- The sum over the leading axis of extent two of a `[2, 1, 512]` array, at `(0, g)`. -/
theorem k1_sum_counts_apply (cn : FVec Ideal S2x1x512 .f32) (u : Fin 1) (g : Fin 512) :
    multiReduction (F := Ideal) .add [0] S1x512 cn 0x00000000#32 reduces_S2x1x512_S1x512 (.inl rfl) rfl (ix2 u g)
      = ∑ c : Fin 2, cn (ix3 c u g) := by
  refine (Ideal.multiReduction_add_single cn 0x00000000#32 reduces_S2x1x512_S1x512 (.inl rfl) rfl (ix2 u g)).trans ?_
  show ∑ c : Fin 2, cn (reduces_S2x1x512_S1x512.lift (ix2 u g) c) = ∑ c : Fin 2, cn (ix3 c u g)
  refine Finset.sum_congr rfl fun c _ => congrArg cn (funext fun a => Fin.ext ?_)
  match a with
  | ⟨0, _⟩ => rfl
  | ⟨1, _⟩ => rfl
  | ⟨2, _⟩ => rfl

/-! ## The two matrix products at an index -/

/-- Left operand, row axis: the output's row. -/
theorem k1_lhs_first_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
/-- Left operand, column axis: the contraction's coordinate. -/
theorem k1_lhs_first_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
/-- Right operand, row axis: the contraction's coordinate. -/
theorem k1_rhs_first_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
/-- Right operand, column axis: the output's column. -/
theorem k1_rhs_first_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- A `[512, 256]` by `[256, 512]` product into the zero accumulator, at `(g, k)`: the sum over the 256 shared coordinates. -/
theorem k1_first_apply (l : FVec Ideal S512x256 .bf16) (r : FVec Ideal S256x512 .bf16) (g : Fin 512) (k : Fin 512) :
    matmul dot_S512x256_S256x512_S512x512_1_0_0_1_n_n none l r (constant (F := Ideal) S512x512 .f32 0x00000000#32) (ix2 g k)
      = ∑ j : Fin 256, l (ix2 g j) * r (ix2 j k) := by
  refine (Ideal.matmul_constant_zero_apply dot_S512x256_S256x512_S512x512_1_0_0_1_n_n none l r (ix2 g k)).trans ?_
  rw [← Equiv.sum_comp (contrEquiv1 dot_S512x256_S256x512_S512x512_1_0_0_1_n_n 256 rfl rfl).symm]
  refine Finset.sum_congr rfl fun j _ => ?_
  have hk := contrEquiv1_symm_val dot_S512x256_S256x512_S512x512_1_0_0_1_n_n 256 rfl rfl j
  have el : dot_S512x256_S256x512_S512x512_1_0_0_1_n_n.lhsIdx (ix2 g k) ((contrEquiv1 dot_S512x256_S256x512_S512x512_1_0_0_1_n_n 256 rfl rfl).symm j) = ix2 g j := funext fun a => Fin.ext (by
    match a with
    | ⟨0, _⟩ => exact k1_lhs_first_0 _ _
    | ⟨1, _⟩ => exact (k1_lhs_first_1 _ _).trans hk)
  have er : dot_S512x256_S256x512_S512x512_1_0_0_1_n_n.rhsIdx (ix2 g k) ((contrEquiv1 dot_S512x256_S256x512_S512x512_1_0_0_1_n_n 256 rfl rfl).symm j) = ix2 j k := funext fun a => Fin.ext (by
    match a with
    | ⟨0, _⟩ => exact (k1_rhs_first_0 _ _).trans hk
    | ⟨1, _⟩ => exact k1_rhs_first_1 _ _)
  rw [el, er]

/-- Left operand, row axis: the output's row. -/
theorem k1_lhs_second_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
/-- Left operand, column axis: the contraction's coordinate. -/
theorem k1_lhs_second_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
/-- Right operand, row axis: the contraction's coordinate. -/
theorem k1_rhs_second_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
/-- Right operand, column axis: the output's column. -/
theorem k1_rhs_second_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- A `[512, 512]` by `[512, 256]` product into the zero accumulator, at `(g, k)`: the sum over the 512 shared coordinates. -/
theorem k1_second_apply (l : FVec Ideal S512x512 .bf16) (r : FVec Ideal S512x256 .bf16) (g : Fin 512) (k : Fin 256) :
    matmul dot_S512x512_S512x256_S512x256_1_0_0_1_n_n none l r (constant (F := Ideal) S512x256 .f32 0x00000000#32) (ix2 g k)
      = ∑ j : Fin 512, l (ix2 g j) * r (ix2 j k) := by
  refine (Ideal.matmul_constant_zero_apply dot_S512x512_S512x256_S512x256_1_0_0_1_n_n none l r (ix2 g k)).trans ?_
  rw [← Equiv.sum_comp (contrEquiv1 dot_S512x512_S512x256_S512x256_1_0_0_1_n_n 512 rfl rfl).symm]
  refine Finset.sum_congr rfl fun j _ => ?_
  have hk := contrEquiv1_symm_val dot_S512x512_S512x256_S512x256_1_0_0_1_n_n 512 rfl rfl j
  have el : dot_S512x512_S512x256_S512x256_1_0_0_1_n_n.lhsIdx (ix2 g k) ((contrEquiv1 dot_S512x512_S512x256_S512x256_1_0_0_1_n_n 512 rfl rfl).symm j) = ix2 g j := funext fun a => Fin.ext (by
    match a with
    | ⟨0, _⟩ => exact k1_lhs_second_0 _ _
    | ⟨1, _⟩ => exact (k1_lhs_second_1 _ _).trans hk)
  have er : dot_S512x512_S512x256_S512x256_1_0_0_1_n_n.rhsIdx (ix2 g k) ((contrEquiv1 dot_S512x512_S512x256_S512x256_1_0_0_1_n_n 512 rfl rfl).symm j) = ix2 j k := funext fun a => Fin.ext (by
    match a with
    | ⟨0, _⟩ => exact (k1_rhs_second_0 _ _).trans hk
    | ⟨1, _⟩ => exact k1_rhs_second_1 _ _)
  rw [el, er]

/-! ## The pointwise stretches -/

/-- The positive part, narrowed: the larger of the value and zero. -/
theorem k1_relu_apply (x : FVec Ideal S512x512 .f32) (g k : Fin 512) :
    truncf .bf16 (maximumf x (broadcast S512x512 (Scalar.ofBits (F := Ideal) .f32 0x00000000#32))) bitsLt_bf16_f32 (ix2 g k)
      = max (x (ix2 g k)) 0 := by
  show max (x (ix2 g k)) (Ideal.ofBits .f32 0x00000000#32) = _
  rw [Ideal.ofBits_zero_f32]

/-- The mean per graph: the halves' sums over the larger of the halves' counts and one. The divisor is at least one, so
    the quotient is the extended reals' division. -/
theorem k1_mean_apply (s : FVec Ideal S2x512x256 .f32) (cn : FVec Ideal S2x1x512 .f32) (g : Fin 512) (j : Fin 256) :
    truncf .bf16 (divf
        (multiReduction (F := Ideal) .add [0] S512x256 s 0x00000000#32 reduces_S2x512x256_S512x256 (.inl rfl) rfl)
        (broadcastTo S512x256
          (maximumf
            (transpose S512x1 [1, 0]
              (multiReduction (F := Ideal) .add [0] S1x512 cn 0x00000000#32 reduces_S2x1x512_S1x512 (.inl rfl) rfl)
              transposes_S1x512_p1_0_S512x1)
            (broadcast S512x1 (Scalar.ofBits (F := Ideal) .f32 0x3F800000#32)))
          broadcasts_S512x1_S512x256)) bitsLt_bf16_f32 (ix2 g j)
      = (∑ c : Fin 2, s (ix3 c g j)) / max (∑ c : Fin 2, cn (ix3 c (0 : Fin 1) g)) 1 := by
  have hd : broadcastTo S512x256
          (maximumf
            (transpose S512x1 [1, 0]
              (multiReduction (F := Ideal) .add [0] S1x512 cn 0x00000000#32 reduces_S2x1x512_S1x512 (.inl rfl) rfl)
              transposes_S1x512_p1_0_S512x1)
            (broadcast S512x1 (Scalar.ofBits (F := Ideal) .f32 0x3F800000#32)))
          broadcasts_S512x1_S512x256 (ix2 g j) = max (∑ c : Fin 2, cn (ix3 c (0 : Fin 1) g)) 1 := by
    refine (k1_broadcastTo_a1_ab_apply _ broadcasts_S512x1_S512x256 g j).trans ?_
    show max (transpose S512x1 [1, 0] _ transposes_S1x512_p1_0_S512x1 (ix2 g (0 : Fin 1))) (Ideal.ofBits .f32 0x3F800000#32) = _
    rw [k1_ofBits_one_f32]
    refine congrArg (max · 1) ?_
    refine (transpose_ix2_apply _ transposes_S1x512_p1_0_S512x1 g (0 : Fin 1)).trans ?_
    exact k1_sum_counts_apply cn 0 g
  show Ideal.div (multiReduction (F := Ideal) .add [0] S512x256 s 0x00000000#32 reduces_S2x512x256_S512x256 (.inl rfl) rfl (ix2 g j)) _ = _
  rw [hd, k1_sum_halves_apply s g j]
  exact k1_div_of_ne_zero _ _ (k1_max_one_ne_zero _)

/-- The last addition is pointwise. -/
theorem k1pay1_apply (a b : FVec Ideal S512x256 .f32) (g : Fin 512) (f : Fin 256) :
    k1_pay1 (F := Ideal) a b (ix2 g f) = a (ix2 g f) + b (ix2 g f) := by
  rfl

/-- The output bias is the same in every row. -/
theorem k1pay3_apply (b : Vec Ideal S1x256 .f32) (g : Fin 512) (f : Fin 256) :
    k1_pay3 (F := Ideal) b (ix2 g f) = b (ix2 (0 : Fin 1) f) := by
  unfold k1_pay3
  refine (broadcastTo_1b_ab_apply _ broadcasts_S1x256_S512x256 g f).trans ?_
  exact congrFun (shapeCast_self b shapeCasts_S1x256_S1x256) _

/-- The second network before its bias: the per-graph mean (the halves' sums over the larger of the halves' counts and
    one) through the upper half of the first layer, the graph features through the lower half, the bias, the positive
    part, and the second layer. -/
theorem k1pay2_apply (s : Vec Ideal S2x512x256 .f32) (cn : Vec Ideal S2x1x512 .f32) (w8 : Vec Ideal S256x512 .bf16)
    (ub : Vec Ideal S512x256 .bf16) (w10 : Vec Ideal S256x512 .bf16) (b16 : Vec Ideal S1x512 .f32) (w11 : Vec Ideal S512x256 .bf16)
    (g : Fin 512) (f : Fin 256) :
    k1_pay2 (F := Ideal) s cn w8 ub w10 b16 w11 (ix2 g f)
      = ∑ k : Fin 512, max (((∑ j : Fin 256, ((∑ c : Fin 2, s (ix3 c g j)) / max (∑ c : Fin 2, cn (ix3 c (0 : Fin 1) g)) 1) * w8 (ix2 j k))
          + ∑ j : Fin 256, ub (ix2 g j) * w10 (ix2 j k)) + b16 (ix2 (0 : Fin 1) k)) 0 * w11 (ix2 k f) := by
  unfold k1_pay2
  simp only [shapeCast_self]
  refine (k1_second_apply _ _ g f).trans (Finset.sum_congr rfl fun k _ => ?_)
  refine congrArg (· * w11 (ix2 k f)) ?_
  refine (k1_relu_apply _ g k).trans (congrArg (max · 0) ?_)
  refine congrArg₂ (· + ·) (congrArg₂ (· + ·) ?_ ?_) ?_
  · refine (k1_first_apply _ _ g k).trans (Finset.sum_congr rfl fun j _ => congrArg (· * w8 (ix2 j k)) ?_)
    exact k1_mean_apply s cn g j
  · exact k1_first_apply ub w10 g k
  · exact broadcastTo_1b_ab_apply b16 broadcasts_S1x512_S512x512 g k

end Cert.KIValue

end
-- ==== Proof.KIVal1.lean ====
/- The program's result over the extended reals is the block-by-block arrangement of the model: the second kernel adds the two halves' sums and counts, takes the mean per graph, and applies the second network. -/
import proofs.«423388_j24472723652621_3_alg».proof.Proof.KIVal0
import proofs.«423388_j24472723652621_3_alg».proof.Proof.KIPay1
import Idealize.ShloMosaic.Lib.ValueIdx
import Idealize.ShloMosaic.Lib.Pipeline.Value

set_option maxRecDepth 16384

noncomputable section

namespace Cert.KIValue

open Cert.KernelIdeal Cert.KernelIdeal.Gen Cert.KernelIdeal.Fr Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (c : Dev nD)

/-- The second kernel has one grid point, and each of its windows' blocks is its whole array. -/
theorem idx1_zero : ∀ t : Fin cfg1.N,
    (∀ a, win1_0.index t a = 0) ∧ (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) ∧ (∀ a, win1_7.index t a = 0)
    ∧ (∀ a, win1_8.index t a = 0) :=
  (by decide +kernel : ∀ t : Fin grid1.N, _)

theorem blk1_0 (t : Fin cfg1.N) : (iblk1 (E2 m) c 0 t : Vec Ideal S2x512x256 .f32) = E2 m c main_v18_0 := by
  have hz' : (fun a => win1_0.index t a * main_v18_0.ty.shape.size a) = fun _ => 0 :=
    funext fun a => by rw [(idx1_zero t).1 a, Nat.zero_mul]
  exact Memref.read_access_unit_zero (Elt Ideal) main_v18_0 hz' (fun a => by rw [congrFun hz' a]; simp) _
theorem blk1_1 (t : Fin cfg1.N) : (iblk1 (E2 m) c 1 t : Vec Ideal S2x1x512 .f32) = E2 m c main_v18_1 := by
  have hz' : (fun a => win1_1.index t a * main_v18_1.ty.shape.size a) = fun _ => 0 :=
    funext fun a => by rw [(idx1_zero t).2.1 a, Nat.zero_mul]
  exact Memref.read_access_unit_zero (Elt Ideal) main_v18_1 hz' (fun a => by rw [congrFun hz' a]; simp) _
theorem blk1_2 (t : Fin cfg1.N) : (iblk1 (E2 m) c 2 t : Vec Ideal S512x256 .bf16) = E2 m c main_v1 := by
  have hz' : (fun a => win1_2.index t a * main_v1.ty.shape.size a) = fun _ => 0 :=
    funext fun a => by rw [(idx1_zero t).2.2.1 a, Nat.zero_mul]
  exact Memref.read_access_unit_zero (Elt Ideal) main_v1 hz' (fun a => by rw [congrFun hz' a]; simp) _
theorem blk1_3 (t : Fin cfg1.N) : (iblk1 (E2 m) c 3 t : Vec Ideal S256x512 .bf16) = E2 m c main_v8 := by
  have hz' : (fun a => win1_3.index t a * main_v8.ty.shape.size a) = fun _ => 0 :=
    funext fun a => by rw [(idx1_zero t).2.2.2.1 a, Nat.zero_mul]
  exact Memref.read_access_unit_zero (Elt Ideal) main_v8 hz' (fun a => by rw [congrFun hz' a]; simp) _
theorem blk1_4 (t : Fin cfg1.N) : (iblk1 (E2 m) c 4 t : Vec Ideal S256x512 .bf16) = E2 m c main_v10 := by
  have hz' : (fun a => win1_4.index t a * main_v10.ty.shape.size a) = fun _ => 0 :=
    funext fun a => by rw [(idx1_zero t).2.2.2.2.1 a, Nat.zero_mul]
  exact Memref.read_access_unit_zero (Elt Ideal) main_v10 hz' (fun a => by rw [congrFun hz' a]; simp) _
theorem blk1_5 (t : Fin cfg1.N) : (iblk1 (E2 m) c 5 t : Vec Ideal S1x512 .f32) = E2 m c main_v16 := by
  have hz' : (fun a => win1_5.index t a * main_v16.ty.shape.size a) = fun _ => 0 :=
    funext fun a => by rw [(idx1_zero t).2.2.2.2.2.1 a, Nat.zero_mul]
  exact Memref.read_access_unit_zero (Elt Ideal) main_v16 hz' (fun a => by rw [congrFun hz' a]; simp) _
theorem blk1_6 (t : Fin cfg1.N) : (iblk1 (E2 m) c 6 t : Vec Ideal S512x256 .bf16) = E2 m c main_v11 := by
  have hz' : (fun a => win1_6.index t a * main_v11.ty.shape.size a) = fun _ => 0 :=
    funext fun a => by rw [(idx1_zero t).2.2.2.2.2.2.1 a, Nat.zero_mul]
  exact Memref.read_access_unit_zero (Elt Ideal) main_v11 hz' (fun a => by rw [congrFun hz' a]; simp) _
theorem blk1_7 (t : Fin cfg1.N) : (iblk1 (E2 m) c 7 t : Vec Ideal S1x256 .f32) = E2 m c main_v17 := by
  have hz' : (fun a => win1_7.index t a * main_v17.ty.shape.size a) = fun _ => 0 :=
    funext fun a => by rw [(idx1_zero t).2.2.2.2.2.2.2.1 a, Nat.zero_mul]
  exact Memref.read_access_unit_zero (Elt Ideal) main_v17 hz' (fun a => by rw [congrFun hz' a]; simp) _

/-- The model's block-by-block arrangement as contents of the result array. -/
def outArr : Buf (Elt Ideal) ((c : Thread nD τ).loc main_v19) :=
  fun i => outK (inp m c) ⟨(i 0).val, (i 0).isLt⟩ ⟨(i 1).val, (i 1).isLt⟩

/-- The second kernel's formula at operands that hold the model's quantities is the model's block-by-block arrangement. -/
theorem stored_val (I : Inp) (s : Vec Ideal S2x512x256 .f32) (cn : Vec Ideal S2x1x512 .f32) (w8 : Vec Ideal S256x512 .bf16)
    (ub : Vec Ideal S512x256 .bf16) (w10 : Vec Ideal S256x512 .bf16) (b16 : Vec Ideal S1x512 .f32) (w11 : Vec Ideal S512x256 .bf16)
    (b17 : Vec Ideal S1x256 .f32)
    (hs : ∀ (c0 : Fin 2) (g : Fin 512) (f : Fin 256), s (ix3 c0 g f) = sumsK I c0 g f)
    (hc : ∀ (c0 : Fin 2) (g : Fin 512), cn (ix3 c0 (0 : Fin 1) g) = cntK I c0 g)
    (h8 : ∀ (j : Fin 256) (k : Fin 512), w8 (ix2 j k) = I.Wp1 (lo j) k)
    (hu : ∀ (g : Fin 512) (j : Fin 256), ub (ix2 g j) = I.u g j)
    (h10 : ∀ (j : Fin 256) (k : Fin 512), w10 (ix2 j k) = I.Wp1 (hi j) k)
    (h16 : ∀ k : Fin 512, b16 (ix2 (0 : Fin 1) k) = I.bp1 k)
    (h11 : ∀ (k : Fin 512) (f : Fin 256), w11 (ix2 k f) = I.Wp2 k f)
    (h17 : ∀ f : Fin 256, b17 (ix2 (0 : Fin 1) f) = I.bp2 f) (g : Fin 512) (f : Fin 256) :
    k1_pay1 (F := Ideal) (k1_pay2 (F := Ideal) s cn w8 ub w10 b16 w11) (k1_pay3 (F := Ideal) b17) (ix2 g f) = outK I g f := by
  rw [k1pay1_apply, k1pay2_apply, k1pay3_apply]
  simp only [hs, hc, h8, hu, h10, h16, h11, h17]
  rfl

/-- What the second kernel stores is that arrangement: the two halves' sums and counts are the first region's, the
    weights and biases are the host operations' narrowed copies of the arguments. -/
theorem stored_eq (t : Fin cfg1.N) : out1_8 (F := Ideal) (E2 m) c t = outArr m c := by
  refine (out1_8_eq (F := Ideal) (E2 m) c t).trans ?_
  funext i
  obtain ⟨g, f, rfl⟩ : ∃ (g : Fin 512) (f : Fin 256), i = ix2 g f := ⟨i 0, i 1, eq_ix2 i⟩
  exact stored_val (inp m c) (iblk1 (E2 m) c 0 t) (iblk1 (E2 m) c 1 t) (iblk1 (E2 m) c 3 t) (iblk1 (E2 m) c 2 t) (iblk1 (E2 m) c 4 t)
    (iblk1 (E2 m) c 5 t) (iblk1 (E2 m) c 6 t) (iblk1 (E2 m) c 7 t)
    (fun c0 g f => (congrFun (blk1_0 m c t) (ix3 c0 g f)).trans (arr7_eq m c c0 g f))
    (fun c0 g => (congrFun (blk1_1 m c t) (ix3 c0 (0 : Fin 1) g)).trans (arr8_eq m c c0 g))
    (fun j k => (congrFun (blk1_3 m c t) (ix2 j k)).trans ((congrFun (E2_of_ne m c main_v8 (by decide)) (ix2 j k)).trans (E1_v8 m c j k)))
    (fun g j => (congrFun (blk1_2 m c t) (ix2 g j)).trans ((congrFun (E2_of_ne m c main_v1 (by decide)) (ix2 g j)).trans (E1_v1 m c g j)))
    (fun j k => (congrFun (blk1_4 m c t) (ix2 j k)).trans ((congrFun (E2_of_ne m c main_v10 (by decide)) (ix2 j k)).trans (E1_v10 m c j k)))
    (fun k => (congrFun (blk1_5 m c t) (ix2 (0 : Fin 1) k)).trans ((congrFun (E2_of_ne m c main_v16 (by decide)) (ix2 (0 : Fin 1) k)).trans (E1_v16 m c k)))
    (fun k f => (congrFun (blk1_6 m c t) (ix2 k f)).trans ((congrFun (E2_of_ne m c main_v11 (by decide)) (ix2 k f)).trans (E1_v11 m c k f)))
    (fun f => (congrFun (blk1_7 m c t) (ix2 (0 : Fin 1) f)).trans ((congrFun (E2_of_ne m c main_v17 (by decide)) (ix2 (0 : Fin 1) f)).trans (E1_v17 m c f)))
    g f

/-- The one write-back writes it: the output's block is the whole array. -/
theorem flushed1_eq (t : Fin cfg1.N) (hf : (cfg1.win 8).flush t = true) :
    (dat1 (E2 m) c).flushed 8 t = ((cfg1.win 8).blk t).view.read (Elt Ideal) (outArr m c) := by
  show (cfg1.win 8).cut (grid1.coords t) ((dat1 (E2 m) c).after 8 t) = _
  rw [after1_8, stored_eq]
  have hz' : (fun a => win1_8.index t a * main_v19.ty.shape.size a) = fun _ => 0 :=
    funext fun a => by rw [(idx1_zero t).2.2.2.2.2.2.2.2 a, Nat.zero_mul]
  exact (Memref.read_access_unit_zero (Elt Ideal) main_v19 hz' (fun a => by rw [congrFun hz' a]; simp) (outArr m c)).symm

/-- So the result array ends holding the arrangement. -/
theorem final_arr : (dat1 (E2 m) c).arrAt 8 cfg1.N = outArr m c :=
  (dat1 (E2 m) c).arrAt_eq_of_cover 8 (outArr m c) (flushed1_eq m c) fun i =>
    ⟨t1_0, flush1_8 t1_0, by
      show i ∈ ((View.whole main_v19).slice (win1_8.rect t1_0)).set
      rw [View.set_slice_whole, Rect.mem_set_unit]
      intro a
      have h0 : (i 0 : Nat) < 512 := (i 0).isLt
      have h1 : (i 1 : Nat) < 256 := (i 1).isLt
      match a with
      | ⟨0, _⟩ => show win1_8.index t1_0 0 * win1_8.size 0 ≤ (i 0 : Nat) ∧ (i 0 : Nat) < win1_8.index t1_0 0 * win1_8.size 0 + win1_8.xsize (grid1.coords t1_0) 0
                  rw [show win1_8.index t1_0 0 * win1_8.size 0 = 0 from by decide +kernel, show win1_8.xsize (grid1.coords t1_0) 0 = 512 from by decide +kernel]; omega
      | ⟨1, _⟩ => show win1_8.index t1_0 1 * win1_8.size 1 ≤ (i 1 : Nat) ∧ (i 1 : Nat) < win1_8.index t1_0 1 * win1_8.size 1 + win1_8.xsize (grid1.coords t1_0) 1
                  rw [show win1_8.index t1_0 1 * win1_8.size 1 = 0 from by decide +kernel, show win1_8.xsize (grid1.coords t1_0) 1 = 256 from by decide +kernel]; omega⟩

/-- The result array after the second region. -/
theorem final_out (g : Fin 512) (f : Fin 256) :
    ((dat1 (E2 m) c).arrAt 8 cfg1.N : Vec Ideal S512x256 .f32) (ix2 g f) = outK (inp m c) g f := by
  rw [final_arr]; rfl

end Cert.KIValue

end
-- ==== Proof.RefValue.lean ====
/- The reference program's result, index by index, is the all-nodes-at-once arrangement `Spec.outR` of the model. -/
import proofs.«423388_j24472723652621_3_alg».proof.Proof.Gen.ReferenceIdeal.Run
import proofs.«423388_j24472723652621_3_alg».proof.Proof.Gen.ReferenceIdeal.Read
import proofs.«423388_j24472723652621_3_alg».proof.Proof.Arr
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx Cert.Spec

/-- Off a zero divisor the quotient of the ideal values is the extended reals' own. -/
theorem ideal_div_of_ne_zero {x y : EReal} (hy : y ≠ 0) : Ideal.div x y = x / y := by
  unfold Ideal.div
  rw [if_neg hy, div_eq_mul_inv]

/-! ## The graph id a node's row is looked up at -/

/-- The select on "id below zero" of "id plus 512" and the id, at a node. -/
theorem ref_gsel (x4 : (⟨S131072, .i32⟩ : BufTy).Contents (Elt Ideal)) (n : Fin 131072) :
    val_main_v4 (F := Ideal) x4 (ix1 n)
      = if (x4 (ix1 n)).slt 0#32 then x4 (ix1 n) + 512#32 else x4 (ix1 n) := by
  rw [val_main_v4_apply, val_main_v1_apply, val_main_v3_apply, val_main_v0_apply, val_main_v2_apply, val_main_c_apply,
    val_main_c_0_apply]
  unfold Scalar.select IntOp.cmpi IntOp.addi
  by_cases h : (x4 (ix1 n)).slt 0#32 <;> simp [h]

/-- The operand index the row lookup reads for result element `(n, j)`: the start index clamped into the table on the
    row axis, the column kept. -/
theorem gather_opIdx (idx : IVec S131072x1 32) (n : Fin 131072) (j : Fin 256) :
    gather_S512x256_S131072x1_S131072x256_1_0_n_n_0_1_1256.operandIdx (ix2 n j) idx
      = ix2 (⟨min (idx (ix2 n (0 : Fin 1))).toInt.toNat 511, by omega⟩ : Fin 512) j := by
  funext a
  refine Fin.ext ?_
  match a with
  | ⟨0, _⟩ =>
    show gather_S512x256_S131072x1_S131072x256_1_0_n_n_0_1_1256.start (ix2 n j) idx 0
      + gather_S512x256_S131072x1_S131072x256_1_0_n_n_0_1_1256.batchCoord (ix2 n j) 0
      + gather_S512x256_S131072x1_S131072x256_1_0_n_n_0_1_1256.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S512x256.rank) ∈ gather_S512x256_S131072x1_S131072x256_1_0_n_n_0_1_1256.startIndexMap from
      List.mem_singleton.mpr rfl)]
    have hsi : gather_S512x256_S131072x1_S131072x256_1_0_n_n_0_1_1256.siIdx (ix2 n j)
        ⟨List.idxOf (0 : Fin S512x256.rank) gather_S512x256_S131072x1_S131072x256_1_0_n_n_0_1_1256.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S512x256_S131072x1_S131072x256_1_0_n_n_0_1_1256.start (ix2 n j) idx 1
      + gather_S512x256_S131072x1_S131072x256_1_0_n_n_0_1_1256.batchCoord (ix2 n j) 1
      + gather_S512x256_S131072x1_S131072x256_1_0_n_n_0_1_1256.offCoord (ix2 n j) 1 = j.val
    rw [GatherDims.batchCoord_eq_zero _ _ _ List.not_mem_nil]
    unfold GatherDims.start GatherDims.offCoord
    rw [dif_neg (show ¬ (1 : Fin S512x256.rank) ∈ gather_S512x256_S131072x1_S131072x256_1_0_n_n_0_1_1256.startIndexMap by decide),
      dif_pos (show (1 : Fin S512x256.rank) ∈ gather_S512x256_S131072x1_S131072x256_1_0_n_n_0_1_1256.sKept by decide)]
    simp only [Nat.zero_add, Nat.add_zero]
    rfl

/-! ## Where an update of the per-graph sum lands

Update `(n, f')` goes to row "the node's id read as a signed number", column `f'`, and is dropped when that row is
not one of the 512. -/

theorem sc2_start0 (idx : IVec S131072x1 32) (n : Fin 131072) (f' : Fin 256) :
    scatter_S512x256_S131072x1_S131072x256_1_0_0_1.start (ix2 n f') idx 0 = (idx (ix2 n (0 : Fin 1))).toInt := by
  unfold ScatterDims.start
  rw [dif_pos (show (0 : Fin S512x256.rank) ∈ scatter_S512x256_S131072x1_S131072x256_1_0_0_1.scatterDimsToOperandDims from
    List.mem_singleton.mpr rfl)]
  have hsi : scatter_S512x256_S131072x1_S131072x256_1_0_0_1.siIdx (ix2 n f')
      ⟨List.idxOf (0 : Fin S512x256.rank) scatter_S512x256_S131072x1_S131072x256_1_0_0_1.scatterDimsToOperandDims,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem sc2_start1 (idx : IVec S131072x1 32) (n : Fin 131072) (f' : Fin 256) :
    scatter_S512x256_S131072x1_S131072x256_1_0_0_1.start (ix2 n f') idx 1 = 0 := by
  unfold ScatterDims.start
  rw [dif_neg (show ¬ (1 : Fin S512x256.rank) ∈ scatter_S512x256_S131072x1_S131072x256_1_0_0_1.scatterDimsToOperandDims by decide)]

theorem sc2_win0 (n : Fin 131072) (f' : Fin 256) :
    scatter_S512x256_S131072x1_S131072x256_1_0_0_1.window (ix2 n f') 0 = 0 := by
  unfold ScatterDims.window
  rw [dif_neg (show ¬ (0 : Fin S512x256.rank) ∈ scatter_S512x256_S131072x1_S131072x256_1_0_0_1.sKept by decide)]

theorem sc2_win1 (n : Fin 131072) (f' : Fin 256) :
    scatter_S512x256_S131072x1_S131072x256_1_0_0_1.window (ix2 n f') 1 = f'.val := by
  unfold ScatterDims.window
  rw [dif_pos (show (1 : Fin S512x256.rank) ∈ scatter_S512x256_S131072x1_S131072x256_1_0_0_1.sKept by decide)]
  rfl

theorem sc2_resultIdx_iff (idx : IVec S131072x1 32) (n : Fin 131072) (f' : Fin 256) (g : Fin 512) (f : Fin 256) :
    scatter_S512x256_S131072x1_S131072x256_1_0_0_1.resultIdx? (ix2 n f') idx = some (ix2 g f)
      ↔ (idx (ix2 n (0 : Fin 1))).toInt = (g.val : ℤ) ∧ f' = f := by
  unfold ScatterDims.resultIdx?
  split
  · rename_i h
    rw [Option.some.injEq]
    have h0 : 0 ≤ (idx (ix2 n (0 : Fin 1))).toInt + ((0 : ℕ) : ℤ)
        ∧ (idx (ix2 n (0 : Fin 1))).toInt + ((0 : ℕ) : ℤ) < ((512 : ℕ) : ℤ) := by
      have := h 0; rw [sc2_start0, sc2_win0] at this; exact this
    constructor
    · intro e
      have e0 : (scatter_S512x256_S131072x1_S131072x256_1_0_0_1.start (ix2 n f') idx 0
          + (scatter_S512x256_S131072x1_S131072x256_1_0_0_1.window (ix2 n f') 0 : ℕ)).toNat = g.val :=
        congrArg (fun v => (v 0).val) e
      have e1 : (scatter_S512x256_S131072x1_S131072x256_1_0_0_1.start (ix2 n f') idx 1
          + (scatter_S512x256_S131072x1_S131072x256_1_0_0_1.window (ix2 n f') 1 : ℕ)).toNat = f.val :=
        congrArg (fun v => (v 1).val) e
      rw [sc2_start0, sc2_win0] at e0
      rw [sc2_start1, sc2_win1] at e1
      exact ⟨by omega, Fin.ext (by omega)⟩
    · rintro ⟨e, rfl⟩
      funext a; refine Fin.ext ?_
      match a with
      | ⟨0, _⟩ =>
        show (scatter_S512x256_S131072x1_S131072x256_1_0_0_1.start (ix2 n f') idx 0
          + (scatter_S512x256_S131072x1_S131072x256_1_0_0_1.window (ix2 n f') 0 : ℕ)).toNat = g.val
        rw [sc2_start0, sc2_win0]; omega
      | ⟨1, _⟩ =>
        show (scatter_S512x256_S131072x1_S131072x256_1_0_0_1.start (ix2 n f') idx 1
          + (scatter_S512x256_S131072x1_S131072x256_1_0_0_1.window (ix2 n f') 1 : ℕ)).toNat = f'.val
        rw [sc2_start1, sc2_win1]; omega
  · rename_i h
    constructor
    · intro e; cases e
    · rintro ⟨e, rfl⟩
      refine absurd (fun a => ?_) h
      match a with
      | ⟨0, _⟩ =>
        show 0 ≤ scatter_S512x256_S131072x1_S131072x256_1_0_0_1.start (ix2 n f') idx 0
            + (scatter_S512x256_S131072x1_S131072x256_1_0_0_1.window (ix2 n f') 0 : ℕ)
          ∧ scatter_S512x256_S131072x1_S131072x256_1_0_0_1.start (ix2 n f') idx 0
            + (scatter_S512x256_S131072x1_S131072x256_1_0_0_1.window (ix2 n f') 0 : ℕ) < ((512 : ℕ) : ℤ)
        rw [sc2_start0, sc2_win0]; have := g.isLt; omega
      | ⟨1, _⟩ =>
        show 0 ≤ scatter_S512x256_S131072x1_S131072x256_1_0_0_1.start (ix2 n f') idx 1
            + (scatter_S512x256_S131072x1_S131072x256_1_0_0_1.window (ix2 n f') 1 : ℕ)
          ∧ scatter_S512x256_S131072x1_S131072x256_1_0_0_1.start (ix2 n f') idx 1
            + (scatter_S512x256_S131072x1_S131072x256_1_0_0_1.window (ix2 n f') 1 : ℕ) < ((256 : ℕ) : ℤ)
        rw [sc2_start1, sc2_win1]; have := f'.isLt; omega

/-- The accumulating scatter read at `(g, f)`: what was there plus the column-`f` updates of the nodes whose id is `g`. -/
theorem sc2_apply (x : S512x256.Idx → EReal) (idx : IVec S131072x1 32) (upd : S131072x256.Idx → EReal) (g : Fin 512)
    (f : Fin 256) :
    Ideal.hostScatterAdd scatter_S512x256_S131072x1_S131072x256_1_0_0_1 x idx upd (ix2 g f)
      = x (ix2 g f) + ∑ n : Fin 131072, if (idx (ix2 n (0 : Fin 1))).toInt = (g.val : ℤ) then upd (ix2 n f) else 0 := by
  unfold Ideal.hostScatterAdd
  refine congrArg (fun t => x (ix2 g f) + t) ?_
  rw [Finset.sum_filter, sum_idx2]
  refine Finset.sum_congr rfl fun n _ => ?_
  by_cases hn : (idx (ix2 n (0 : Fin 1))).toInt = (g.val : ℤ)
  · rw [if_pos hn, Finset.sum_eq_single f]
    · rw [if_pos ((sc2_resultIdx_iff idx n f g f).2 ⟨hn, rfl⟩)]
    · intro f' _ hf'
      rw [if_neg (fun h => hf' ((sc2_resultIdx_iff idx n f' g f).1 h).2)]
    · intro h; exact absurd (Finset.mem_univ f) h
  · rw [if_neg hn]
    refine Finset.sum_eq_zero fun f' _ => ?_
    rw [if_neg (fun h => hn ((sc2_resultIdx_iff idx n f' g f).1 h).1)]

/-! ## Where an update of the per-graph count lands -/

theorem sc1_start0 (idx : IVec S131072x1 32) (n : Fin 131072) :
    scatter_S512_S131072x1_S131072_n_0_0_1.start (ix1 n) idx 0 = (idx (ix2 n (0 : Fin 1))).toInt := by
  unfold ScatterDims.start
  rw [dif_pos (show (0 : Fin S512.rank) ∈ scatter_S512_S131072x1_S131072_n_0_0_1.scatterDimsToOperandDims from
    List.mem_singleton.mpr rfl)]
  have hsi : scatter_S512_S131072x1_S131072_n_0_0_1.siIdx (ix1 n)
      ⟨List.idxOf (0 : Fin S512.rank) scatter_S512_S131072x1_S131072_n_0_0_1.scatterDimsToOperandDims,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem sc1_win0 (n : Fin 131072) : scatter_S512_S131072x1_S131072_n_0_0_1.window (ix1 n) 0 = 0 := by
  unfold ScatterDims.window
  rw [dif_neg (show ¬ (0 : Fin S512.rank) ∈ scatter_S512_S131072x1_S131072_n_0_0_1.sKept by decide)]

theorem sc1_resultIdx_iff (idx : IVec S131072x1 32) (n : Fin 131072) (g : Fin 512) :
    scatter_S512_S131072x1_S131072_n_0_0_1.resultIdx? (ix1 n) idx = some (ix1 g)
      ↔ (idx (ix2 n (0 : Fin 1))).toInt = (g.val : ℤ) := by
  unfold ScatterDims.resultIdx?
  split
  · rename_i h
    rw [Option.some.injEq]
    have h0 : 0 ≤ (idx (ix2 n (0 : Fin 1))).toInt + ((0 : ℕ) : ℤ)
        ∧ (idx (ix2 n (0 : Fin 1))).toInt + ((0 : ℕ) : ℤ) < ((512 : ℕ) : ℤ) := by
      have := h 0; rw [sc1_start0, sc1_win0] at this; exact this
    constructor
    · intro e
      have e0 : (scatter_S512_S131072x1_S131072_n_0_0_1.start (ix1 n) idx 0
          + (scatter_S512_S131072x1_S131072_n_0_0_1.window (ix1 n) 0 : ℕ)).toNat = g.val :=
        congrArg (fun v => (v 0).val) e
      rw [sc1_start0, sc1_win0] at e0
      omega
    · intro e
      funext a; refine Fin.ext ?_
      match a with
      | ⟨0, _⟩ =>
        show (scatter_S512_S131072x1_S131072_n_0_0_1.start (ix1 n) idx 0
          + (scatter_S512_S131072x1_S131072_n_0_0_1.window (ix1 n) 0 : ℕ)).toNat = g.val
        rw [sc1_start0, sc1_win0]; omega
  · rename_i h
    constructor
    · intro e; cases e
    · intro e
      refine absurd (fun a => ?_) h
      match a with
      | ⟨0, _⟩ =>
        show 0 ≤ scatter_S512_S131072x1_S131072_n_0_0_1.start (ix1 n) idx 0
            + (scatter_S512_S131072x1_S131072_n_0_0_1.window (ix1 n) 0 : ℕ)
          ∧ scatter_S512_S131072x1_S131072_n_0_0_1.start (ix1 n) idx 0
            + (scatter_S512_S131072x1_S131072_n_0_0_1.window (ix1 n) 0 : ℕ) < ((512 : ℕ) : ℤ)
        rw [sc1_start0, sc1_win0]; have := g.isLt; omega

/-- The accumulating scatter of one value per node, read at graph `g`: what was there plus the values of the nodes
    whose id is `g`. -/
theorem sc1_apply (x : S512.Idx → EReal) (idx : IVec S131072x1 32) (upd : S131072.Idx → EReal) (g : Fin 512) :
    Ideal.hostScatterAdd scatter_S512_S131072x1_S131072_n_0_0_1 x idx upd (ix1 g)
      = x (ix1 g) + ∑ n : Fin 131072, if (idx (ix2 n (0 : Fin 1))).toInt = (g.val : ℤ) then upd (ix1 n) else 0 := by
  unfold Ideal.hostScatterAdd
  refine congrArg (fun t => x (ix1 g) + t) ?_
  rw [Finset.sum_filter, ← Equiv.sum_comp (idxEquiv1 (n := 131072)).symm]
  refine Finset.sum_congr rfl fun n _ => ?_
  show (if scatter_S512_S131072x1_S131072_n_0_0_1.resultIdx? (ix1 n) idx = some (ix1 g) then upd (ix1 n) else 0) = _
  by_cases hn : (idx (ix2 n (0 : Fin 1))).toInt = (g.val : ℤ)
  · rw [if_pos hn, if_pos ((sc1_resultIdx_iff idx n g).2 hn)]
  · rw [if_neg hn, if_neg (fun h => hn ((sc1_resultIdx_iff idx n g).1 h))]

section Stages

variable (x0 : (⟨S131072x256, .f32⟩ : BufTy).Contents (Elt Ideal)) (x3 : (⟨S512x256, .f32⟩ : BufTy).Contents (Elt Ideal))
  (x4 : (⟨S131072, .i32⟩ : BufTy).Contents (Elt Ideal)) (x5 : (⟨S512x512, .f32⟩ : BufTy).Contents (Elt Ideal))
  (x6 : (⟨S512, .f32⟩ : BufTy).Contents (Elt Ideal)) (x7 : (⟨S512x256, .f32⟩ : BufTy).Contents (Elt Ideal))
  (x8 : (⟨S256, .f32⟩ : BufTy).Contents (Elt Ideal)) (x9 : (⟨S512x512, .f32⟩ : BufTy).Contents (Elt Ideal))
  (x10 : (⟨S512, .f32⟩ : BufTy).Contents (Elt Ideal)) (x11 : (⟨S512x256, .f32⟩ : BufTy).Contents (Elt Ideal))
  (x12 : (⟨S256, .f32⟩ : BufTy).Contents (Elt Ideal))

local notation "𝐈" => inpOf x0 x3 x4 x5 x6 x7 x8 x9 x10 x11 x12

/-- The looked-up row: element `(n, j)` is the graph table at the node's clamped row, column `j`. -/
theorem ref_gather (n : Fin 131072) (j : Fin 256) :
    val_main_v6 (F := Ideal) x3 x4 (ix2 n j) = x3 (ix2 (gidx 𝐈 n) j) := by
  unfold val_main_v6 Host.gather
  rw [gather_opIdx]
  have h5 : val_main_v5 (F := Ideal) x4 (ix2 n (0 : Fin 1)) = gsel 𝐈 n := by
    rw [val_main_v5_apply]
    have e : idx_main_v5 (ix2 n (0 : Fin 1)) = ix1 n := by
      funext a; match a with | ⟨0, _⟩ => rfl
    rw [e, ref_gsel]
    rfl
  unfold gidx
  congr 2
  refine Fin.ext ?_
  show min (val_main_v5 (F := Ideal) x4 (ix2 n (0 : Fin 1))).toInt.toNat 511 = min (gsel 𝐈 n).toInt.toNat 511
  rw [h5]

/-- A node's features beside its graph's row. -/
theorem ref_cat (n : Fin 131072) (k : Fin 512) :
    val_main_v7 (F := Ideal) x0 x3 x4 (ix2 n k) = cat 𝐈 n k := by
  unfold val_main_v7 cat
  by_cases h : k.val < 256
  · rw [dif_pos h]
    exact concatenate_pair_apply_left (t := S131072x512) (s₁ := S131072x256) (s₂ := S131072x256) 1 _ _ _ (ix2 n k) rfl
      (ix2 n (⟨k.val, h⟩ : Fin 256)) (fun b => match b with | ⟨0, _⟩ => rfl | ⟨1, _⟩ => rfl)
  · rw [dif_neg h]
    rw [concatenate_pair_apply_right (t := S131072x512) (s₁ := S131072x256) (s₂ := S131072x256) 1 _ _ _ (ix2 n k) rfl rfl
      (ix2 n (⟨k.val - 256, by omega⟩ : Fin 256))
      (fun b => match b with | ⟨0, _⟩ => fun _ => rfl | ⟨1, _⟩ => fun hb => absurd rfl hb)
      (show k.val - 256 + 256 = k.val by omega)]
    exact ref_gather x0 x3 x4 x5 x6 x7 x8 x9 x10 x11 x12 n _

/-- The first gating layer: the concatenated row through the weights, plus the bias, clipped below at zero. -/
theorem ref_h1 (n : Fin 131072) (k : Fin 512) :
    val_main_v12 (F := Ideal) x0 x3 x4 x5 x6 (ix2 n k) = h1R 𝐈 n k := by
  rw [val_main_v12_apply, val_main_v11_apply, val_main_v8_apply, val_main_v10_apply, val_main_v9_apply,
    val_main_call0_v0_apply, val_main_call0_cst_apply]
  have e1 : ∀ k' : Fin 512, lidx_main_v8 (ix2 n k) k' = ix2 n k' := fun k' => by
    funext a; match a with | ⟨0, _⟩ => rfl | ⟨1, _⟩ => rfl
  have e2 : ∀ k' : Fin 512, ridx_main_v8 (ix2 n k) k' = ix2 k' k := fun k' => by
    funext a; match a with | ⟨0, _⟩ => rfl | ⟨1, _⟩ => rfl
  have e3 : idx_main_v9 (idx_main_v10 (ix2 n k)) = ix1 k := by
    funext a; match a with | ⟨0, _⟩ => rfl
  simp only [Ideal.maximumf_def, Ideal.addf_def, Ideal.ofBits_def, Ideal.ofBits_zero_f32, e1, e2, e3,
    ref_cat x0 x3 x4 x5 x6 x7 x8 x9 x10 x11 x12]
  rfl

/-- The second gating layer. -/
theorem ref_a (n : Fin 131072) (f : Fin 256) :
    val_main_v16 (F := Ideal) x0 x3 x4 x5 x6 x7 x8 (ix2 n f) = aR 𝐈 n f := by
  rw [val_main_v16_apply, val_main_v13_apply, val_main_v15_apply, val_main_v14_apply]
  have e1 : ∀ k : Fin 512, lidx_main_v13 (ix2 n f) k = ix2 n k := fun k => by
    funext a; match a with | ⟨0, _⟩ => rfl | ⟨1, _⟩ => rfl
  have e2 : ∀ k : Fin 512, ridx_main_v13 (ix2 n f) k = ix2 k f := fun k => by
    funext a; match a with | ⟨0, _⟩ => rfl | ⟨1, _⟩ => rfl
  have e3 : idx_main_v14 (idx_main_v15 (ix2 n f)) = ix1 f := by
    funext a; match a with | ⟨0, _⟩ => rfl
  simp only [Ideal.addf_def, e1, e2, e3, ref_h1 x0 x3 x4 x5 x6 x7 x8 x9 x10 x11 x12]
  rfl

/-- A node's features weighted by its gate. -/
theorem ref_w (n : Fin 131072) (f : Fin 256) :
    val_main_v17 (F := Ideal) x0 x3 x4 x5 x6 x7 x8 (ix2 n f) = wR 𝐈 n f := by
  rw [val_main_v17_apply, ref_a x0 x3 x4 x5 x6 x7 x8 x9 x10 x11 x12]
  rfl

/-- Per graph and column, the weighted features of the graph's nodes summed. -/
theorem ref_sums (g : Fin 512) (f : Fin 256) :
    val_main_v20 (F := Ideal) x0 x3 x4 x5 x6 x7 x8 (ix2 g f) = sumsR 𝐈 g f := by
  unfold val_main_v20 Host.scatterAdd
  rw [Ideal.hostScatterAdd_def, sc2_apply, val_main_v18_apply, val_main_cst_apply, Ideal.ofBits_def, Ideal.ofBits_zero_f32,
    zero_add]
  unfold sumsR
  refine Finset.sum_congr rfl fun n _ => ?_
  have e : val_main_v19 (F := Ideal) x4 (ix2 n (0 : Fin 1)) = x4 (ix1 n) := by
    rw [val_main_v19_apply]
    congr 1
    funext a; match a with | ⟨0, _⟩ => rfl
  rw [e, ref_w x0 x3 x4 x5 x6 x7 x8 x9 x10 x11 x12]
  rfl

/-- Per graph, the number of its nodes. -/
theorem ref_cnt (g : Fin 512) : val_main_v24 (F := Ideal) x4 (ix1 g) = cntR 𝐈 g := by
  unfold val_main_v24 Host.scatterAdd
  rw [Ideal.hostScatterAdd_def, sc1_apply, val_main_v22_apply, val_main_cst_2_apply, Ideal.ofBits_def, Ideal.ofBits_zero_f32,
    zero_add]
  unfold cntR
  refine Finset.sum_congr rfl fun n _ => ?_
  have e : val_main_v23 (F := Ideal) x4 (ix2 n (0 : Fin 1)) = x4 (ix1 n) := by
    rw [val_main_v23_apply]
    congr 1
    funext a; match a with | ⟨0, _⟩ => rfl
  rw [e, val_main_v21_apply, val_main_cst_1_apply, Ideal.ofBits_def, Ideal.ofBits_one_f32]
  rfl

/-- The per-graph mean: the sum over the count, the count taken as at least one (so the divisor is never zero). -/
theorem ref_xagg (g : Fin 512) (f : Fin 256) :
    val_main_v29 (F := Ideal) x0 x3 x4 x5 x6 x7 x8 (ix2 g f) = xaggR 𝐈 g f := by
  rw [val_main_v29_apply, val_main_v28_apply, val_main_v27_apply, val_main_v26_apply, val_main_v25_apply,
    val_main_cst_3_apply]
  have e : idx_main_v27 (idx_main_v28 (ix2 g f)) = ix1 g := by
    funext a; match a with | ⟨0, _⟩ => rfl
  rw [e, ref_sums x0 x3 x4 x5 x6 x7 x8 x9 x10 x11 x12, ref_cnt x0 x3 x4 x5 x6 x7 x8 x9 x10 x11 x12]
  simp only [Ideal.hostDivf_def, Ideal.maximumf_def, Ideal.ofBits_def, Ideal.ofBits_one_f32]
  unfold xaggR
  exact ideal_div_of_ne_zero (lt_of_lt_of_le zero_lt_one (le_max_right _ _)).ne'

/-- A graph's mean beside its own features. -/
theorem ref_cat2 (g k : Fin 512) :
    val_main_v30 (F := Ideal) x0 x3 x4 x5 x6 x7 x8 (ix2 g k) = cat2 𝐈 g k := by
  unfold val_main_v30 cat2
  by_cases h : k.val < 256
  · rw [dif_pos h]
    rw [concatenate_pair_apply_left (t := S512x512) (s₁ := S512x256) (s₂ := S512x256) 1 _ _ _ (ix2 g k) rfl
      (ix2 g (⟨k.val, h⟩ : Fin 256)) (fun b => match b with | ⟨0, _⟩ => rfl | ⟨1, _⟩ => rfl)]
    exact ref_xagg x0 x3 x4 x5 x6 x7 x8 x9 x10 x11 x12 g _
  · rw [dif_neg h]
    exact concatenate_pair_apply_right (t := S512x512) (s₁ := S512x256) (s₂ := S512x256) 1 _ _ _ (ix2 g k) rfl rfl
      (ix2 g (⟨k.val - 256, by omega⟩ : Fin 256))
      (fun b => match b with | ⟨0, _⟩ => fun _ => rfl | ⟨1, _⟩ => fun hb => absurd rfl hb)
      (show k.val - 256 + 256 = k.val by omega)

/-- The first layer of the second network. -/
theorem ref_h2 (g k : Fin 512) :
    val_main_v35 (F := Ideal) x0 x3 x4 x5 x6 x7 x8 x9 x10 (ix2 g k) = h2R 𝐈 g k := by
  rw [val_main_v35_apply, val_main_v34_apply, val_main_v31_apply, val_main_v33_apply, val_main_v32_apply,
    val_main_call1_v0_apply, val_main_call1_cst_apply]
  have e1 : ∀ k' : Fin 512, lidx_main_v31 (ix2 g k) k' = ix2 g k' := fun k' => by
    funext a; match a with | ⟨0, _⟩ => rfl | ⟨1, _⟩ => rfl
  have e2 : ∀ k' : Fin 512, ridx_main_v31 (ix2 g k) k' = ix2 k' k := fun k' => by
    funext a; match a with | ⟨0, _⟩ => rfl | ⟨1, _⟩ => rfl
  have e3 : idx_main_v32 (idx_main_v33 (ix2 g k)) = ix1 k := by
    funext a; match a with | ⟨0, _⟩ => rfl
  simp only [Ideal.maximumf_def, Ideal.addf_def, Ideal.ofBits_def, Ideal.ofBits_zero_f32, e1, e2, e3,
    ref_cat2 x0 x3 x4 x5 x6 x7 x8 x9 x10 x11 x12]
  rfl

end Stages

/-- The reference's result array is `outR` of the argument arrays' coordinate functions. -/
theorem val_main_v39_is_outR
    (x0 : (⟨S131072x256, .f32⟩ : BufTy).Contents (Elt Ideal)) (x3 : (⟨S512x256, .f32⟩ : BufTy).Contents (Elt Ideal))
    (x4 : (⟨S131072, .i32⟩ : BufTy).Contents (Elt Ideal)) (x5 : (⟨S512x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S512x512, .f32⟩ : BufTy).Contents (Elt Ideal))
    (x10 : (⟨S512, .f32⟩ : BufTy).Contents (Elt Ideal)) (x11 : (⟨S512x256, .f32⟩ : BufTy).Contents (Elt Ideal))
    (x12 : (⟨S256, .f32⟩ : BufTy).Contents (Elt Ideal)) (g : Fin 512) (f : Fin 256) :
    val_main_v39 (F := Ideal) x0 x3 x4 x5 x6 x7 x8 x9 x10 x11 x12 (ix2 g f)
      = outR (inpOf x0 x3 x4 x5 x6 x7 x8 x9 x10 x11 x12) g f := by
  rw [val_main_v39_apply, val_main_v36_apply, val_main_v38_apply, val_main_v37_apply]
  have e1 : ∀ k : Fin 512, lidx_main_v36 (ix2 g f) k = ix2 g k := fun k => by
    funext a; match a with | ⟨0, _⟩ => rfl | ⟨1, _⟩ => rfl
  have e2 : ∀ k : Fin 512, ridx_main_v36 (ix2 g f) k = ix2 k f := fun k => by
    funext a; match a with | ⟨0, _⟩ => rfl | ⟨1, _⟩ => rfl
  have e3 : idx_main_v37 (idx_main_v38 (ix2 g f)) = ix1 f := by
    funext a; match a with | ⟨0, _⟩ => rfl
  simp only [Ideal.addf_def, e1, e2, e3, ref_h2 x0 x3 x4 x5 x6 x7 x8 x9 x10 x11 x12]
  rfl

end Cert.RefValue

end
-- ==== Proof.lean ====
/- The certificate of a graph model's two arrangements: a Pallas program that selects each node's graph by a row of
   zeros and ones and sums the gated node features block by block in two kernels, against a jnp program that looks the
   graph's features up and sums over all nodes with a scatter. Both programs run to the end leaving their inputs
   unchanged (the three frames); the idealized kernel program differs from the word-level one in one place, a narrowing
   followed by a widening of the zero-one matrix (`preserves`); and over the extended reals the two programs return the
   same array (`algebraic`): the kernel program's result is `Spec.outK` of the inputs, the reference's is `Spec.outR`,
   and the two are one function. No input needs to be finite for that. -/
import proofs.«423388_j24472723652621_3_alg».proof.Defs
import proofs.«423388_j24472723652621_3_alg».proof.Proof.Gen.Kernel
import proofs.«423388_j24472723652621_3_alg».proof.Proof.Gen.KernelIdeal
import proofs.«423388_j24472723652621_3_alg».proof.Proof.Gen.ReferenceIdeal
import proofs.«423388_j24472723652621_3_alg».proof.Proof.Gen.Pre_finite_inputs
import proofs.«423388_j24472723652621_3_alg».proof.Proof.Gen.ReferenceIdeal.Run
import proofs.«423388_j24472723652621_3_alg».proof.Proof.Gen.ReferenceIdeal.Read
import proofs.«423388_j24472723652621_3_alg».proof.Proof.KMain
import proofs.«423388_j24472723652621_3_alg».proof.Proof.KIMain
import proofs.«423388_j24472723652621_3_alg».proof.Proof.KIVal1
import proofs.«423388_j24472723652621_3_alg».proof.Proof.RefValue
import Idealize.ShloMosaic.Adequacy
import Idealize.ShloMosaic.Init

noncomputable section

namespace Cert.Proof

open Idealize.ShloMosaic Idealize.SL.Sem Idealize.ShloMosaic.ValueIdx

theorem frame_K : @Cert.frame_Kernel Cert.Kernel.Gen.facts Cert.Pre_finite_inputs.Gen.facts :=
  fun m ρ _ => Cert.Kernel.Fr.frame (F := Bits) m ρ

theorem frame_KI : @Cert.frame_KernelIdeal Cert.KernelIdeal.Gen.facts Cert.Pre_finite_inputs.Gen.facts :=
  fun m ρ _ => Cert.KernelIdeal.Fr.frame (F := Ideal) m ρ

theorem frame_R : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := IdealRules.truncf_extf.statement _ .f32 .bf16

/-- Both programs end with the same result array: the kernel program's is the block-by-block arrangement of the model
    at its inputs, the reference's the all-nodes-at-once arrangement at inputs that agree, and the two arrangements are
    equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Fr.dat1 (Cert.KernelIdeal.Fr.E2 m) c).arrAt 8 Cert.KernelIdeal.cfg1.N,
    Cert.KernelIdeal.Fr.run_main (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v39_eq]
  obtain ⟨h0, _, _, h3, h4, h5, h6, h7, h8, h9, h10, h11, h12⟩ := hagree c
  rw [h0, h3, h4, h5, h6, h7, h8, h9, h10, h11, h12]
  funext i
  obtain ⟨g, f, rfl⟩ : ∃ (g : Fin 512) (f : Fin 256), i = ix2 g f := ⟨i 0, i 1, eq_ix2 i⟩
  exact (Cert.RefValue.val_main_v39_is_outR _ _ _ _ _ _ _ _ _ _ _ g f).trans
    ((Cert.Spec.outK_eq_outR _ g f).symm.trans (Cert.KIValue.final_out m c g f).symm)

theorem claim : Cert.Claim := ⟨Cert.Kernel.Gen.facts, Cert.KernelIdeal.Gen.facts, Cert.ReferenceIdeal.Gen.facts, Cert.Pre_finite_inputs.Gen.facts,
  frame_K, frame_KI, frame_R, preserves, algebraic⟩

end Cert.Proof

end
